-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v89_0)) (v1 : (c : Dev Cert.KernelIdeal.nD) → Buf (Elt Ideal) ((c.tc : Thread Cert.KernelIdeal.nD Cert.KernelIdeal.τ).loc Cert.KernelIdeal.main_v89_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89_0) = v0 c
          ∧ r.2.mem ((c.tc : Thread Cert.KernelIdeal.nD Cert.KernelIdeal.τ).loc Cert.KernelIdeal.main_v89_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S64 .f32) (main_arg16 : FVec F S64x16 .f32) (main_arg17 : FVec F S16 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x16 .f32 := Host.absf main_arg16
  let main_cst_28 : FVec F S_ .f32 := constant S_ .f32 0x7F800000#32
  let main_v75 : FVec F S64x16 .f32 := broadcastInDim S64x16 ![] bcast_S_S64x16 main_cst_28
  let main_v76 : IVec S64x16 1 := cmpf .olt main_v74 main_v75
  let main_c_29 : IVec S_ 1 := constantI S_ 1 1#1
  let main_v77 : IVec S_ 1 := (fun x v => Host.reduce IntOp.andi x v reducesTo_S64x16_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg12 : FVec F S128x64 .f32) (main_arg13 : FVec F S64 .f32) (main_arg14 : FVec F S128x64 .f32) (main_arg15 : FVec F S64 .f32) (main_arg16 : FVec F S64x16 .f32) (main_arg17 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_v63 main_v67

def fn_part2 {F : FTy → Type} [FloatOps F] (main_arg8 : FVec F S64x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_arg16 : FVec F S64x16 .f32) (main_arg17 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_arg16 : FVec F S64x16 .f32) (main_arg17 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : FVec F S800000 .f32) (main_arg3 : FVec F S50000x64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_arg16 : FVec F S64x16 .f32) (main_arg17 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S1x16 : Shape := ⟨2, ![1, 16]⟩
abbrev S50000x16 : Shape := ⟨2, ![50000, 16]⟩
abbrev S2000x64 : Shape := ⟨2, ![2000, 64]⟩
abbrev S2000x16 : Shape := ⟨2, ![2000, 16]⟩
abbrev S2000x128 : Shape := ⟨2, ![2000, 128]⟩

abbrev nBuf : Space → Nat
  | .hbm => 129
  | .vmem => 20
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S128x64, .f32⟩
  | 15 => ⟨S64, .f32⟩
  | 16 => ⟨S64x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S50000, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S50000x64, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x1, .f32⟩
  | 74 => ⟨S850000x64, .f32⟩
  | 75 => ⟨S850000x64, .f32⟩
  | 76 => ⟨S_, .f32⟩
  | 77 => ⟨S50000x64, .f32⟩
  | 78 => ⟨S850000x1, .i32⟩
  | 79 => ⟨S50000x64, .f32⟩
  | 80 => ⟨S1x64, .f32⟩
  | 81 => ⟨S50000x64, .f32⟩
  | 82 => ⟨S50000x64, .f32⟩
  | 83 => ⟨S50000x64, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x64, .f32⟩
  | 93 => ⟨S850000x1, .f32⟩
  | 94 => ⟨S850000x64, .f32⟩
  | 95 => ⟨S850000x64, .f32⟩
  | 96 => ⟨S_, .f32⟩
  | 97 => ⟨S50000x64, .f32⟩
  | 98 => ⟨S850000x1, .i32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x64, .f32⟩
  | 113 => ⟨S850000x1, .f32⟩
  | 114 => ⟨S850000x64, .f32⟩
  | 115 => ⟨S850000x64, .f32⟩
  | 116 => ⟨S_, .f32⟩
  | 117 => ⟨S50000x64, .f32⟩
  | 118 => ⟨S850000x1, .i32⟩
  | 119 => ⟨S50000x64, .f32⟩
  | 120 => ⟨S1x64, .f32⟩
  | 121 => ⟨S50000x64, .f32⟩
  | 122 => ⟨S50000x64, .f32⟩
  | 123 => ⟨S1x64, .f32⟩
  | 124 => ⟨S1x64, .f32⟩
  | 125 => ⟨S1x64, .f32⟩
  | 126 => ⟨S1x16, .f32⟩
  | 127 => ⟨S50000x16, .f32⟩
  | _ => ⟨S50000x64, .f32⟩

abbrev hbmTy0_1 (i : Nat) : BufTy := match i % 128 with
  | 0 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S128x64, .f32⟩
  | .local _ .vmem, ⟨9, _⟩ => ⟨S1x64, .f32⟩
  | .local _ .vmem, ⟨10, _⟩ => ⟨S128x64, .f32⟩
  | .local _ .vmem, ⟨11, _⟩ => ⟨S1x64, .f32⟩
  | .local _ .vmem, ⟨12, _⟩ => ⟨S128x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | .local _ .vmem, ⟨18, _⟩ => ⟨S2000x64, .f32⟩
  | .local _ .vmem, ⟨19, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89_0 : Ref sig .tc := ⟨.hbm, 127, rfl⟩
abbrev main_v89_1 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S64_S1x64 : S64.ShapeCasts S1x64
  shapeCasts_S16_S1x16 : S16.ShapeCasts S1x16
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x128_S128x64_S2000x64_1_0_0_1_n_n_wf : DotDims.WF S2000x128 S128x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x16.size a ≤ S64x16.size a
  hwx0_10 : ∀ i : grid0.Coords, EltTy.bits .f32 = 32 ∨ (Rect.block (s := S64x16) S64x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x16.size a ≤ S50000x16.size a
  hwx0_12 : ∀ i : grid0.Coords, EltTy.bits .f32 = 32 ∨ (Rect.block (s := S50000x16) S2000x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x64.size a ≤ S50000x64.size a
  hwx0_13 : ∀ i : grid0.Coords, EltTy.bits .f32 = 32 ∨ (Rect.block (s := S50000x64) S2000x64.size (cc0_transform_13 i) (hinb0_13 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v50) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v84) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v86) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v87) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v88) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v89_0) S2000x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v89_1) S2000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x128 : Shape := ⟨2, ![50000, 128]⟩
abbrev S50000x16 : Shape := ⟨2, ![50000, 16]⟩
abbrev S1x16 : Shape := ⟨2, ![1, 16]⟩

abbrev nBuf : Space → Nat
  | .hbm => 263
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S128x64, .f32⟩
  | 15 => ⟨S64, .f32⟩
  | 16 => ⟨S64x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S50000x64, .f32⟩
  | 23 => ⟨S50000, .i32⟩
  | 24 => ⟨S850000, .i32⟩
  | 25 => ⟨S850000, .i32⟩
  | 26 => ⟨S_, .f32⟩
  | 27 => ⟨S50000, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x1, .f32⟩
  | 74 => ⟨S850000x64, .f32⟩
  | 75 => ⟨S850000x64, .f32⟩
  | 76 => ⟨S_, .f32⟩
  | 77 => ⟨S50000x64, .f32⟩
  | 78 => ⟨S850000x1, .i32⟩
  | 79 => ⟨S50000x64, .f32⟩
  | 80 => ⟨S1x64, .f32⟩
  | 81 => ⟨S50000x64, .f32⟩
  | 82 => ⟨S50000x64, .f32⟩
  | 83 => ⟨S50000x128, .f32⟩
  | 84 => ⟨S50000x64, .f32⟩
  | 85 => ⟨S1x64, .f32⟩
  | 86 => ⟨S50000x64, .f32⟩
  | 87 => ⟨S50000x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S50000, .i32⟩
  | 98 => ⟨S850000, .i32⟩
  | 99 => ⟨S850000, .i32⟩
  | 100 => ⟨S_, .f32⟩
  | 101 => ⟨S50000, .f32⟩
  | 102 => ⟨S850000, .f32⟩
  | 103 => ⟨S_, .f32⟩
  | 104 => ⟨S50000, .f32⟩
  | 105 => ⟨S850000x1, .i32⟩
  | 106 => ⟨S50000, .f32⟩
  | 107 => ⟨S_, .f32⟩
  | 108 => ⟨S50000, .f32⟩
  | 109 => ⟨S50000, .i1⟩
  | 110 => ⟨S_, .f32⟩
  | 111 => ⟨S50000, .f32⟩
  | 112 => ⟨S50000, .f32⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x64, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000, .f32⟩
  | 9 => ⟨S850000, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x1, .f32⟩
  | 20 => ⟨S850000x64, .f32⟩
  | 21 => ⟨S850000x64, .f32⟩
  | 22 => ⟨S_, .f32⟩
  | 23 => ⟨S50000x64, .f32⟩
  | 24 => ⟨S850000x1, .i32⟩
  | 25 => ⟨S50000x64, .f32⟩
  | 26 => ⟨S1x64, .f32⟩
  | 27 => ⟨S50000x64, .f32⟩
  | 28 => ⟨S50000x64, .f32⟩
  | 29 => ⟨S50000x128, .f32⟩
  | 30 => ⟨S50000x64, .f32⟩
  | 31 => ⟨S1x64, .f32⟩
  | 32 => ⟨S50000x64, .f32⟩
  | 33 => ⟨S50000x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S50000, .i32⟩
  | 44 => ⟨S850000, .i32⟩
  | 45 => ⟨S850000, .i32⟩
  | 46 => ⟨S_, .f32⟩
  | 47 => ⟨S50000, .f32⟩
  | 48 => ⟨S850000, .f32⟩
  | 49 => ⟨S_, .f32⟩
  | 50 => ⟨S50000, .f32⟩
  | 51 => ⟨S850000x1, .i32⟩
  | 52 => ⟨S50000, .f32⟩
  | 53 => ⟨S_, .f32⟩
  | 54 => ⟨S50000, .f32⟩
  | 55 => ⟨S50000, .i1⟩
  | 56 => ⟨S_, .f32⟩
  | 57 => ⟨S50000, .f32⟩
  | 58 => ⟨S50000, .f32⟩
  | 59 => ⟨S50000, .f32⟩
  | 60 => ⟨S_, .f32⟩
  | 61 => ⟨S_, .f32⟩
  | 62 => ⟨S50000, .f32⟩
  | 63 => ⟨S50000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x64, .f32⟩
  | 93 => ⟨S850000x1, .f32⟩
  | 94 => ⟨S850000x64, .f32⟩
  | 95 => ⟨S850000x64, .f32⟩
  | 96 => ⟨S_, .f32⟩
  | 97 => ⟨S50000x64, .f32⟩
  | 98 => ⟨S850000x1, .i32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S50000x128, .f32⟩
  | 105 => ⟨S50000x64, .f32⟩
  | 106 => ⟨S1x64, .f32⟩
  | 107 => ⟨S50000x64, .f32⟩
  | 108 => ⟨S50000x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S50000x64, .f32⟩
  | 115 => ⟨S50000x64, .f32⟩
  | 116 => ⟨S_, .f32⟩
  | 117 => ⟨S50000x64, .f32⟩
  | 118 => ⟨S50000x64, .i1⟩
  | 119 => ⟨S_, .f32⟩
  | 120 => ⟨S50000x64, .f32⟩
  | 121 => ⟨S50000x64, .i1⟩
  | 122 => ⟨S_, .f32⟩
  | 123 => ⟨S_, .f32⟩
  | 124 => ⟨S50000x64, .f32⟩
  | 125 => ⟨S50000x64, .f32⟩
  | 126 => ⟨S50000x64, .f32⟩
  | 127 => ⟨S_, .f32⟩
  | _ => ⟨S50000x64, .f32⟩

abbrev hbmTy0_2 (i : Nat) : BufTy := match i % 128 with
  | 0 => ⟨S50000x64, .f32⟩
  | 1 => ⟨S50000x64, .f32⟩
  | 2 => ⟨S50000x64, .f32⟩
  | 3 => ⟨S50000x16, .f32⟩
  | 4 => ⟨S1x16, .f32⟩
  | 5 => ⟨S50000x16, .f32⟩
  | 6 => ⟨S50000x16, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_call1_v0 : Ref sig .tc := ⟨.hbm, 115, rfl⟩
abbrev main_call1_v1 : Ref sig .tc := ⟨.hbm, 116, rfl⟩
abbrev main_v76 : Ref sig .tc := ⟨.hbm, 117, rfl⟩
abbrev main_c_17 : Ref sig .tc := ⟨.hbm, 118, rfl⟩
abbrev main_v77 : Ref sig .tc := ⟨.hbm, 119, rfl⟩
abbrev main_v78 : Ref sig .tc := ⟨.hbm, 120, rfl⟩
abbrev main_c_18 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_19 : Ref sig .tc := ⟨.hbm, 128, rfl⟩
abbrev main_v85 : Ref sig .tc := ⟨.hbm, 129, rfl⟩
abbrev main_v86 : Ref sig .tc := ⟨.hbm, 130, rfl⟩
abbrev main_c_20 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_21 : Ref sig .tc := ⟨.hbm, 138, rfl⟩
abbrev main_v93 : Ref sig .tc := ⟨.hbm, 139, rfl⟩
abbrev main_v94 : Ref sig .tc := ⟨.hbm, 140, rfl⟩
abbrev main_c_22 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_23 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_24 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_cst_29 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_30 : Ref sig .tc := ⟨.hbm, 188, rfl⟩
abbrev main_call2_v0 : Ref sig .tc := ⟨.hbm, 189, rfl⟩
abbrev main_call2_v1 : Ref sig .tc := ⟨.hbm, 190, rfl⟩
abbrev main_v134 : Ref sig .tc := ⟨.hbm, 191, rfl⟩
abbrev main_c_31 : Ref sig .tc := ⟨.hbm, 192, rfl⟩
abbrev main_v135 : Ref sig .tc := ⟨.hbm, 193, rfl⟩
abbrev main_v136 : Ref sig .tc := ⟨.hbm, 194, rfl⟩
abbrev main_c_32 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_c_33 : Ref sig .tc := ⟨.hbm, 202, rfl⟩
abbrev main_v143 : Ref sig .tc := ⟨.hbm, 203, rfl⟩
abbrev main_v144 : Ref sig .tc := ⟨.hbm, 204, rfl⟩
abbrev main_c_34 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_c_35 : Ref sig .tc := ⟨.hbm, 212, rfl⟩
abbrev main_v151 : Ref sig .tc := ⟨.hbm, 213, rfl⟩
abbrev main_v152 : Ref sig .tc := ⟨.hbm, 214, rfl⟩
abbrev main_c_36 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_37 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_cst_38 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_call3_cst : Ref sig .tc := ⟨.hbm, 244, rfl⟩
abbrev main_call3_v0 : Ref sig .tc := ⟨.hbm, 245, rfl⟩
abbrev main_call3_v1 : Ref sig .tc := ⟨.hbm, 246, rfl⟩
abbrev main_call3_cst_0 : Ref sig .tc := ⟨.hbm, 247, rfl⟩
abbrev main_call3_v2 : Ref sig .tc := ⟨.hbm, 248, rfl⟩
abbrev main_call3_v3 : Ref sig .tc := ⟨.hbm, 249, rfl⟩
abbrev main_call3_cst_1 : Ref sig .tc := ⟨.hbm, 250, rfl⟩
abbrev main_call3_call0_v0 : Ref sig .tc := ⟨.hbm, 251, rfl⟩
abbrev main_call3_call0_v1 : Ref sig .tc := ⟨.hbm, 252, rfl⟩
abbrev main_call3_v4 : Ref sig .tc := ⟨.hbm, 253, rfl⟩
abbrev main_call3_v5 : Ref sig .tc := ⟨.hbm, 254, rfl⟩
abbrev main_call3_cst_2 : Ref sig .tc := ⟨.hbm, 255, rfl⟩
abbrev main_call3_v6 : Ref sig .tc := ⟨.hbm, 256, rfl⟩
abbrev main_call3_v7 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x128_S128x64_S50000x64_1_0_0_1_n_n_wf : DotDims.WF S50000x128 S128x64 S50000x64 [1] [0] [0] [1] [] []
  dot_S50000x64_S64x16_S50000x16_1_0_0_1_n_n_wf : DotDims.WF S50000x64 S64x16 S50000x16 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Spec.lean ====
/-
  The dense part of the network over whole arrays, as the reference spells it: each definition is the composition of
  host operations that the reference's @main applies, at any float instance.

  With N = 50000 nodes and hidden width 64:  a gate is  σ([agg | H] · W + b)  with σ(x) = 1 / (1 + exp (-x));
  the new state is  Z ∘ H + (1 - Z) ∘ tanh([aggH | H ∘ R] · W + b);  the output is  elu(h) · W + b  with
  elu(x) = x where x > 0 and 1 · expm1(x) elsewhere (the argument of expm1 replaced by 0 where x > 0).
-/
import proofs.«131946_j40037685133528_1_alg».proof.ReferenceIdeal

noncomputable section

namespace Cert.ReferenceIdeal.Spec

open Cert.ReferenceIdeal Cert.ReferenceIdeal.Facts₀ Idealize.ShloMosaic

variable {F : FTy → Type} [FloatOps F] [Facts]

/-- A bias vector of 64 entries added to every row: the vector made a row, the row repeated down the 50000 rows. -/
def biasRows (b : FVec F S64 .f32) : FVec F S50000x64 .f32 :=
  broadcastInDim S50000x64 ![0, 1] bcast_S1x64_S50000x64_0_1 (broadcastInDim S1x64 ![1] bcast_S64_S1x64_1 b)

/-- The scalar one at every entry. -/
def ones : FVec F S50000x64 .f32 :=
  broadcastInDim S50000x64 ![] bcast_S_S50000x64 (constant S_ .f32 0x3F800000#32)

/-- The scalar zero at every entry. -/
def zeros : FVec F S50000x64 .f32 :=
  broadcastInDim S50000x64 ![] bcast_S_S50000x64 (constant S_ .f32 0x00000000#32)

/-- The affine image of two matrices laid side by side:  [a | b] · W + bias. -/
def affine2 (a b : FVec F S50000x64 .f32) (W : FVec F S128x64 .f32) (bias : FVec F S64 .f32) : FVec F S50000x64 .f32 :=
  addf (Host.dotGeneral dot_S50000x128_S128x64_S50000x64_1_0_0_1_n_n none
      (concatenate S50000x128 1 [⟨S50000x64, a⟩, ⟨S50000x64, b⟩] concatenates_S50000x64_S50000x64_S50000x128_d1) W)
    (biasRows bias)

/-- The logistic function in the host's expansion, 1 / (1 + exp (-x)), entry by entry. -/
def sigmoid (x : FVec F S50000x64 .f32) : FVec F S50000x64 .f32 :=
  Host.divf ones (addf ones (Host.exp (Host.negf x)))

/-- A gate:  σ([agg | H] · W + b). -/
def gate (agg H : FVec F S50000x64 .f32) (W : FVec F S128x64 .f32) (b : FVec F S64 .f32) : FVec F S50000x64 .f32 :=
  sigmoid (affine2 agg H W b)

/-- The new hidden state:  Z ∘ H + (1 - Z) ∘ tanh([aggH | H ∘ R] · W + b). -/
def hnew (Z R aggH H : FVec F S50000x64 .f32) (W : FVec F S128x64 .f32) (b : FVec F S64 .f32) : FVec F S50000x64 .f32 :=
  addf (mulf Z H) (mulf (subf ones Z) (Host.tanh (affine2 aggH (mulf H R) W b)))

/-- elu in the host's spelling: x where x > 0, elsewhere 1 · expm1 of x (of 0 where x > 0). -/
def elu (h : FVec F S50000x64 .f32) : FVec F S50000x64 .f32 :=
  select (cmpf .ogt h zeros) h (mulf ones (Host.expm1 (select (cmpf .ogt h zeros) zeros h)))

/-- The output layer:  elu(h) · W + b, the bias vector of 16 entries added to every row. -/
def out (h : FVec F S50000x64 .f32) (W : FVec F S64x16 .f32) (b : FVec F S16 .f32) : FVec F S50000x16 .f32 :=
  addf (Host.dotGeneral dot_S50000x64_S64x16_S50000x16_1_0_0_1_n_n none (elu h) W)
    (broadcastInDim S50000x16 ![0, 1] bcast_S1x16_S50000x16_0_1 (broadcastInDim S1x16 ![1] bcast_S16_S1x16_1 b))

/-- The whole dense part from the three aggregated arrays and the previous state. -/
def hAll (aggZ aggR aggH H : FVec F S50000x64 .f32) (LzW : FVec F S128x64 .f32) (Lzb : FVec F S64 .f32)
    (LrW : FVec F S128x64 .f32) (Lrb : FVec F S64 .f32) (LhW : FVec F S128x64 .f32) (Lhb : FVec F S64 .f32) :
    FVec F S50000x64 .f32 :=
  hnew (gate aggZ H LzW Lzb) (gate aggR H LrW Lrb) aggH H LhW Lhb

end Cert.ReferenceIdeal.Spec

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibRowLayersDense.lean ====
/-
  The dense layers of a row-wise network, block against whole array, at the exact instance (floats read as extended
  reals).

  A dense layer sends a matrix X of m rows to X · W + b: row r of the result is the sum over the contracted coordinate
  of the products of row r of X with the columns of W, plus the bias vector. It reads row r of X only, so the layer of
  a block of rows is the matching rows of the layer of the whole matrix. The same holds when X is two matrices laid
  side by side, and for elu taken entry by entry: x where x > 0, exp x − 1 elsewhere, which the block spells with one
  selection and the whole array with two selections and expm1.
-/
import proofs.«131946_j40037685133528_1_alg».proof.Proof.LibRowLayers

noncomputable section

namespace RowLayers

open Idealize.ShloMosaic Idealize.ShloMosaic.ValueIdx
open scoped BigOperators

section TailLayers

variable {mb M : ℕ} {σ : Fin mb → Fin M}

/-- An m×k matrix times a k×n matrix on the matrix unit, accumulated into the zero splat, at (a, b): the sum over the
    contracted coordinate of the products of the entries. -/
theorem matmulPlain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral, StackMember.dotGeneral_plain_apply]

/-- A cast of a matrix to its own shape changes nothing. -/
theorem Rows.castSelf {k : ℕ} {a : (⟨2, ![mb, k]⟩ : Shape).Idx → EReal} {A : (⟨2, ![M, k]⟩ : Shape).Idx → EReal}
    (h : (⟨2, ![mb, k]⟩ : Shape).ShapeCasts ⟨2, ![mb, k]⟩) (ha : Rows σ a A) :
    Rows σ (shapeCast ⟨2, ![mb, k]⟩ a h) A := by
  rw [shapeCast_self]; exact ha

/-- The dense layer without its bias: the block's rows times the weights on the matrix unit (into a zero accumulator)
    against the whole matrix times the same weights in the host's plain product. Row r of either product reads row r
    of the left operand only. -/
theorem Rows.dense {k n : ℕ} {φ₁ φ₂ ψ₁ ψ₂ : FTy}
    {dk : DotDims ⟨2, ![mb, k]⟩ ⟨2, ![k, n]⟩ ⟨2, ![mb, n]⟩} {dK : DotDims ⟨2, ![M, k]⟩ ⟨2, ![k, n]⟩ ⟨2, ![M, n]⟩}
    (hdk : dk = DotDims.plain mb k n) (hdK : dK = DotDims.plain M k n)
    {x : FVec Ideal ⟨2, ![mb, k]⟩ φ₁} {X : FVec Ideal ⟨2, ![M, k]⟩ ψ₁} (hx : Rows σ x X)
    {w : FVec Ideal ⟨2, ![k, n]⟩ φ₂} {W : FVec Ideal ⟨2, ![k, n]⟩ ψ₂} (hw : ∀ c j, w (ix2 c j) = W (ix2 c j)) :
    Rows σ (matmul dk none x w (constant ⟨2, ![mb, n]⟩ .f32 0x00000000#32)) (Host.dotGeneral dK none X W) := fun p c => by
  subst hdk hdK
  rw [matmulPlain_apply, StackMember.dotGeneral_plain_apply]
  refine Finset.sum_congr rfl fun t _ => ?_
  rw [hx p t, hw t c]

/-- A bias row repeated down the block against the bias vector made a row and repeated down the whole matrix: both
    read entry j of the same list of n numbers. -/
theorem Rows.biasRow {n : ℕ} (hsc : (⟨2, ![1, n]⟩ : Shape).ShapeCasts ⟨2, ![1, n]⟩)
    (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {v : (⟨2, ![1, n]⟩ : Shape).Idx → EReal} {E : (⟨1, ![n]⟩ : Shape).Idx → EReal}
    (hv : ∀ j : Fin n, v (ix2 (0 : Fin 1) j) = E (ix1 j)) :
    Rows σ (broadcastTo ⟨2, ![mb, n]⟩ (shapeCast ⟨2, ![1, n]⟩ v hsc) hbc)
      (broadcastInDim ⟨2, ![M, n]⟩ ![0, 1] h01 (broadcastInDim ⟨2, ![1, n]⟩ ![1] h1 E)) := fun p c => by
  rw [broadcastTo_1b_ab_apply, shapeCast_self, rowDown_apply, rowBroadcast_apply, hv]

/-- elu, entry by entry. The block's spelling keeps x where x > 0 and takes exp x − 1 elsewhere; the whole-array
    spelling keeps x where x > 0 and elsewhere takes one times expm1 of x (the argument of expm1 being replaced by zero
    only where x > 0, where it is not read). Where x > 0 both are x; elsewhere both are exp x − 1. -/
theorem Rows.elu {k : ℕ} {a : FVec Ideal ⟨2, ![mb, k]⟩ .f32} {A : FVec Ideal ⟨2, ![M, k]⟩ .f32}
    (h0 h1 : (⟨0, ![]⟩ : Shape).BroadcastsInDim ⟨2, ![M, k]⟩ ![]) (ha : Rows σ a A) :
    Rows σ
      (select (cmpf .ogt a (broadcast ⟨2, ![mb, k]⟩ (Scalar.ofBits (F := Ideal) .f32 0x00000000#32))) a
        (Idealize.ShloMosaic.subf (exp a) (broadcast ⟨2, ![mb, k]⟩ (Scalar.ofBits (F := Ideal) .f32 0x3F800000#32))))
      (select (cmpf .ogt A (broadcastInDim ⟨2, ![M, k]⟩ ![] h0 (constant (F := Ideal) ⟨0, ![]⟩ .f32 0x00000000#32))) A
        (Idealize.ShloMosaic.mulf (broadcastInDim ⟨2, ![M, k]⟩ ![] h1 (constant (F := Ideal) ⟨0, ![]⟩ .f32 0x3F800000#32))
          (Host.expm1 (select (cmpf .ogt A (broadcastInDim ⟨2, ![M, k]⟩ ![] h0 (constant (F := Ideal) ⟨0, ![]⟩ .f32 0x00000000#32)))
            (broadcastInDim ⟨2, ![M, k]⟩ ![] h0 (constant (F := Ideal) ⟨0, ![]⟩ .f32 0x00000000#32)) A)))) := fun p c => by
  have hz : broadcastInDim ⟨2, ![M, k]⟩ ![] h0 (constant (F := Ideal) ⟨0, ![]⟩ .f32 0x00000000#32) (ix2 (σ p) c)
      = Ideal.ofBits .f32 0x00000000#32 := scalarBroadcast_apply _ h0 _
  have ho : broadcastInDim ⟨2, ![M, k]⟩ ![] h1 (constant (F := Ideal) ⟨0, ![]⟩ .f32 0x3F800000#32) (ix2 (σ p) c)
      = Ideal.ofBits .f32 0x3F800000#32 := scalarBroadcast_apply _ h1 _
  show Scalar.select (FloatOps.cmpf .ogt (a (ix2 p c)) (Ideal.ofBits .f32 0x00000000#32)) (a (ix2 p c))
      (Ideal.exp (a (ix2 p c)) - Ideal.ofBits .f32 0x3F800000#32)
    = Scalar.select (FloatOps.cmpf .ogt (A (ix2 (σ p) c)) (broadcastInDim _ _ h0 _ (ix2 (σ p) c))) (A (ix2 (σ p) c))
        (broadcastInDim _ _ h1 _ (ix2 (σ p) c)
          * (Ideal.exp (Scalar.select (FloatOps.cmpf .ogt (A (ix2 (σ p) c)) (broadcastInDim _ _ h0 _ (ix2 (σ p) c)))
              (broadcastInDim _ _ h0 _ (ix2 (σ p) c)) (A (ix2 (σ p) c))) - 1))
  rw [hz, ho, ha p c, Ideal.ofBits_one_f32]
  unfold Scalar.select
  split_ifs with hc
  · rfl
  · rw [one_mul]

/-- The dense layer of two matrices laid side by side, with its bias: the block's spelling (operands narrowed, which
    changes nothing here; the product on the matrix unit into a zero accumulator; the bias row repeated down the block)
    against the whole-array spelling (the host's plain product; the bias vector made a row and repeated down the rows).
    Row r of [a | b] · W + bias reads row r of a and of b only. -/
theorem Rows.affineCat {p q t n : ℕ} (h16 : FTy.bf16.bits < FTy.f32.bits)
    {dk : DotDims ⟨2, ![mb, t]⟩ ⟨2, ![t, n]⟩ ⟨2, ![mb, n]⟩} {dK : DotDims ⟨2, ![M, t]⟩ ⟨2, ![t, n]⟩ ⟨2, ![M, n]⟩}
    (hdk : dk = DotDims.plain mb t n) (hdK : dK = DotDims.plain M t n)
    (hcat : Shape.Concatenates [(⟨2, ![mb, p]⟩ : Shape), ⟨2, ![mb, q]⟩] ⟨2, ![mb, t]⟩ 1)
    (Hcat : Shape.Concatenates [(⟨2, ![M, p]⟩ : Shape), ⟨2, ![M, q]⟩] ⟨2, ![M, t]⟩ 1)
    (hsc : (⟨2, ![1, n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {a : FVec Ideal ⟨2, ![mb, p]⟩ .f32} {b : FVec Ideal ⟨2, ![mb, q]⟩ .f32}
    {A : FVec Ideal ⟨2, ![M, p]⟩ .f32} {B : FVec Ideal ⟨2, ![M, q]⟩ .f32} (ha : Rows σ a A) (hb : Rows σ b B)
    (W : FVec Ideal ⟨2, ![t, n]⟩ .f32)
    {v : FVec Ideal ⟨2, ![1, n]⟩ .f32} {E : FVec Ideal ⟨1, ![n]⟩ .f32} (hv : ∀ j : Fin n, v (ix2 (0 : Fin 1) j) = E (ix1 j)) :
    Rows σ
      (Idealize.ShloMosaic.addf
        (matmul dk none
          (Idealize.ShloMosaic.truncf .bf16 (concatenate ⟨2, ![mb, t]⟩ 1 [⟨⟨2, ![mb, p]⟩, a⟩, ⟨⟨2, ![mb, q]⟩, b⟩] hcat) h16)
          (Idealize.ShloMosaic.truncf .bf16 W h16) (constant ⟨2, ![mb, n]⟩ .f32 0x00000000#32))
        (broadcastTo ⟨2, ![mb, n]⟩ (shapeCast ⟨2, ![1, n]⟩ v hsc) hbc))
      (Idealize.ShloMosaic.addf
        (Host.dotGeneral dK none (concatenate ⟨2, ![M, t]⟩ 1 [⟨⟨2, ![M, p]⟩, A⟩, ⟨⟨2, ![M, q]⟩, B⟩] Hcat) W)
        (broadcastInDim ⟨2, ![M, n]⟩ ![0, 1] h01 (broadcastInDim ⟨2, ![1, n]⟩ ![1] h1 E))) :=
  Rows.addf (Rows.dense hdk hdK (Rows.truncf h16 (Rows.catCols hcat Hcat ha hb)) (fun _ _ => rfl))
    (Rows.biasRow hsc hbc h1 h01 hv)

end TailLayers

end RowLayers

end
-- ==== Proof.TailRows.lean ====
/-
  The kernel's block of results is the matching rows of the whole-array dense part.

  A block holds 2000 consecutive node rows; σ sends a row of the block to its row in the whole array. Every layer of the
  dense part is row-wise, so if the block's operands are the σ-rows of the whole operands (and the weights and biases
  are the same numbers), the block's new state and output are the σ-rows of the whole new state and output.
-/
import proofs.«131946_j40037685133528_1_alg».proof.Proof.Spec
import proofs.«131946_j40037685133528_1_alg».proof.Proof.LibRowLayers
import proofs.«131946_j40037685133528_1_alg».proof.Proof.LibRowLayersDense
import proofs.«131946_j40037685133528_1_alg».proof.Proof.Gen.KernelIdeal.Skeleton
import proofs.«131946_j40037685133528_1_alg».proof.Proof.Gen.ReferenceIdeal

noncomputable section

namespace Cert.Tail

open Idealize.ShloMosaic Idealize.ShloMosaic.ValueIdx RowLayers

variable {σ : Fin 2000 → Fin 50000}

/-- A gate of the block, σ([a | h] · W + b) with the logistic function as one operation, is the σ-rows of the whole
    gate, whose logistic function is spelt 1 / (1 + exp (−x)). -/
theorem rows_gate
    {a hb : Vec Ideal Cert.KernelIdeal.S2000x64 .f32} {A H : FVec Ideal Cert.ReferenceIdeal.S50000x64 .f32}
    (ha : Rows σ a A) (hH : Rows σ hb H) (W : FVec Ideal Cert.ReferenceIdeal.S128x64 .f32)
    {b : Vec Ideal Cert.KernelIdeal.S1x64 .f32} {B : FVec Ideal Cert.ReferenceIdeal.S64 .f32}
    (hbB : ∀ j : Fin 64, b (ix2 (0 : Fin 1) j) = B (ix1 j)) :
    Rows σ (Cert.KernelIdeal.Gen.k0_pay3 a hb W b) (Cert.ReferenceIdeal.Spec.gate A H W B) := by
  unfold Cert.KernelIdeal.Gen.k0_pay3 Cert.ReferenceIdeal.Spec.gate Cert.ReferenceIdeal.Spec.sigmoid
    Cert.ReferenceIdeal.Spec.affine2 Cert.ReferenceIdeal.Spec.biasRows Cert.ReferenceIdeal.Spec.ones
  exact Rows.logistic _ _
    (Rows.affineCat _ (by rfl) (by rfl) _ _ _ _ _ _ (Rows.castSelf _ ha) hH W hbB)

/-- The candidate's affine image, [aggH | h ∘ R] · W + b with R the reset gate, of the block is the σ-rows of the
    whole one. -/
theorem rows_cand
    {ar ah hb : Vec Ideal Cert.KernelIdeal.S2000x64 .f32} {AR AH H : FVec Ideal Cert.ReferenceIdeal.S50000x64 .f32}
    (hr : Rows σ ar AR) (hh : Rows σ ah AH) (hH : Rows σ hb H)
    (LrW LhW : FVec Ideal Cert.ReferenceIdeal.S128x64 .f32)
    {lrb lhb : Vec Ideal Cert.KernelIdeal.S1x64 .f32} {Lrb Lhb : FVec Ideal Cert.ReferenceIdeal.S64 .f32}
    (hrb : ∀ j : Fin 64, lrb (ix2 (0 : Fin 1) j) = Lrb (ix1 j))
    (hhb : ∀ j : Fin 64, lhb (ix2 (0 : Fin 1) j) = Lhb (ix1 j)) :
    Rows σ
      (addf (Cert.KernelIdeal.Gen.k0_pay4 ar ah hb LrW lrb LhW) (Cert.KernelIdeal.Gen.k0_pay5 lhb))
      (Cert.ReferenceIdeal.Spec.affine2 AH (mulf H (Cert.ReferenceIdeal.Spec.gate AR H LrW Lrb)) LhW Lhb) := by
  have hR : Rows σ (Cert.KernelIdeal.Gen.k0_pay3 ar hb LrW lrb) (Cert.ReferenceIdeal.Spec.gate AR H LrW Lrb) :=
    rows_gate hr hH LrW hrb
  unfold Cert.KernelIdeal.Gen.k0_pay4 Cert.KernelIdeal.Gen.k0_pay5 Cert.ReferenceIdeal.Spec.affine2
    Cert.ReferenceIdeal.Spec.biasRows
  exact Rows.affineCat _ (by rfl) (by rfl) _ _ _ _ _ _ (Rows.castSelf _ hh) (Rows.mulf hH hR) LhW hhb

/-- The block of new hidden states is the σ-rows of the whole array of new hidden states. -/
theorem rows_h
    {az ar ah hb : Vec Ideal Cert.KernelIdeal.S2000x64 .f32} {AZ AR AH H : FVec Ideal Cert.ReferenceIdeal.S50000x64 .f32}
    (hz : Rows σ az AZ) (hr : Rows σ ar AR) (hh : Rows σ ah AH) (hH : Rows σ hb H)
    (LzW LrW LhW : FVec Ideal Cert.ReferenceIdeal.S128x64 .f32)
    {lzb lrb lhb : Vec Ideal Cert.KernelIdeal.S1x64 .f32} {Lzb Lrb Lhb : FVec Ideal Cert.ReferenceIdeal.S64 .f32}
    (hzb : ∀ j : Fin 64, lzb (ix2 (0 : Fin 1) j) = Lzb (ix1 j)) (hrb : ∀ j : Fin 64, lrb (ix2 (0 : Fin 1) j) = Lrb (ix1 j))
    (hhb : ∀ j : Fin 64, lhb (ix2 (0 : Fin 1) j) = Lhb (ix1 j)) :
    Rows σ
      (Cert.KernelIdeal.Gen.k0_pay1 hb (Cert.KernelIdeal.Gen.k0_pay3 az hb LzW lzb)
        (Cert.KernelIdeal.Gen.k0_pay4 ar ah hb LrW lrb LhW) (Cert.KernelIdeal.Gen.k0_pay5 lhb))
      (Cert.ReferenceIdeal.Spec.hAll AZ AR AH H LzW Lzb LrW Lrb LhW Lhb) := by
  have hZ : Rows σ (Cert.KernelIdeal.Gen.k0_pay3 az hb LzW lzb) (Cert.ReferenceIdeal.Spec.gate AZ H LzW Lzb) :=
    rows_gate hz hH LzW hzb
  unfold Cert.KernelIdeal.Gen.k0_pay1 Cert.ReferenceIdeal.Spec.hAll Cert.ReferenceIdeal.Spec.hnew
    Cert.ReferenceIdeal.Spec.ones
  exact Rows.addf (Rows.mulf hZ hH)
    (Rows.mulf (Rows.oneMinus _ hZ) (Rows.tanh (rows_cand hr hh hH LrW LhW hrb hhb)))

/-- The block of outputs is the σ-rows of the whole array of outputs. -/
theorem rows_y
    {az ar ah hb : Vec Ideal Cert.KernelIdeal.S2000x64 .f32} {AZ AR AH H : FVec Ideal Cert.ReferenceIdeal.S50000x64 .f32}
    (hz : Rows σ az AZ) (hr : Rows σ ar AR) (hh : Rows σ ah AH) (hH : Rows σ hb H)
    (LzW LrW LhW : FVec Ideal Cert.ReferenceIdeal.S128x64 .f32)
    {lzb lrb lhb : Vec Ideal Cert.KernelIdeal.S1x64 .f32} {Lzb Lrb Lhb : FVec Ideal Cert.ReferenceIdeal.S64 .f32}
    (hzb : ∀ j : Fin 64, lzb (ix2 (0 : Fin 1) j) = Lzb (ix1 j)) (hrb : ∀ j : Fin 64, lrb (ix2 (0 : Fin 1) j) = Lrb (ix1 j))
    (hhb : ∀ j : Fin 64, lhb (ix2 (0 : Fin 1) j) = Lhb (ix1 j))
    (Wo : FVec Ideal Cert.ReferenceIdeal.S64x16 .f32)
    {wb : Vec Ideal Cert.KernelIdeal.S1x16 .f32} {Wb : FVec Ideal Cert.ReferenceIdeal.S16 .f32}
    (hwb : ∀ j : Fin 16, wb (ix2 (0 : Fin 1) j) = Wb (ix1 j)) :
    Rows σ
      (Cert.KernelIdeal.Gen.k0_pay2 hb (Cert.KernelIdeal.Gen.k0_pay3 az hb LzW lzb)
        (Cert.KernelIdeal.Gen.k0_pay4 ar ah hb LrW lrb LhW) (Cert.KernelIdeal.Gen.k0_pay5 lhb) Wo wb)
      (Cert.ReferenceIdeal.Spec.out (Cert.ReferenceIdeal.Spec.hAll AZ AR AH H LzW Lzb LrW Lrb LhW Lhb) Wo Wb) := by
  have hnew := rows_h hz hr hh hH LzW LrW LhW hzb hrb hhb
  unfold Cert.KernelIdeal.Gen.k0_pay2 Cert.ReferenceIdeal.Spec.out Cert.ReferenceIdeal.Spec.elu
    Cert.ReferenceIdeal.Spec.zeros Cert.ReferenceIdeal.Spec.ones
  exact Rows.addf (Rows.dense (by rfl) (by rfl) (Rows.truncf _ (Rows.elu _ _ hnew)) (fun _ _ => rfl))
    (Rows.biasRow _ _ _ _ hwb)

end Cert.Tail

end
-- ==== Proof.KernelBlocks.lean ====
/-
  From blocks to arrays: the kernel's two result arrays are the whole-array dense part of the arrays the region finds.

  The grid has 25 points; point t works on node rows 2000 t … 2000 t + 1999. Its blocks of the three aggregated arrays
  and of the previous state are those rows of the arrays; the weight matrices and the bias rows are fetched whole at
  every point. The body's result for a block is therefore (Tail) the same rows of the whole-array new state and output,
  and the 25 blocks cover the 50000 rows.
-/
import proofs.«131946_j40037685133528_1_alg».proof.Proof.Gen.KernelIdeal.Value
import proofs.«131946_j40037685133528_1_alg».proof.Proof.TailRows

noncomputable section

namespace Cert.KernelIdeal.Blocks

open Cert.KernelIdeal Cert.KernelIdeal.Gen Idealize.ShloMosaic Idealize.ShloMosaic.TcCoe Idealize.SL.Sem
open Idealize.ShloMosaic.ValueIdx RowLayers
open Idealize.ShloMosaic.Pipeline (Dat)

variable (m : (ℓ : Loc nD τ sig) → Buf (Elt Ideal) ℓ) (ρ : Dev nD → PrngReg)

/-- The one row of a 1 × n array, as a vector of n entries. -/
def rowOf {n : ℕ} {α : Type} (v : (⟨2, ![1, n]⟩ : Shape).Idx → α) : (⟨1, ![n]⟩ : Shape).Idx → α :=
  fun i => v (ix2 (0 : Fin 1) (i 0))

/-- The whole array of new hidden states, from the arrays the region finds. -/
def hArr (c : Dev nD) : FVec Ideal Cert.ReferenceIdeal.S50000x64 .f32 :=
  Cert.ReferenceIdeal.Spec.hAll (V m c main_v50) (V m c main_v67) (V m c main_v84) (V m c main_arg3)
    (V m c main_arg10) (rowOf (V m c main_v85)) (V m c main_arg12) (rowOf (V m c main_v86))
    (V m c main_arg14) (rowOf (V m c main_v87))

/-- The whole array of outputs, from the arrays the region finds. -/
def yArr (c : Dev nD) : FVec Ideal Cert.ReferenceIdeal.S50000x16 .f32 :=
  Cert.ReferenceIdeal.Spec.out (hArr m c) (V m c main_arg16) (rowOf (V m c main_v88))

/-! ## The index maps over the grid -/

/-- The offsets of a rectangle that starts at the corner, spelt as the constant zero. -/
theorem corner_offsets : (![0, 0] : Fin 2 → Nat) = fun _ => 0 := funext fun a => by fin_cases a <;> rfl

/-- The windows that move with the grid are at block (t, 0) at point t: the three aggregated arrays, the previous
    state, and the two results. -/
theorem index_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The weights and the biases are at block (0, 0) at every point. -/
theorem index_fixed : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Row p of point t's block is row 2000 t + p of the array. -/
def rowAt (t : Fin cfg0.N) (p : Fin 2000) : Fin 50000 :=
  ⟨2000 * t.val + p.val, by have hN : cfg0.N = 25 := N_0; have ht := t.isLt; have hp := p.isLt; omega⟩

/-! ## Reading an array through a window's block

Each statement is about an arbitrary array X: which entry of X a block's entry is depends on the window's index map
alone. A block's coordinate on an axis is the block index times the block's extent plus the coordinate inside the block. -/

theorem rowOf_apply {n : ℕ} {α : Type} (v : (⟨2, ![1, n]⟩ : Shape).Idx → α) (j : Fin n) :
    rowOf v (ix1 j) = v (ix2 (0 : Fin 1) j) := rfl

/-- Through point t's block of the first aggregated array's window, entry (p, q) of the block is entry (2000 t + p, q) of the array. -/
theorem read_blk0 (t : Fin cfg0.N) (X : FVec Ideal Cert.ReferenceIdeal.S50000x64 .f32) (p : Fin 2000) (q : Fin 64) :
    ((cfg0.win 0).blk t).view.read (Elt Ideal) X (ix2 p q) = X (ix2 (rowAt t p) q) := by
  obtain ⟨e0, e1, -⟩ := index_moving t
  show X (((cfg0.win 0).blk t).view.emb (ix2 p q)) = X (ix2 (rowAt t p) q)
  refine congrArg X ?_
  funext a
  apply Fin.ext
  match a with
  | ⟨0, _⟩ => show win0_0.index t (0 : Fin 2) * 2000 + 1 * p.val = 2000 * t.val + p.val; rw [e0]; omega
  | ⟨1, _⟩ => show win0_0.index t (1 : Fin 2) * 64 + 1 * q.val = q.val; rw [e1]; omega

/-- Point t's block of the first aggregated array is rows 2000 t … 2000 t + 1999 of it. -/
theorem rows_blk0 (c : Dev nD) (t : Fin cfg0.N) :
    Rows (mb := 2000) (M := 50000) (k := 64) (rowAt t) (iblk m c 0 t) (V m c main_v50) := by
  intro p q
  unfold iblk
  exact read_blk0 t _ p q

/-- Through point t's block of the second aggregated array's window, entry (p, q) of the block is entry (2000 t + p, q) of the array. -/
theorem read_blk1 (t : Fin cfg0.N) (X : FVec Ideal Cert.ReferenceIdeal.S50000x64 .f32) (p : Fin 2000) (q : Fin 64) :
    ((cfg0.win 1).blk t).view.read (Elt Ideal) X (ix2 p q) = X (ix2 (rowAt t p) q) := by
  obtain ⟨-, -, e0, e1, -⟩ := index_moving t
  show X (((cfg0.win 1).blk t).view.emb (ix2 p q)) = X (ix2 (rowAt t p) q)
  refine congrArg X ?_
  funext a
  apply Fin.ext
  match a with
  | ⟨0, _⟩ => show win0_1.index t (0 : Fin 2) * 2000 + 1 * p.val = 2000 * t.val + p.val; rw [e0]; omega
  | ⟨1, _⟩ => show win0_1.index t (1 : Fin 2) * 64 + 1 * q.val = q.val; rw [e1]; omega

/-- Point t's block of the second aggregated array is rows 2000 t … 2000 t + 1999 of it. -/
theorem rows_blk1 (c : Dev nD) (t : Fin cfg0.N) :
    Rows (mb := 2000) (M := 50000) (k := 64) (rowAt t) (iblk m c 1 t) (V m c main_v67) := by
  intro p q
  unfold iblk
  exact read_blk1 t _ p q

/-- Through point t's block of the third aggregated array's window, entry (p, q) of the block is entry (2000 t + p, q) of the array. -/
theorem read_blk2 (t : Fin cfg0.N) (X : FVec Ideal Cert.ReferenceIdeal.S50000x64 .f32) (p : Fin 2000) (q : Fin 64) :
    ((cfg0.win 2).blk t).view.read (Elt Ideal) X (ix2 p q) = X (ix2 (rowAt t p) q) := by
  obtain ⟨-, -, -, -, e0, e1, -⟩ := index_moving t
  show X (((cfg0.win 2).blk t).view.emb (ix2 p q)) = X (ix2 (rowAt t p) q)
  refine congrArg X ?_
  funext a
  apply Fin.ext
  match a with
  | ⟨0, _⟩ => show win0_2.index t (0 : Fin 2) * 2000 + 1 * p.val = 2000 * t.val + p.val; rw [e0]; omega
  | ⟨1, _⟩ => show win0_2.index t (1 : Fin 2) * 64 + 1 * q.val = q.val; rw [e1]; omega

/-- Point t's block of the third aggregated array is rows 2000 t … 2000 t + 1999 of it. -/
theorem rows_blk2 (c : Dev nD) (t : Fin cfg0.N) :
    Rows (mb := 2000) (M := 50000) (k := 64) (rowAt t) (iblk m c 2 t) (V m c main_v84) := by
  intro p q
  unfold iblk
  exact read_blk2 t _ p q

/-- Through point t's block of the previous state's window, entry (p, q) of the block is entry (2000 t + p, q) of the array. -/
theorem read_blk3 (t : Fin cfg0.N) (X : FVec Ideal Cert.ReferenceIdeal.S50000x64 .f32) (p : Fin 2000) (q : Fin 64) :
    ((cfg0.win 3).blk t).view.read (Elt Ideal) X (ix2 p q) = X (ix2 (rowAt t p) q) := by
  obtain ⟨-, -, -, -, -, -, e0, e1, -⟩ := index_moving t
  show X (((cfg0.win 3).blk t).view.emb (ix2 p q)) = X (ix2 (rowAt t p) q)
  refine congrArg X ?_
  funext a
  apply Fin.ext
  match a with
  | ⟨0, _⟩ => show win0_3.index t (0 : Fin 2) * 2000 + 1 * p.val = 2000 * t.val + p.val; rw [e0]; omega
  | ⟨1, _⟩ => show win0_3.index t (1 : Fin 2) * 64 + 1 * q.val = q.val; rw [e1]; omega

/-- Point t's block of the previous state is rows 2000 t … 2000 t + 1999 of it. -/
theorem rows_blk3 (c : Dev nD) (t : Fin cfg0.N) :
    Rows (mb := 2000) (M := 50000) (k := 64) (rowAt t) (iblk m c 3 t) (V m c main_arg3) := by
  intro p q
  unfold iblk
  exact read_blk3 t _ p q

/-- The update gate's weight matrix's window is at block (0, 0) at every point, and the block is the whole array. -/
theorem read_blk4 (t : Fin cfg0.N) (X : FVec Ideal Cert.ReferenceIdeal.S128x64 .f32) :
    ((cfg0.win 4).blk t).view.read (Elt Ideal) X = X := by
  obtain ⟨e0, e1, -⟩ := index_fixed t
  funext y
  show X (((cfg0.win 4).blk t).view.emb y) = X y
  refine congrArg X ?_
  funext a
  apply Fin.ext
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega

/-- So the body's block of the update gate's weight matrix is the array the region finds. -/
theorem whole_blk4 (c : Dev nD) (t : Fin cfg0.N) : (iblk m c 4 t : Vec Ideal S128x64 .f32) = V m c main_arg10 := by
  unfold iblk
  exact read_blk4 t _

/-- The update gate's bias row's window is at block (0, 0) at every point, and the block is the whole array. -/
theorem read_blk5 (t : Fin cfg0.N) (X : FVec Ideal Cert.ReferenceIdeal.S1x64 .f32) :
    ((cfg0.win 5).blk t).view.read (Elt Ideal) X = X := by
  obtain ⟨-, -, e0, e1, -⟩ := index_fixed t
  funext y
  show X (((cfg0.win 5).blk t).view.emb y) = X y
  refine congrArg X ?_
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- So the body's block of the update gate's bias row is the array the region finds. -/
theorem whole_blk5 (c : Dev nD) (t : Fin cfg0.N) : (iblk m c 5 t : Vec Ideal S1x64 .f32) = V m c main_v85 := by
  unfold iblk
  exact read_blk5 t _

/-- The update gate's bias row's block, entry by entry, is the bias vector. -/
theorem bias_blk5 (c : Dev nD) (t : Fin cfg0.N) (j : Fin 64) :
    (iblk m c 5 t : Vec Ideal S1x64 .f32) (ix2 (0 : Fin 1) j) = rowOf (V m c main_v85) (ix1 j) := by
  rw [rowOf_apply]
  exact congrFun (whole_blk5 m c t) _

/-- The reset gate's weight matrix's window is at block (0, 0) at every point, and the block is the whole array. -/
theorem read_blk6 (t : Fin cfg0.N) (X : FVec Ideal Cert.ReferenceIdeal.S128x64 .f32) :
    ((cfg0.win 6).blk t).view.read (Elt Ideal) X = X := by
  obtain ⟨-, -, -, -, e0, e1, -⟩ := index_fixed t
  funext y
  show X (((cfg0.win 6).blk t).view.emb y) = X y
  refine congrArg X ?_
  funext a
  apply Fin.ext
  match a with
  | ⟨0, _⟩ => show win0_6.index t (0 : Fin 2) * 128 + 1 * (y 0).val = (y 0).val; rw [e0]; omega
  | ⟨1, _⟩ => show win0_6.index t (1 : Fin 2) * 64 + 1 * (y 1).val = (y 1).val; rw [e1]; omega

/-- So the body's block of the reset gate's weight matrix is the array the region finds. -/
theorem whole_blk6 (c : Dev nD) (t : Fin cfg0.N) : (iblk m c 6 t : Vec Ideal S128x64 .f32) = V m c main_arg12 := by
  unfold iblk
  exact read_blk6 t _

/-- The reset gate's bias row's window is at block (0, 0) at every point, and the block is the whole array. -/
theorem read_blk7 (t : Fin cfg0.N) (X : FVec Ideal Cert.ReferenceIdeal.S1x64 .f32) :
    ((cfg0.win 7).blk t).view.read (Elt Ideal) X = X := by
  obtain ⟨-, -, -, -, -, -, e0, e1, -⟩ := index_fixed t
  funext y
  show X (((cfg0.win 7).blk t).view.emb y) = X y
  refine congrArg X ?_
  funext a
  apply Fin.ext
  match a with
  | ⟨0, _⟩ => show win0_7.index t (0 : Fin 2) * 1 + 1 * (y 0).val = (y 0).val; rw [e0]; omega
  | ⟨1, _⟩ => show win0_7.index t (1 : Fin 2) * 64 + 1 * (y 1).val = (y 1).val; rw [e1]; omega

/-- So the body's block of the reset gate's bias row is the array the region finds. -/
theorem whole_blk7 (c : Dev nD) (t : Fin cfg0.N) : (iblk m c 7 t : Vec Ideal S1x64 .f32) = V m c main_v86 := by
  unfold iblk
  exact read_blk7 t _

/-- The reset gate's bias row's block, entry by entry, is the bias vector. -/
theorem bias_blk7 (c : Dev nD) (t : Fin cfg0.N) (j : Fin 64) :
    (iblk m c 7 t : Vec Ideal S1x64 .f32) (ix2 (0 : Fin 1) j) = rowOf (V m c main_v86) (ix1 j) := by
  rw [rowOf_apply]
  exact congrFun (whole_blk7 m c t) _

/-- The candidate's weight matrix's window is at block (0, 0) at every point, and the block is the whole array. -/
theorem read_blk8 (t : Fin cfg0.N) (X : FVec Ideal Cert.ReferenceIdeal.S128x64 .f32) :
    ((cfg0.win 8).blk t).view.read (Elt Ideal) X = X := by
  obtain ⟨-, -, -, -, -, -, -, -, e0, e1, -⟩ := index_fixed t
  funext y
  show X (((cfg0.win 8).blk t).view.emb y) = X y
  refine congrArg X ?_
  funext a
  apply Fin.ext
  match a with
  | ⟨0, _⟩ => show win0_8.index t (0 : Fin 2) * 128 + 1 * (y 0).val = (y 0).val; rw [e0]; omega
  | ⟨1, _⟩ => show win0_8.index t (1 : Fin 2) * 64 + 1 * (y 1).val = (y 1).val; rw [e1]; omega

/-- So the body's block of the candidate's weight matrix is the array the region finds. -/
theorem whole_blk8 (c : Dev nD) (t : Fin cfg0.N) : (iblk m c 8 t : Vec Ideal S128x64 .f32) = V m c main_arg14 := by
  unfold iblk
  exact read_blk8 t _

/-- The candidate's bias row's window is at block (0, 0) at every point, and the block is the whole array. -/
theorem read_blk9 (t : Fin cfg0.N) (X : FVec Ideal Cert.ReferenceIdeal.S1x64 .f32) :
    ((cfg0.win 9).blk t).view.read (Elt Ideal) X = X := by
  obtain ⟨-, -, -, -, -, -, -, -, -, -, e0, e1, -⟩ := index_fixed t
  funext y
  show X (((cfg0.win 9).blk t).view.emb y) = X y
  refine congrArg X ?_
  funext a
  apply Fin.ext
  match a with
  | ⟨0, _⟩ => show win0_9.index t (0 : Fin 2) * 1 + 1 * (y 0).val = (y 0).val; rw [e0]; omega
  | ⟨1, _⟩ => show win0_9.index t (1 : Fin 2) * 64 + 1 * (y 1).val = (y 1).val; rw [e1]; omega

/-- So the body's block of the candidate's bias row is the array the region finds. -/
theorem whole_blk9 (c : Dev nD) (t : Fin cfg0.N) : (iblk m c 9 t : Vec Ideal S1x64 .f32) = V m c main_v87 := by
  unfold iblk
  exact read_blk9 t _

/-- The candidate's bias row's block, entry by entry, is the bias vector. -/
theorem bias_blk9 (c : Dev nD) (t : Fin cfg0.N) (j : Fin 64) :
    (iblk m c 9 t : Vec Ideal S1x64 .f32) (ix2 (0 : Fin 1) j) = rowOf (V m c main_v87) (ix1 j) := by
  rw [rowOf_apply]
  exact congrFun (whole_blk9 m c t) _

/-- The output layer's weight matrix's window is at block (0, 0) at every point, and the block is the whole array. -/
theorem read_blk10 (t : Fin cfg0.N) (X : FVec Ideal Cert.ReferenceIdeal.S64x16 .f32) :
    ((cfg0.win 10).blk t).view.read (Elt Ideal) X = X := by
  obtain ⟨-, -, -, -, -, -, -, -, -, -, -, -, e0, e1, -⟩ := index_fixed t
  funext y
  show X (((cfg0.win 10).blk t).view.emb y) = X y
  refine congrArg X ?_
  funext a
  apply Fin.ext
  match a with
  | ⟨0, _⟩ => show win0_10.index t (0 : Fin 2) * 64 + 1 * (y 0).val = (y 0).val; rw [e0]; omega
  | ⟨1, _⟩ => show win0_10.index t (1 : Fin 2) * 16 + 1 * (y 1).val = (y 1).val; rw [e1]; omega

/-- So the body's block of the output layer's weight matrix is the array the region finds. -/
theorem whole_blk10 (c : Dev nD) (t : Fin cfg0.N) : (iblk m c 10 t : Vec Ideal S64x16 .f32) = V m c main_arg16 := by
  unfold iblk
  exact read_blk10 t _

/-- The output layer's bias row's window is at block (0, 0) at every point, and the block is the whole array. -/
theorem read_blk11 (t : Fin cfg0.N) (X : FVec Ideal Cert.ReferenceIdeal.S1x16 .f32) :
    ((cfg0.win 11).blk t).view.read (Elt Ideal) X = X := by
  obtain ⟨-, -, -, -, -, -, -, -, -, -, -, -, -, -, e0, e1⟩ := index_fixed t
  funext y
  show X (((cfg0.win 11).blk t).view.emb y) = X y
  refine congrArg X ?_
  funext a
  apply Fin.ext
  match a with
  | ⟨0, _⟩ => show win0_11.index t (0 : Fin 2) * 1 + 1 * (y 0).val = (y 0).val; rw [e0]; omega
  | ⟨1, _⟩ => show win0_11.index t (1 : Fin 2) * 16 + 1 * (y 1).val = (y 1).val; rw [e1]; omega

/-- So the body's block of the output layer's bias row is the array the region finds. -/
theorem whole_blk11 (c : Dev nD) (t : Fin cfg0.N) : (iblk m c 11 t : Vec Ideal S1x16 .f32) = V m c main_v88 := by
  unfold iblk
  exact read_blk11 t _

/-- The output layer's bias row's block, entry by entry, is the bias vector. -/
theorem bias_blk11 (c : Dev nD) (t : Fin cfg0.N) (j : Fin 16) :
    (iblk m c 11 t : Vec Ideal S1x16 .f32) (ix2 (0 : Fin 1) j) = rowOf (V m c main_v88) (ix1 j) := by
  rw [rowOf_apply]
  exact congrFun (whole_blk11 m c t) _

/-! ## What a point writes back, and the cover -/

/-- A block of 2000 rows that is rows 2000 t … of an array G is what point t's block of the state window reads off G. -/
theorem cut13_of_rows (t : Fin cfg0.N) (P : Vec Ideal S2000x64 .f32) (G : FVec Ideal Cert.ReferenceIdeal.S50000x64 .f32)
    (h : Rows (mb := 2000) (M := 50000) (k := 64) (rowAt t) P G) :
    (cfg0.win 13).cut (grid0.coords t) P = ((cfg0.win 13).blk t).view.read (Elt Ideal) G := by
  obtain ⟨-, -, -, -, -, -, -, -, -, -, e0, e1⟩ := index_moving t
  refine funext fun (y : S2000x64.Idx) => ?_
  have hy := h (y 0) (y 1)
  show P ((cfg0.win 13).xinj (grid0.coords t) y) = G (((cfg0.win 13).blk t).view.emb y)
  have a1 : (cfg0.win 13).xinj (grid0.coords t) y = ix2 (y 0) (y 1) := by
    funext a
    match a with
    | ⟨0, _⟩ => rfl
    | ⟨1, _⟩ => rfl
  have a2 : ((cfg0.win 13).blk t).view.emb y = ix2 (rowAt t (y 0)) (y 1) := by
    funext a
    apply Fin.ext
    match a with
    | ⟨0, _⟩ => show win0_13.index t (0 : Fin 2) * 2000 + 1 * (y 0).val = 2000 * t.val + (y 0).val; rw [e0]; omega
    | ⟨1, _⟩ => show win0_13.index t (1 : Fin 2) * 64 + 1 * (y 1).val = (y 1).val; rw [e1]; omega
  rw [a1, a2]
  exact hy

/-- An index of the array is in point t's block of the state window iff each coordinate is in the block's range. -/
theorem mem_blk13 (t : Fin cfg0.N) (i : S50000x64.Idx) :
    i ∈ ((cfg0.win 13).blk t).view.set ↔ ∀ a : Fin 2, win0_13.index t a * S2000x64.size a ≤ (i a).val ∧ (i a).val < win0_13.index t a * S2000x64.size a + S2000x64.size a := by
  show i ∈ ((View.whole main_v89_1).slice (win0_13.rect t)).set ↔ _
  rw [View.set_slice_whole, Rect.mem_set_unit]
  exact Iff.rfl

/-- Row r of the array is in the block of point r / 2000, and every point writes back: the 25 blocks cover the array. -/
theorem cover13 (i : S50000x64.Idx) :
    ∃ t : Fin cfg0.N, (cfg0.win 13).flush t = true ∧ i ∈ ((cfg0.win 13).blk t).view.set := by
  have hN : cfg0.N = 25 := N_0
  have hi0 : (i 0).val < 50000 := (i 0).isLt
  have hi1 : (i 1).val < 64 := (i 1).isLt
  have ht : (i 0).val / 2000 < cfg0.N := by omega
  obtain ⟨-, -, -, -, -, -, -, -, -, -, e0, e1⟩ := index_moving ⟨(i 0).val / 2000, ht⟩
  refine ⟨⟨(i 0).val / 2000, ht⟩, flush0_13 _, ?_⟩
  rw [mem_blk13]
  intro a
  match a with
  | ⟨0, _⟩ =>
    show win0_13.index ⟨(i 0).val / 2000, ht⟩ (0 : Fin 2) * 2000 ≤ (i 0).val ∧ (i 0).val < win0_13.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_13.index ⟨(i 0).val / 2000, ht⟩ (1 : Fin 2) * 64 ≤ (i 1).val ∧ (i 1).val < win0_13.index ⟨(i 0).val / 2000, ht⟩ (1 : Fin 2) * 64 + 64
    rw [e1]
    omega

/-- A block of 2000 rows that is rows 2000 t … of an array G is what point t's block of the output window reads off G. -/
theorem cut12_of_rows (t : Fin cfg0.N) (P : Vec Ideal S2000x16 .f32) (G : FVec Ideal Cert.ReferenceIdeal.S50000x16 .f32)
    (h : Rows (mb := 2000) (M := 50000) (k := 16) (rowAt t) P G) :
    (cfg0.win 12).cut (grid0.coords t) P = ((cfg0.win 12).blk t).view.read (Elt Ideal) G := by
  obtain ⟨-, -, -, -, -, -, -, -, e0, e1, -⟩ := index_moving t
  refine funext fun (y : S2000x16.Idx) => ?_
  have hy := h (y 0) (y 1)
  show P ((cfg0.win 12).xinj (grid0.coords t) y) = G (((cfg0.win 12).blk t).view.emb y)
  have a1 : (cfg0.win 12).xinj (grid0.coords t) y = ix2 (y 0) (y 1) := by
    funext a
    match a with
    | ⟨0, _⟩ => rfl
    | ⟨1, _⟩ => rfl
  have a2 : ((cfg0.win 12).blk t).view.emb y = ix2 (rowAt t (y 0)) (y 1) := by
    funext a
    apply Fin.ext
    match a with
    | ⟨0, _⟩ => show win0_12.index t (0 : Fin 2) * 2000 + 1 * (y 0).val = 2000 * t.val + (y 0).val; rw [e0]; omega
    | ⟨1, _⟩ => show win0_12.index t (1 : Fin 2) * 16 + 1 * (y 1).val = (y 1).val; rw [e1]; omega
  rw [a1, a2]
  exact hy

/-- An index of the array is in point t's block of the output window iff each coordinate is in the block's range. -/
theorem mem_blk12 (t : Fin cfg0.N) (i : S50000x16.Idx) :
    i ∈ ((cfg0.win 12).blk t).view.set ↔ ∀ a : Fin 2, win0_12.index t a * S2000x16.size a ≤ (i a).val ∧ (i a).val < win0_12.index t a * S2000x16.size a + S2000x16.size a := by
  show i ∈ ((View.whole main_v89_0).slice (win0_12.rect t)).set ↔ _
  rw [View.set_slice_whole, Rect.mem_set_unit]
  exact Iff.rfl

/-- Row r of the array is in the block of point r / 2000, and every point writes back: the 25 blocks cover the array. -/
theorem cover12 (i : S50000x16.Idx) :
    ∃ t : Fin cfg0.N, (cfg0.win 12).flush t = true ∧ i ∈ ((cfg0.win 12).blk t).view.set := by
  have hN : cfg0.N = 25 := N_0
  have hi0 : (i 0).val < 50000 := (i 0).isLt
  have hi1 : (i 1).val < 16 := (i 1).isLt
  have ht : (i 0).val / 2000 < cfg0.N := by omega
  obtain ⟨-, -, -, -, -, -, -, -, e0, e1, -⟩ := index_moving ⟨(i 0).val / 2000, ht⟩
  refine ⟨⟨(i 0).val / 2000, ht⟩, flush0_12 _, ?_⟩
  rw [mem_blk12]
  intro a
  match a with
  | ⟨0, _⟩ =>
    show win0_12.index ⟨(i 0).val / 2000, ht⟩ (0 : Fin 2) * 2000 ≤ (i 0).val ∧ (i 0).val < win0_12.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_12.index ⟨(i 0).val / 2000, ht⟩ (1 : Fin 2) * 16 ≤ (i 1).val ∧ (i 1).val < win0_12.index ⟨(i 0).val / 2000, ht⟩ (1 : Fin 2) * 16 + 16
    rw [e1]
    omega

/-- What point t writes back to the state array is point t's block of the whole-array new state. -/
theorem flushed13_eq (c : Dev nD) (t : Fin cfg0.N) :
    (dats m 0 c).flushed 13 t = ((cfg0.win 13).blk t).view.read (Elt Ideal) (hArr m c) := by
  rw [Value.flushed13]
  unfold out0_13
  rw [View.canon_unit_zero corner_offsets]
  simp only [View.ld_unit_zero (S := S2000x64) corner_offsets, View.ld_unit_zero (S := S128x64) corner_offsets,
    View.ld_unit_zero (S := S1x64) corner_offsets]
  rw [whole_blk4 m c t, whole_blk6 m c t, whole_blk8 m c t]
  refine cut13_of_rows t _ (hArr m c) ?_
  unfold hArr
  exact Cert.Tail.rows_h (rows_blk0 m c t) (rows_blk1 m c t) (rows_blk2 m c t) (rows_blk3 m c t)
    (V m c main_arg10) (V m c main_arg12) (V m c main_arg14) (bias_blk5 m c t) (bias_blk7 m c t) (bias_blk9 m c t)

/-- What point t writes back to the output array is point t's block of the whole-array output. -/
theorem flushed12_eq (c : Dev nD) (t : Fin cfg0.N) :
    (dats m 0 c).flushed 12 t = ((cfg0.win 12).blk t).view.read (Elt Ideal) (yArr m c) := by
  rw [Value.flushed12]
  unfold out0_12
  rw [View.canon_unit_zero corner_offsets]
  simp only [View.ld_unit_zero (S := S2000x64) corner_offsets, View.ld_unit_zero (S := S128x64) corner_offsets,
    View.ld_unit_zero (S := S1x64) corner_offsets, View.ld_unit_zero (S := S64x16) corner_offsets,
    View.ld_unit_zero (S := S1x16) corner_offsets]
  rw [whole_blk4 m c t, whole_blk6 m c t, whole_blk8 m c t, whole_blk10 m c t]
  refine cut12_of_rows t _ (yArr m c) ?_
  unfold yArr hArr
  exact Cert.Tail.rows_y (rows_blk0 m c t) (rows_blk1 m c t) (rows_blk2 m c t) (rows_blk3 m c t)
    (V m c main_arg10) (V m c main_arg12) (V m c main_arg14) (bias_blk5 m c t) (bias_blk7 m c t) (bias_blk9 m c t)
    (V m c main_arg16) (bias_blk11 m c t)

/-- After the region the output array (window 12) is the whole-array output. -/
theorem final12 (c : Dev nD) : (dats m 0 c).arrAt 12 cfg0.N = yArr m c := by
  exact (dats m 0 c).arrAt_eq_of_cover 12 (yArr m c) (fun t _ => flushed12_eq m c t) cover12

/-- After the region the state array (window 13) is the whole-array new state. -/
theorem final13 (c : Dev nD) : (dats m 0 c).arrAt 13 cfg0.N = hArr m c := by
  exact (dats m 0 c).arrAt_eq_of_cover 13 (hArr m c) (fun t _ => flushed13_eq m c t) cover13

end Cert.KernelIdeal.Blocks

end
-- ==== Proof.Agg.lean ====
/-
  The sparse part of the network over whole arrays, as the reference spells it: one graph convolution
  D^(-1/2) (A + I) D^(-1/2) (x · W) + b  with given edge weights and self-loops of weight one.

  The 800000 edges are followed by 50000 self-loops: the endpoint lists get the node numbers 0 … 49999 appended and the
  weights get ones appended. The weighted in-degree of a node is the sum of the weights of the edges that end there; its
  inverse square root is taken where the degree is positive (zero elsewhere); an edge's coefficient is the product of
  its weight and the two inverse square roots at its endpoints; a node's row is the sum, over the edges ending there, of
  the coefficient times the source node's row of x · W; the bias is added to every row.
-/
import proofs.«131946_j40037685133528_1_alg».proof.Proof.Spec

noncomputable section

namespace Cert.ReferenceIdeal.Spec

open Cert.ReferenceIdeal Cert.ReferenceIdeal.Facts₀ Idealize.ShloMosaic

variable {F : FTy → Type} [FloatOps F] [Facts]

/-- The edges' source nodes: row 0 of the edge index, as a vector. -/
def src (ei : IVec S2x800000 32) : IVec S800000 32 :=
  shapeCast S800000 (extractStridedSlice S1x800000 ![0, 0] ei slices_S2x800000_S1x800000_0_0) shapeCasts_S1x800000_S800000

/-- The edges' target nodes: row 1 of the edge index, as a vector. -/
def dst (ei : IVec S2x800000 32) : IVec S800000 32 :=
  shapeCast S800000 (extractStridedSlice S1x800000 ![1, 0] ei slices_S2x800000_S1x800000_1_0) shapeCasts_S1x800000_S800000

/-- An endpoint list with the self-loops' node numbers 0 … 49999 appended. -/
def withLoops (v : IVec S800000 32) : IVec S850000 32 :=
  concatenate S850000 0 [⟨S800000, v⟩, ⟨S50000, iotaInDim S50000 32 0⟩] concatenates_S800000_S50000_S850000_d0

/-- The edge weights with the self-loops' ones appended. -/
def weights (ew : FVec F S800000 .f32) : FVec F S850000 .f32 :=
  concatenate S850000 0
    [⟨S800000, ew⟩, ⟨S50000, broadcastInDim S50000 ![] bcast_S_S50000 (constant S_ .f32 0x3F800000#32)⟩]
    concatenates_S800000_S50000_S850000_d0

/-- A node's weighted in-degree: the weights summed at the edges' targets. -/
def degree (d : IVec S850000 32) (w : FVec F S850000 .f32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d) w

/-- The inverse square root of the degree (floored at 1e-12) where the degree is positive, zero elsewhere. -/
def invSqrt (deg : FVec F S50000 .f32) : FVec F S50000 .f32 :=
  select (cmpf .ogt deg (broadcastInDim S50000 ![] bcast_S_S50000 (constant S_ .f32 0x00000000#32)))
    (Host.rsqrt (maximumf deg (broadcastInDim S50000 ![] bcast_S_S50000 (constant S_ .f32 0x2B8CBCCC#32))))
    (broadcastInDim S50000 ![] bcast_S_S50000 (constant S_ .f32 0x00000000#32))

/-- Node numbers as gather indices: a negative number counts from the end, and each becomes a row of one entry. -/
def asIndex (i : IVec S850000 32) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- An edge's coefficient: the inverse square root at its source, times its weight, times the one at its target. -/
def coef (dis : FVec F S50000 .f32) (s d : IVec S850000 32) (w : FVec F S850000 .f32) : FVec F S850000 .f32 :=
  mulf (mulf (Host.gather gather_S50000_S850000x1_S850000_n_0_n_n_0_1_1 dis (asIndex s)) w)
    (Host.gather gather_S50000_S850000x1_S850000_n_0_n_n_0_1_1 dis (asIndex d))

/-- The convolution from the edges' endpoint vectors. -/
def conv (x : FVec F S50000x64 .f32) (s0 d0 : IVec S800000 32) (ew : FVec F S800000 .f32) (W : FVec F S64x64 .f32)
    (b : FVec F S64 .f32) : FVec F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 (withLoops d0))
      (mulf
        (Host.gather gather_S50000x64_S850000x1_S850000x64_1_0_n_n_0_1_164
          (Host.dotGeneral dot_S50000x64_S64x64_S50000x64_1_0_0_1_n_n none x W) (asIndex (withLoops s0)))
        (broadcastInDim S850000x64 ![0, 1] bcast_S850000x1_S850000x64_0_1
          (broadcastInDim S850000x1 ![0] bcast_S850000_S850000x1_0
            (coef (invSqrt (degree (withLoops d0) (weights ew))) (withLoops s0) (withLoops d0) (weights ew))))))
    (biasRows b)

/-- The convolution from the edge index. -/
def agg (x : FVec F S50000x64 .f32) (ei : IVec S2x800000 32) (ew : FVec F S800000 .f32) (W : FVec F S64x64 .f32)
    (b : FVec F S64 .f32) : FVec F S50000x64 .f32 :=
  conv x (src ei) (dst ei) ew W b

end Cert.ReferenceIdeal.Spec

end
-- ==== Proof.KernelHost.lean ====
/-
  The arrays the kernel's region finds are the reference's graph convolutions of the arguments.

  Before its one region the kernel's program computes, on the host, the edge coefficients once and then the three
  convolutions (for the update gate, the reset gate and the candidate state), and makes each bias vector a row.
  Each convolution is, operation for operation, the composition that the reference applies.

  The line of host operations is read in seven stretches: the endpoint lists with their self-loops and the weights
  with their ones; the inverse square roots of the degrees; the edge coefficients; one convolution for each of the
  three gates; the four bias rows. A stretch reads only the arguments, which no operation writes, and what earlier
  stretches left in buffers that no later stretch writes.
-/
import proofs.«131946_j40037685133528_1_alg».proof.Proof.Gen.KernelIdeal.Frame
import proofs.«131946_j40037685133528_1_alg».proof.Proof.Gen.ReferenceIdeal
import proofs.«131946_j40037685133528_1_alg».proof.Proof.Agg
import Idealize.ShloMosaic.Lib.StableHlo.Run
import Idealize.ShloMosaic.Lib.ValueIdx

set_option Elab.async false

noncomputable section

/-! ## The convolution from the lists it reads

The reference's convolution with the terms it builds from the edge index and the weights — the two endpoint lists with
their self-loops and the edge coefficients — taken as given. -/

namespace Cert.ReferenceIdeal.HostCore

open Cert.ReferenceIdeal Cert.ReferenceIdeal.Facts₀ Cert.ReferenceIdeal.Spec Idealize.ShloMosaic

variable {F : FTy → Type} [FloatOps F] [Facts]

/-- A node's row is the sum, over the edges ending there (targets d), of the edge's coefficient k times the source
    node's (sources s) row of x · W; the bias b is added to every row. -/
def convCore (x : FVec F S50000x64 .f32) (s d : IVec S850000 32) (k : FVec F S850000 .f32) (W : FVec F S64x64 .f32)
    (b : FVec F S64 .f32) : FVec F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 d)
      (mulf
        (Host.gather gather_S50000x64_S850000x1_S850000x64_1_0_n_n_0_1_164
          (Host.dotGeneral dot_S50000x64_S64x64_S50000x64_1_0_0_1_n_n none x W) (asIndex s))
        (broadcastInDim S850000x64 ![0, 1] bcast_S850000x1_S850000x64_0_1
          (broadcastInDim S850000x1 ![0] bcast_S850000_S850000x1_0 k))))
    (biasRows b)

/-- The reference's convolution is that one at the lists with self-loops and the coefficients it builds itself. -/
theorem agg_eq_convCore (x : FVec F S50000x64 .f32) (ei : IVec S2x800000 32) (ew : FVec F S800000 .f32)
    (W : FVec F S64x64 .f32) (b : FVec F S64 .f32) :
    agg x ei ew W b
      = convCore x (withLoops (src ei)) (withLoops (dst ei))
          (coef (invSqrt (degree (withLoops (dst ei)) (weights ew))) (withLoops (src ei)) (withLoops (dst ei)) (weights ew))
          W b := rfl

end Cert.ReferenceIdeal.HostCore

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- Reads, wherever one is left, of an operation's own result and of a buffer through an operation that does not write it. -/
macro "reads_left" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- One operation writes only its result buffer, which is in the list given for its stretch. -/
macro "writes_one" : tactic =>
  `(tactic| (simp only [TRef.nullary, TRef.unary, TRef.binary, TRef.ternary, nullary_writes, unary_writes, binary_writes,
      ternary_writes, reshape_writes, Finset.singleton_subset_iff, List.mem_toFinset]
             exact List.mem_map_of_mem (by decide)))

/-! ## The line cut into stretches -/

/-- A list is its first twenty entries, then the next twenty, three times over, then the rest. -/
theorem cut5 {α : Type} (L : List α) :
    L = L.take 20 ++ ((L.drop 20).take 20 ++ (((L.drop 20).drop 20).take 20
          ++ ((((L.drop 20).drop 20).drop 20).take 20 ++ (((L.drop 20).drop 20).drop 20).drop 20))) := by
  rw [List.take_append_drop, List.take_append_drop, List.take_append_drop, List.take_append_drop]

/-- The valuation after three lines in a row: the first one cut after ten operations, its rest joined to the second
    one, the third one cut as in `cut5`. -/
theorem after_cut {A B L : List (HloOp τ sig (Elt F))} (V : Valuation τ sig (Elt F)) :
    after (List.flatten [A, B, L]) V
      = after ((((L.drop 20).drop 20).drop 20).drop 20)
          (after ((((L.drop 20).drop 20).drop 20).take 20)
            (after (((L.drop 20).drop 20).take 20)
              (after ((L.drop 20).take 20)
                (after (L.take 20) (after (A.drop 10 ++ B) (after (A.take 10) V)))))) := by
  have e : List.flatten [A, B, L]
      = A.take 10 ++ ((A.drop 10 ++ B) ++ (L.take 20 ++ ((L.drop 20).take 20 ++ (((L.drop 20).drop 20).take 20
          ++ ((((L.drop 20).drop 20).drop 20).take 20 ++ (((L.drop 20).drop 20).drop 20).drop 20))))) := by
    rw [← cut5 L]
    simp only [List.flatten_cons, List.flatten_nil, List.append_nil, List.append_assoc]
    rw [← List.append_assoc (List.take 10 A), List.take_append_drop]
  rw [e, StableHlo.after_append, StableHlo.after_append, StableHlo.after_append, StableHlo.after_append,
    StableHlo.after_append, StableHlo.after_append]

/-- The first ten operations of the first line. -/
abbrev stA : List (HloOp τ sig (Elt F)) := (hostOps0).take 10
/-- The rest of the first line, then the second line. -/
abbrev stB : List (HloOp τ sig (Elt F)) := (hostOps0).drop 10 ++ hostOps0_1
/-- The first twenty operations of the long line. -/
abbrev st2 : List (HloOp τ sig (Elt F)) := (hostOps0_2).take 20
/-- Its operations 21 to 40. -/
abbrev st3 : List (HloOp τ sig (Elt F)) := ((hostOps0_2).drop 20).take 20
/-- Its operations 41 to 60. -/
abbrev st4 : List (HloOp τ sig (Elt F)) := (((hostOps0_2).drop 20).drop 20).take 20
/-- Its operations 61 to 80. -/
abbrev st5 : List (HloOp τ sig (Elt F)) := ((((hostOps0_2).drop 20).drop 20).drop 20).take 20
/-- Its last four operations. -/
abbrev st6 : List (HloOp τ sig (Elt F)) := ((((hostOps0_2).drop 20).drop 20).drop 20).drop 20

/-- Writes a stretch out as the list of its operations. -/
macro "open_stretch" s:ident : tactic =>
  `(tactic| simp only [$s:ident, hostOps0, hostOps0_1, hostOps0_2, List.take_succ_cons, List.take_zero, List.drop_succ_cons,
      List.drop_zero, List.cons_append, List.nil_append])

/-! ## The first stretch: endpoint lists and weights -/

/-- The sources with the self-loops' node numbers appended. -/
theorem sA_sources (W : Valuation τ sig (Elt F)) :
    after stA W (Proc.devRef .tc main_v5)
      = Cert.ReferenceIdeal.Spec.withLoops (Cert.ReferenceIdeal.Spec.src (W (Proc.devRef .tc main_arg1))) := by
  open_stretch stA
  after_results_simp
  reads_left
  unfold Cert.ReferenceIdeal.Spec.withLoops Cert.ReferenceIdeal.Spec.src
  rfl

/-- The targets with the self-loops' node numbers appended. -/
theorem sA_targets (W : Valuation τ sig (Elt F)) :
    after stA W (Proc.devRef .tc main_v6)
      = Cert.ReferenceIdeal.Spec.withLoops (Cert.ReferenceIdeal.Spec.dst (W (Proc.devRef .tc main_arg1))) := by
  open_stretch stA
  after_results_simp
  reads_left
  unfold Cert.ReferenceIdeal.Spec.withLoops Cert.ReferenceIdeal.Spec.dst
  rfl

/-- The edge weights with the self-loops' ones appended. -/
theorem sA_weights (W : Valuation τ sig (Elt F)) :
    after stA W (Proc.devRef .tc main_v8)
      = Cert.ReferenceIdeal.Spec.weights (F := F) (W (Proc.devRef .tc main_arg2)) := by
  open_stretch stA
  after_results_simp
  reads_left
  unfold Cert.ReferenceIdeal.Spec.weights
  rfl

/-- The buffers the first stretch writes. -/
abbrev sA_W : List (Ref sig .tc) :=
  [main_v0, main_v1, main_v2, main_v3, main_v4, main_v5, main_v6, main_cst, main_v7, main_v8]

theorem sA_writes : (stA : List (HloOp τ sig (Elt F))).Forall
    fun op => op.writes ⊆ (sA_W.map (Proc.devRef (τ := τ) .tc)).toFinset := by
  open_stretch stA
  simp only [List.Forall]
  refine ⟨?_, ?_, ?_, ?_, ?_, ?_, ?_, ?_, ?_, ?_⟩ <;> writes_one

/-- A buffer the first stretch does not write keeps its contents through it. -/
theorem sA_keep (V : Valuation τ sig (Elt F)) (r : Ref sig .tc) (h : r ∉ sA_W) :
    after stA V (Proc.devRef .tc r) = V (Proc.devRef .tc r) :=
  after_of_writes_sub _ _ sA_writes h

/-! ## The second stretch: the inverse square roots of the degrees -/

set_option maxHeartbeats 4000000 in
set_option maxRecDepth 8192 in
/-- The inverse square roots of the weighted in-degrees, from the targets and the weights. -/
theorem sB_invSqrt (W : Valuation τ sig (Elt F)) :
    after stB W (Proc.devRef .tc main_v17)
      = Cert.ReferenceIdeal.Spec.invSqrt (F := F)
          (Cert.ReferenceIdeal.Spec.degree (W (Proc.devRef .tc main_v6)) (W (Proc.devRef .tc main_v8))) := by
  open_stretch stB
  after_results_simp
  reads_left
  try simp only [TRef.ofBuf, TRef.toBuf, cast_eq, id_eq]
  unfold Cert.ReferenceIdeal.Spec.invSqrt Cert.ReferenceIdeal.Spec.degree
  rfl

/-- The buffers the second stretch writes. -/
abbrev sB_W : List (Ref sig .tc) :=
  [main_cst_0, main_v9, main_v10, main_v11, main_cst_1, main_v12, main_v13, main_cst_2, main_v14, main_v15, main_v16,
    main_cst_3, main_call0_v0, main_call0_v1, main_v17]

theorem sB_writes : (stB : List (HloOp τ sig (Elt F))).Forall
    fun op => op.writes ⊆ (sB_W.map (Proc.devRef (τ := τ) .tc)).toFinset := by
  open_stretch stB
  simp only [List.Forall]
  refine ⟨?_, ?_, ?_, ?_, ?_, ?_, ?_, ?_, ?_, ?_, ?_, ?_, ?_, ?_, ?_⟩ <;> writes_one

/-- A buffer the second stretch does not write keeps its contents through it. -/
theorem sB_keep (V : Valuation τ sig (Elt F)) (r : Ref sig .tc) (h : r ∉ sB_W) :
    after stB V (Proc.devRef .tc r) = V (Proc.devRef .tc r) :=
  after_of_writes_sub _ _ sB_writes h

/-! ## The third stretch: the edge coefficients -/

set_option maxHeartbeats 4000000 in
set_option maxRecDepth 8192 in
/-- An edge's coefficient from the inverse square roots, the two endpoint lists and the weights. -/
theorem s2_coef (W : Valuation τ sig (Elt F)) :
    after st2 W (Proc.devRef .tc main_v33)
      = Cert.ReferenceIdeal.Spec.coef (F := F) (W (Proc.devRef .tc main_v17)) (W (Proc.devRef .tc main_v5))
          (W (Proc.devRef .tc main_v6)) (W (Proc.devRef .tc main_v8)) := by
  open_stretch st2
  after_results_simp
  unfold Cert.ReferenceIdeal.Spec.coef Cert.ReferenceIdeal.Spec.asIndex
  rfl

/-- The buffers the third stretch writes. -/
abbrev s2_W : List (Ref sig .tc) :=
  [main_c, main_v18, main_v19, main_c_4, main_v20, main_v21, main_v22, main_v23, main_v24, main_v25, main_c_5, main_v26,
    main_v27, main_c_6, main_v28, main_v29, main_v30, main_v31, main_v32, main_v33]

set_option maxRecDepth 8192 in
theorem s2_writes : (st2 : List (HloOp τ sig (Elt F))).Forall
    fun op => op.writes ⊆ (s2_W.map (Proc.devRef (τ := τ) .tc)).toFinset := by
  open_stretch st2
  simp only [List.Forall]
  refine ⟨?_, ?_, ?_, ?_, ?_, ?_, ?_, ?_, ?_, ?_, ?_, ?_, ?_, ?_, ?_, ?_, ?_, ?_, ?_, ?_⟩ <;> writes_one

/-- A buffer the third stretch does not write keeps its contents through it. -/
theorem s2_keep (V : Valuation τ sig (Elt F)) (r : Ref sig .tc) (h : r ∉ s2_W) :
    after st2 V (Proc.devRef .tc r) = V (Proc.devRef .tc r) :=
  after_of_writes_sub _ _ s2_writes h

/-! ## The three convolutions, one stretch each -/

/-- Reads one convolution off its stretch of the line and sets it against the convolution from the lists it reads. -/
macro "read_conv" s:ident : tactic =>
  `(tactic| (open_stretch $s:ident
             after_results_simp
             unfold Cert.ReferenceIdeal.HostCore.convCore Cert.ReferenceIdeal.Spec.asIndex Cert.ReferenceIdeal.Spec.biasRows
             rfl))

/-- Each of the twenty operations of a stretch writes only its result buffer. -/
macro "writes_twenty" s:ident : tactic =>
  `(tactic| (open_stretch $s:ident
             simp only [List.Forall]
             refine ⟨?_, ?_, ?_, ?_, ?_, ?_, ?_, ?_, ?_, ?_, ?_, ?_, ?_, ?_, ?_, ?_, ?_, ?_, ?_, ?_⟩ <;> writes_one))

set_option maxHeartbeats 4000000 in
set_option maxRecDepth 8192 in
/-- The update gate's convolution from the node features, the endpoint lists, the coefficients and its weights and bias. -/
theorem s3_conv (W : Valuation τ sig (Elt F)) :
    after st3 W (Proc.devRef .tc main_v50)
      = Cert.ReferenceIdeal.HostCore.convCore (F := F) (W (Proc.devRef .tc main_arg0)) (W (Proc.devRef .tc main_v5))
          (W (Proc.devRef .tc main_v6)) (W (Proc.devRef .tc main_v33)) (W (Proc.devRef .tc main_arg4))
          (W (Proc.devRef .tc main_arg5)) := by
  read_conv st3

/-- The buffers the update gate's stretch writes. -/
abbrev s3_W : List (Ref sig .tc) :=
  [main_v34, main_c_7, main_v35, main_v36, main_c_8, main_v37, main_v38, main_v39, main_v40, main_v41, main_v42, main_v43,
    main_v44, main_cst_9, main_v45, main_v46, main_v47, main_v48, main_v49, main_v50]

set_option maxRecDepth 8192 in
theorem s3_writes : (st3 : List (HloOp τ sig (Elt F))).Forall
    fun op => op.writes ⊆ (s3_W.map (Proc.devRef (τ := τ) .tc)).toFinset := by
  writes_twenty st3

/-- A buffer the update gate's stretch does not write keeps its contents through it. -/
theorem s3_keep (V : Valuation τ sig (Elt F)) (r : Ref sig .tc) (h : r ∉ s3_W) :
    after st3 V (Proc.devRef .tc r) = V (Proc.devRef .tc r) :=
  after_of_writes_sub _ _ s3_writes h

set_option maxHeartbeats 4000000 in
set_option maxRecDepth 8192 in
/-- The reset gate's convolution from the node features, the endpoint lists, the coefficients and its weights and bias. -/
theorem s4_conv (W : Valuation τ sig (Elt F)) :
    after st4 W (Proc.devRef .tc main_v67)
      = Cert.ReferenceIdeal.HostCore.convCore (F := F) (W (Proc.devRef .tc main_arg0)) (W (Proc.devRef .tc main_v5))
          (W (Proc.devRef .tc main_v6)) (W (Proc.devRef .tc main_v33)) (W (Proc.devRef .tc main_arg6))
          (W (Proc.devRef .tc main_arg7)) := by
  read_conv st4

/-- The buffers the reset gate's stretch writes. -/
abbrev s4_W : List (Ref sig .tc) :=
  [main_v51, main_c_10, main_v52, main_v53, main_c_11, main_v54, main_v55, main_v56, main_v57, main_v58, main_v59, main_v60,
    main_v61, main_cst_12, main_v62, main_v63, main_v64, main_v65, main_v66, main_v67]

set_option maxRecDepth 8192 in
theorem s4_writes : (st4 : List (HloOp τ sig (Elt F))).Forall
    fun op => op.writes ⊆ (s4_W.map (Proc.devRef (τ := τ) .tc)).toFinset := by
  writes_twenty st4

/-- A buffer the reset gate's stretch does not write keeps its contents through it. -/
theorem s4_keep (V : Valuation τ sig (Elt F)) (r : Ref sig .tc) (h : r ∉ s4_W) :
    after st4 V (Proc.devRef .tc r) = V (Proc.devRef .tc r) :=
  after_of_writes_sub _ _ s4_writes h

set_option maxHeartbeats 4000000 in
set_option maxRecDepth 8192 in
/-- The candidate state's convolution from the node features, the endpoint lists, the coefficients and its weights and bias. -/
theorem s5_conv (W : Valuation τ sig (Elt F)) :
    after st5 W (Proc.devRef .tc main_v84)
      = Cert.ReferenceIdeal.HostCore.convCore (F := F) (W (Proc.devRef .tc main_arg0)) (W (Proc.devRef .tc main_v5))
          (W (Proc.devRef .tc main_v6)) (W (Proc.devRef .tc main_v33)) (W (Proc.devRef .tc main_arg8))
          (W (Proc.devRef .tc main_arg9)) := by
  read_conv st5

/-- The buffers the candidate state's stretch writes. -/
abbrev s5_W : List (Ref sig .tc) :=
  [main_v68, main_c_13, main_v69, main_v70, main_c_14, main_v71, main_v72, main_v73, main_v74, main_v75, main_v76, main_v77,
    main_v78, main_cst_15, main_v79, main_v80, main_v81, main_v82, main_v83, main_v84]

set_option maxRecDepth 8192 in
theorem s5_writes : (st5 : List (HloOp τ sig (Elt F))).Forall
    fun op => op.writes ⊆ (s5_W.map (Proc.devRef (τ := τ) .tc)).toFinset := by
  writes_twenty st5

/-- A buffer the candidate state's stretch does not write keeps its contents through it. -/
theorem s5_keep (V : Valuation τ sig (Elt F)) (r : Ref sig .tc) (h : r ∉ s5_W) :
    after st5 V (Proc.devRef .tc r) = V (Proc.devRef .tc r) :=
  after_of_writes_sub _ _ s5_writes h

/-! ## The last stretch: the four bias rows -/

/-- The buffers the last stretch writes. -/
abbrev s6_W : List (Ref sig .tc) := [main_v85, main_v86, main_v87, main_v88]

set_option maxRecDepth 8192 in
theorem s6_writes : (st6 : List (HloOp τ sig (Elt F))).Forall
    fun op => op.writes ⊆ (s6_W.map (Proc.devRef (τ := τ) .tc)).toFinset := by
  open_stretch st6
  simp only [List.Forall]
  refine ⟨?_, ?_, ?_, ?_⟩ <;> writes_one

/-- A buffer the last stretch does not write keeps its contents through it. -/
theorem s6_keep (V : Valuation τ sig (Elt F)) (r : Ref sig .tc) (h : r ∉ s6_W) :
    after st6 V (Proc.devRef .tc r) = V (Proc.devRef .tc r) :=
  after_of_writes_sub _ _ s6_writes h

/-! ## The whole line -/

set_option maxHeartbeats 4000000 in
/-- The three convolutions the line leaves are the reference's convolutions of the arguments' contents. -/
theorem line_convs (V0 : Valuation τ sig (Elt F)) :
    after (List.flatten [hostOps0, hostOps0_1, hostOps0_2]) V0 (Proc.devRef .tc main_v50)
        = Cert.ReferenceIdeal.Spec.agg (F := F) (V0 (Proc.devRef .tc main_arg0)) (V0 (Proc.devRef .tc main_arg1))
            (V0 (Proc.devRef .tc main_arg2)) (V0 (Proc.devRef .tc main_arg4)) (V0 (Proc.devRef .tc main_arg5))
    ∧ after (List.flatten [hostOps0, hostOps0_1, hostOps0_2]) V0 (Proc.devRef .tc main_v67)
        = Cert.ReferenceIdeal.Spec.agg (F := F) (V0 (Proc.devRef .tc main_arg0)) (V0 (Proc.devRef .tc main_arg1))
            (V0 (Proc.devRef .tc main_arg2)) (V0 (Proc.devRef .tc main_arg6)) (V0 (Proc.devRef .tc main_arg7))
    ∧ after (List.flatten [hostOps0, hostOps0_1, hostOps0_2]) V0 (Proc.devRef .tc main_v84)
        = Cert.ReferenceIdeal.Spec.agg (F := F) (V0 (Proc.devRef .tc main_arg0)) (V0 (Proc.devRef .tc main_arg1))
            (V0 (Proc.devRef .tc main_arg2)) (V0 (Proc.devRef .tc main_arg8)) (V0 (Proc.devRef .tc main_arg9)) := by
  rw [after_cut]
  generalize hA : after (List.take 10 hostOps0) V0 = VA
  generalize hB : after (List.drop 10 hostOps0 ++ hostOps0_1) VA = VB
  generalize h2 : after (List.take 20 hostOps0_2) VB = V2
  generalize h3 : after (List.take 20 (List.drop 20 hostOps0_2)) V2 = V3
  generalize h4 : after (List.take 20 (List.drop 20 (List.drop 20 hostOps0_2))) V3 = V4
  generalize h5 : after (List.take 20 (List.drop 20 (List.drop 20 (List.drop 20 hostOps0_2)))) V4 = V5
  generalize h6 : after (List.drop 20 (List.drop 20 (List.drop 20 (List.drop 20 hostOps0_2)))) V5 = V6
  -- what each stretch does not write, it keeps
  have kA (r : Ref sig .tc) (hr : r ∉ sA_W) : VA (Proc.devRef .tc r) = V0 (Proc.devRef .tc r) := by
    rw [← hA]; exact sA_keep _ r hr
  have kB (r : Ref sig .tc) (hr : r ∉ sB_W) : VB (Proc.devRef .tc r) = VA (Proc.devRef .tc r) := by
    rw [← hB]; exact sB_keep _ r hr
  have k2 (r : Ref sig .tc) (hr : r ∉ s2_W) : V2 (Proc.devRef .tc r) = VB (Proc.devRef .tc r) := by
    rw [← h2]; exact s2_keep _ r hr
  have k3 (r : Ref sig .tc) (hr : r ∉ s3_W) : V3 (Proc.devRef .tc r) = V2 (Proc.devRef .tc r) := by
    rw [← h3]; exact s3_keep _ r hr
  have k4 (r : Ref sig .tc) (hr : r ∉ s4_W) : V4 (Proc.devRef .tc r) = V3 (Proc.devRef .tc r) := by
    rw [← h4]; exact s4_keep _ r hr
  have k5 (r : Ref sig .tc) (hr : r ∉ s5_W) : V5 (Proc.devRef .tc r) = V4 (Proc.devRef .tc r) := by
    rw [← h5]; exact s5_keep _ r hr
  have k6 (r : Ref sig .tc) (hr : r ∉ s6_W) : V6 (Proc.devRef .tc r) = V5 (Proc.devRef .tc r) := by
    rw [← h6]; exact s6_keep _ r hr
  -- the endpoint lists and the weights, as the first stretch leaves them
  have cS : VA (Proc.devRef .tc main_v5)
      = Cert.ReferenceIdeal.Spec.withLoops (Cert.ReferenceIdeal.Spec.src (V0 (Proc.devRef .tc main_arg1))) := by
    rw [← hA]; exact sA_sources V0
  have cD : VA (Proc.devRef .tc main_v6)
      = Cert.ReferenceIdeal.Spec.withLoops (Cert.ReferenceIdeal.Spec.dst (V0 (Proc.devRef .tc main_arg1))) := by
    rw [← hA]; exact sA_targets V0
  have cW : VA (Proc.devRef .tc main_v8) = Cert.ReferenceIdeal.Spec.weights (F := F) (V0 (Proc.devRef .tc main_arg2)) := by
    rw [← hA]; exact sA_weights V0
  -- the inverse square roots
  have cI : VB (Proc.devRef .tc main_v17)
      = Cert.ReferenceIdeal.Spec.invSqrt (F := F) (Cert.ReferenceIdeal.Spec.degree
          (Cert.ReferenceIdeal.Spec.withLoops (Cert.ReferenceIdeal.Spec.dst (V0 (Proc.devRef .tc main_arg1))))
          (Cert.ReferenceIdeal.Spec.weights (V0 (Proc.devRef .tc main_arg2)))) := by
    rw [← hB, sB_invSqrt VA, cD, cW]
  -- the coefficients, and the lists beside them, after the third stretch
  have cS2 : V2 (Proc.devRef .tc main_v5)
      = Cert.ReferenceIdeal.Spec.withLoops (Cert.ReferenceIdeal.Spec.src (V0 (Proc.devRef .tc main_arg1))) := by
    rw [k2 main_v5 (by decide), kB main_v5 (by decide), cS]
  have cD2 : V2 (Proc.devRef .tc main_v6)
      = Cert.ReferenceIdeal.Spec.withLoops (Cert.ReferenceIdeal.Spec.dst (V0 (Proc.devRef .tc main_arg1))) := by
    rw [k2 main_v6 (by decide), kB main_v6 (by decide), cD]
  have cK2 : V2 (Proc.devRef .tc main_v33)
      = Cert.ReferenceIdeal.Spec.coef (F := F)
          (Cert.ReferenceIdeal.Spec.invSqrt (Cert.ReferenceIdeal.Spec.degree
            (Cert.ReferenceIdeal.Spec.withLoops (Cert.ReferenceIdeal.Spec.dst (V0 (Proc.devRef .tc main_arg1))))
            (Cert.ReferenceIdeal.Spec.weights (V0 (Proc.devRef .tc main_arg2)))))
          (Cert.ReferenceIdeal.Spec.withLoops (Cert.ReferenceIdeal.Spec.src (V0 (Proc.devRef .tc main_arg1))))
          (Cert.ReferenceIdeal.Spec.withLoops (Cert.ReferenceIdeal.Spec.dst (V0 (Proc.devRef .tc main_arg1))))
          (Cert.ReferenceIdeal.Spec.weights (V0 (Proc.devRef .tc main_arg2))) := by
    rw [← h2, s2_coef VB, cI, kB main_v5 (by decide), cS, kB main_v6 (by decide), cD, kB main_v8 (by decide), cW]
  -- an argument is as launched before each convolution
  have a2 (r : Ref sig .tc) (gA : r ∉ sA_W) (gB : r ∉ sB_W) (g2 : r ∉ s2_W) :
      V2 (Proc.devRef .tc r) = V0 (Proc.devRef .tc r) := by
    rw [k2 r g2, kB r gB, kA r gA]
  -- the update gate's convolution
  have cZ : V3 (Proc.devRef .tc main_v50)
      = Cert.ReferenceIdeal.Spec.agg (F := F) (V0 (Proc.devRef .tc main_arg0)) (V0 (Proc.devRef .tc main_arg1))
          (V0 (Proc.devRef .tc main_arg2)) (V0 (Proc.devRef .tc main_arg4)) (V0 (Proc.devRef .tc main_arg5)) := by
    rw [← h3, s3_conv V2, cS2, cD2, cK2, a2 main_arg0 (by decide) (by decide) (by decide),
      a2 main_arg4 (by decide) (by decide) (by decide), a2 main_arg5 (by decide) (by decide) (by decide),
      Cert.ReferenceIdeal.HostCore.agg_eq_convCore]
  -- the reset gate's convolution
  have cR : V4 (Proc.devRef .tc main_v67)
      = Cert.ReferenceIdeal.Spec.agg (F := F) (V0 (Proc.devRef .tc main_arg0)) (V0 (Proc.devRef .tc main_arg1))
          (V0 (Proc.devRef .tc main_arg2)) (V0 (Proc.devRef .tc main_arg6)) (V0 (Proc.devRef .tc main_arg7)) := by
    rw [← h4, s4_conv V3, k3 main_v5 (by decide), cS2, k3 main_v6 (by decide), cD2, k3 main_v33 (by decide), cK2,
      k3 main_arg0 (by decide), a2 main_arg0 (by decide) (by decide) (by decide),
      k3 main_arg6 (by decide), a2 main_arg6 (by decide) (by decide) (by decide),
      k3 main_arg7 (by decide), a2 main_arg7 (by decide) (by decide) (by decide),
      Cert.ReferenceIdeal.HostCore.agg_eq_convCore]
  -- the candidate state's convolution
  have cH : V5 (Proc.devRef .tc main_v84)
      = Cert.ReferenceIdeal.Spec.agg (F := F) (V0 (Proc.devRef .tc main_arg0)) (V0 (Proc.devRef .tc main_arg1))
          (V0 (Proc.devRef .tc main_arg2)) (V0 (Proc.devRef .tc main_arg8)) (V0 (Proc.devRef .tc main_arg9)) := by
    rw [← h5, s5_conv V4, k4 main_v5 (by decide), k3 main_v5 (by decide), cS2, k4 main_v6 (by decide),
      k3 main_v6 (by decide), cD2, k4 main_v33 (by decide), k3 main_v33 (by decide), cK2,
      k4 main_arg0 (by decide), k3 main_arg0 (by decide), a2 main_arg0 (by decide) (by decide) (by decide),
      k4 main_arg8 (by decide), k3 main_arg8 (by decide), a2 main_arg8 (by decide) (by decide) (by decide),
      k4 main_arg9 (by decide), k3 main_arg9 (by decide), a2 main_arg9 (by decide) (by decide) (by decide),
      Cert.ReferenceIdeal.HostCore.agg_eq_convCore]
  -- no later stretch writes a convolution's buffer
  refine ⟨?_, ?_, ?_⟩
  · rw [k6 main_v50 (by decide), k5 main_v50 (by decide), k4 main_v50 (by decide), cZ]
  · rw [k6 main_v67 (by decide), k5 main_v67 (by decide), cR]
  · rw [k6 main_v84 (by decide), cH]

/-! ## What the region finds -/

variable (m : (ℓ : Loc nD τ sig) → Buf (Elt Ideal) ℓ)

set_option maxHeartbeats 16000000 in
set_option maxRecDepth 8192 in
/-- The array staged for the update gate is the convolution with that gate's weights and bias. -/
theorem conv_update (c : Dev nD) :
    (V m c main_v50 : FVec Ideal Cert.ReferenceIdeal.S50000x64 .f32) = Cert.ReferenceIdeal.Spec.agg (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  dsimp only [Gen.V]
  exact (line_convs (F := Ideal) (fun b => m (c, b))).1

set_option maxHeartbeats 16000000 in
set_option maxRecDepth 8192 in
/-- The array staged for the reset gate is the convolution with that gate's weights and bias. -/
theorem conv_reset (c : Dev nD) :
    (V m c main_v67 : FVec Ideal Cert.ReferenceIdeal.S50000x64 .f32) = Cert.ReferenceIdeal.Spec.agg (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  dsimp only [Gen.V]
  exact (line_convs (F := Ideal) (fun b => m (c, b))).2.1

set_option maxHeartbeats 16000000 in
set_option maxRecDepth 8192 in
/-- The array staged for the candidate state is the convolution with its weights and bias. -/
theorem conv_cand (c : Dev nD) :
    (V m c main_v84 : FVec Ideal Cert.ReferenceIdeal.S50000x64 .f32) = Cert.ReferenceIdeal.Spec.agg (F := Ideal) (m ((c : Thread nD τ).loc main_arg0)) (m ((c : Thread nD τ).loc main_arg1)) (m ((c : Thread nD τ).loc main_arg2)) (m ((c : Thread nD τ).loc main_arg8)) (m ((c : Thread nD τ).loc main_arg9)) := by
  dsimp only [Gen.V]
  exact (line_convs (F := Ideal) (fun b => m (c, b))).2.2

end Cert.KernelIdeal.HostSide

end
-- ==== Proof.KernelBias.lean ====
/-
  The bias rows the kernel's region finds hold the bias vectors.

  Before its region the kernel's program makes each of the four bias vectors (three of 64 entries, one of 16) a row
  of one line by a change of shape; the one row of that array is the vector.
-/
import proofs.«131946_j40037685133528_1_alg».proof.Proof.Gen.KernelIdeal.Frame
import proofs.«131946_j40037685133528_1_alg».proof.Proof.Gen.ReferenceIdeal
import proofs.«131946_j40037685133528_1_alg».proof.Proof.Agg
import proofs.«131946_j40037685133528_1_alg».proof.Proof.KernelBlocks
import Idealize.ShloMosaic.Lib.StableHlo.Run
import Idealize.ShloMosaic.Lib.ValueIdx
import Idealize.ShloMosaic.Lib.ValueLayout

set_option Elab.async false

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- A vector made a row by a change of shape has that vector as its one row. -/
theorem rowOf_shapeCast {n : ℕ} {α : Type} (X : (⟨1, ![n]⟩ : Shape).Idx → α)
    (h : (⟨1, ![n]⟩ : Shape).ShapeCasts ⟨2, ![1, n]⟩) :
    Cert.KernelIdeal.Blocks.rowOf (shapeCast (⟨2, ![1, n]⟩ : Shape) X h) = X := by
  funext i
  exact (shapeCast_a_1a_apply X h (0 : Fin 1) (i 0)).trans (congrArg X (eq_ix1 i).symm)

/-! ## The line of operations before the region, cut before its last four

The region finds what the whole line of operations leaves. Its last four operations make the four bias vectors rows
and write nothing else; no operation of the line writes an argument. So each bias row is the change of shape of the
argument as launched, whatever the earlier operations compute. -/

/-- A line of operations run from contents W is its first k operations run from W, then the rest run from what they leave. -/
theorem after_take_drop (k : ℕ) (l : List (HloOp τ sig (Elt Ideal))) (W : Valuation τ sig (Elt Ideal)) :
    after l W = after (l.drop k) (after (l.take k) W) := by
  rw [← after_append, List.take_append_drop]

/-- What the buffers hold before the last four operations of the line. -/
def beforeRows (c : Dev nD) : Valuation τ sig (Elt Ideal) :=
  after ((hostOps0_2 (F := Ideal)).take 80) (after hostOps0_1 (after hostOps0 fun b => m (c, b)))

/-- What the region finds is what the last four operations leave from there. -/
theorem V_split (c : Dev nD) (b : Ref sig .tc) :
    V m c b = after ((hostOps0_2 (F := Ideal)).drop 80) (beforeRows m c) (Proc.devRef .tc b) := by
  dsimp only [V]
  unfold beforeRows
  rw [List.flatten_cons, List.flatten_cons, List.flatten_cons, List.flatten_nil, List.append_nil, after_append,
    after_append, after_take_drop 80 hostOps0_2]

/-- The last four operations leave the update gate's bias row at the change of shape of its bias vector, -/
theorem tail_main_v85 (W : Valuation τ sig (Elt Ideal)) :
    after ((hostOps0_2 (F := Ideal)).drop 80) W (Proc.devRef .tc main_v85)
      = fun i => shapeCast S1x64 (W (Proc.devRef .tc main_arg11)) shapeCasts_S64_S1x64 i := by
  simp only [hostOps0_2, List.drop_succ_cons, List.drop_zero]
  after_results
  rfl

/-- and the bias vector itself as it was. -/
theorem tail_main_arg11 (W : Valuation τ sig (Elt Ideal)) :
    after ((hostOps0_2 (F := Ideal)).drop 80) W (Proc.devRef .tc main_arg11) = W (Proc.devRef .tc main_arg11) := by
  simp only [hostOps0_2, List.drop_succ_cons, List.drop_zero]
  after_results

/-- Before the last four operations the update gate's bias vector is as launched: they do not write it, and the region finds it as launched. -/
theorem before_main_arg11 (c : Dev nD) :
    beforeRows m c (Proc.devRef .tc main_arg11) = m ((c : Thread nD τ).loc main_arg11) :=
  ((tail_main_arg11 (beforeRows m c)).symm.trans (V_split m c main_arg11).symm).trans (V_main_arg11 m c)

/-- The update gate's bias row the region finds is the change of shape of the bias vector as launched. -/
theorem row_main_v85 (c : Dev nD) :
    V m c main_v85 = fun i => shapeCast S1x64 (m ((c : Thread nD τ).loc main_arg11)) shapeCasts_S64_S1x64 i := by
  refine ((V_split m c main_v85).trans (tail_main_v85 (beforeRows m c))).trans ?_
  rw [before_main_arg11 m c]

/-- The last four operations leave the reset gate's bias row at the change of shape of its bias vector, -/
theorem tail_main_v86 (W : Valuation τ sig (Elt Ideal)) :
    after ((hostOps0_2 (F := Ideal)).drop 80) W (Proc.devRef .tc main_v86)
      = fun i => shapeCast S1x64 (W (Proc.devRef .tc main_arg13)) shapeCasts_S64_S1x64 i := by
  simp only [hostOps0_2, List.drop_succ_cons, List.drop_zero]
  after_results
  rfl

/-- and the bias vector itself as it was. -/
theorem tail_main_arg13 (W : Valuation τ sig (Elt Ideal)) :
    after ((hostOps0_2 (F := Ideal)).drop 80) W (Proc.devRef .tc main_arg13) = W (Proc.devRef .tc main_arg13) := by
  simp only [hostOps0_2, List.drop_succ_cons, List.drop_zero]
  after_results

/-- Before the last four operations the reset gate's bias vector is as launched: they do not write it, and the region finds it as launched. -/
theorem before_main_arg13 (c : Dev nD) :
    beforeRows m c (Proc.devRef .tc main_arg13) = m ((c : Thread nD τ).loc main_arg13) :=
  ((tail_main_arg13 (beforeRows m c)).symm.trans (V_split m c main_arg13).symm).trans (V_main_arg13 m c)

/-- The reset gate's bias row the region finds is the change of shape of the bias vector as launched. -/
theorem row_main_v86 (c : Dev nD) :
    V m c main_v86 = fun i => shapeCast S1x64 (m ((c : Thread nD τ).loc main_arg13)) shapeCasts_S64_S1x64 i := by
  refine ((V_split m c main_v86).trans (tail_main_v86 (beforeRows m c))).trans ?_
  rw [before_main_arg13 m c]

/-- The last four operations leave the candidate state's bias row at the change of shape of its bias vector, -/
theorem tail_main_v87 (W : Valuation τ sig (Elt Ideal)) :
    after ((hostOps0_2 (F := Ideal)).drop 80) W (Proc.devRef .tc main_v87)
      = fun i => shapeCast S1x64 (W (Proc.devRef .tc main_arg15)) shapeCasts_S64_S1x64 i := by
  simp only [hostOps0_2, List.drop_succ_cons, List.drop_zero]
  after_results
  rfl

/-- and the bias vector itself as it was. -/
theorem tail_main_arg15 (W : Valuation τ sig (Elt Ideal)) :
    after ((hostOps0_2 (F := Ideal)).drop 80) W (Proc.devRef .tc main_arg15) = W (Proc.devRef .tc main_arg15) := by
  simp only [hostOps0_2, List.drop_succ_cons, List.drop_zero]
  after_results

/-- Before the last four operations the candidate state's bias vector is as launched: they do not write it, and the region finds it as launched. -/
theorem before_main_arg15 (c : Dev nD) :
    beforeRows m c (Proc.devRef .tc main_arg15) = m ((c : Thread nD τ).loc main_arg15) :=
  ((tail_main_arg15 (beforeRows m c)).symm.trans (V_split m c main_arg15).symm).trans (V_main_arg15 m c)

/-- The candidate state's bias row the region finds is the change of shape of the bias vector as launched. -/
theorem row_main_v87 (c : Dev nD) :
    V m c main_v87 = fun i => shapeCast S1x64 (m ((c : Thread nD τ).loc main_arg15)) shapeCasts_S64_S1x64 i := by
  refine ((V_split m c main_v87).trans (tail_main_v87 (beforeRows m c))).trans ?_
  rw [before_main_arg15 m c]

/-- The last four operations leave the output layer's bias row at the change of shape of its bias vector, -/
theorem tail_main_v88 (W : Valuation τ sig (Elt Ideal)) :
    after ((hostOps0_2 (F := Ideal)).drop 80) W (Proc.devRef .tc main_v88)
      = fun i => shapeCast S1x16 (W (Proc.devRef .tc main_arg17)) shapeCasts_S16_S1x16 i := by
  simp only [hostOps0_2, List.drop_succ_cons, List.drop_zero]
  after_results
  rfl

/-- and the bias vector itself as it was. -/
theorem tail_main_arg17 (W : Valuation τ sig (Elt Ideal)) :
    after ((hostOps0_2 (F := Ideal)).drop 80) W (Proc.devRef .tc main_arg17) = W (Proc.devRef .tc main_arg17) := by
  simp only [hostOps0_2, List.drop_succ_cons, List.drop_zero]
  after_results

/-- Before the last four operations the output layer's bias vector is as launched: they do not write it, and the region finds it as launched. -/
theorem before_main_arg17 (c : Dev nD) :
    beforeRows m c (Proc.devRef .tc main_arg17) = m ((c : Thread nD τ).loc main_arg17) :=
  ((tail_main_arg17 (beforeRows m c)).symm.trans (V_split m c main_arg17).symm).trans (V_main_arg17 m c)

/-- The output layer's bias row the region finds is the change of shape of the bias vector as launched. -/
theorem row_main_v88 (c : Dev nD) :
    V m c main_v88 = fun i => shapeCast S1x16 (m ((c : Thread nD τ).loc main_arg17)) shapeCasts_S16_S1x16 i := by
  refine ((V_split m c main_v88).trans (tail_main_v88 (beforeRows m c))).trans ?_
  rw [before_main_arg17 m c]

set_option maxHeartbeats 16000000 in
set_option maxRecDepth 8192 in
/-- The update gate's bias row holds the bias vector. -/
theorem bias_update (c : Dev nD) :
    Cert.KernelIdeal.Blocks.rowOf (V m c main_v85) = (m ((c : Thread nD τ).loc main_arg11)) := by
  have e : V m c main_v85 = fun i => shapeCast S1x64 (m ((c : Thread nD τ).loc main_arg11)) shapeCasts_S64_S1x64 i := by
    exact row_main_v85 m c
  exact (congrArg Cert.KernelIdeal.Blocks.rowOf e).trans (rowOf_shapeCast (n := 64) (m ((c : Thread nD τ).loc main_arg11)) shapeCasts_S64_S1x64)

set_option maxHeartbeats 16000000 in
set_option maxRecDepth 8192 in
/-- The reset gate's bias row holds the bias vector. -/
theorem bias_reset (c : Dev nD) :
    Cert.KernelIdeal.Blocks.rowOf (V m c main_v86) = (m ((c : Thread nD τ).loc main_arg13)) := by
  have e : V m c main_v86 = fun i => shapeCast S1x64 (m ((c : Thread nD τ).loc main_arg13)) shapeCasts_S64_S1x64 i := by
    exact row_main_v86 m c
  exact (congrArg Cert.KernelIdeal.Blocks.rowOf e).trans (rowOf_shapeCast (n := 64) (m ((c : Thread nD τ).loc main_arg13)) shapeCasts_S64_S1x64)

set_option maxHeartbeats 16000000 in
set_option maxRecDepth 8192 in
/-- The candidate state's bias row holds the bias vector. -/
theorem bias_cand (c : Dev nD) :
    Cert.KernelIdeal.Blocks.rowOf (V m c main_v87) = (m ((c : Thread nD τ).loc main_arg15)) := by
  have e : V m c main_v87 = fun i => shapeCast S1x64 (m ((c : Thread nD τ).loc main_arg15)) shapeCasts_S64_S1x64 i := by
    exact row_main_v87 m c
  exact (congrArg Cert.KernelIdeal.Blocks.rowOf e).trans (rowOf_shapeCast (n := 64) (m ((c : Thread nD τ).loc main_arg15)) shapeCasts_S64_S1x64)

set_option maxHeartbeats 16000000 in
set_option maxRecDepth 8192 in
/-- The output layer's bias row holds the bias vector. -/
theorem bias_out (c : Dev nD) :
    Cert.KernelIdeal.Blocks.rowOf (V m c main_v88) = (m ((c : Thread nD τ).loc main_arg17)) := by
  have e : V m c main_v88 = fun i => shapeCast S1x16 (m ((c : Thread nD τ).loc main_arg17)) shapeCasts_S16_S1x16 i := by
    exact row_main_v88 m c
  exact (congrArg Cert.KernelIdeal.Blocks.rowOf e).trans (rowOf_shapeCast (n := 16) (m ((c : Thread nD τ).loc main_arg17)) shapeCasts_S16_S1x16)

end Cert.KernelIdeal.HostSide

end
-- ==== Proof.RefOps.lean ====
import proofs.«131946_j40037685133528_1_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 4 (in window main_part0). -/
abbrev ch0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

theorem ch0_sub : (ch0 : List (HloOp τ sig (Elt F))).Forall fun op => op.bufs ⊆ tcRefs τ sig :=
  ⟨unary_bufs_sub .., reshape_bufs_sub .., unary_bufs_sub .., reshape_bufs_sub ..⟩
theorem ch0_fresh : (ch0 : List (HloOp τ sig (Elt F))).Forall fun op => op.fresh = ∅ := by
  simp only [List.Forall]; repeat' constructor
/-- The buffers these operations write. -/
abbrev ch0_W : List (Ref sig .tc) := [main_v0, main_v1, main_v2, main_v3]
theorem ch0_writes : (ch0 : List (HloOp τ sig (Elt F))).Forall fun op => op.writes ⊆ (ch0_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch0_keep (V : Valuation τ sig (Elt F)) (r : Ref sig .tc) (h : r ∉ ch0_W) :
    after ch0 V (Proc.devRef .tc r) = V (Proc.devRef .tc r) :=
  after_of_writes_sub ch0 _ ch0_writes h

/-- @main's operations 5 … 62 (in window main_part0). -/
abbrev ch1 : List (HloOp τ sig (Elt F)) :=
  [ StableHlo.binary main_arg0 main_arg4 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S50000 ![] bcast_S_S50000 : (⟨S_, .f32⟩ : BufTy).Contents (Elt F) → (⟨S50000, .f32⟩ : BufTy).Contents (Elt F)),
    StableHlo.binary main_arg2 main_v8 main_v9 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v7 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x2B8CBCCC#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v12 main_v15 main_v16 (maximumf : (⟨S50000, .f32⟩ : BufTy).Contents (Elt F) → (⟨S50000, .f32⟩ : BufTy).Contents (Elt F) → (⟨S50000, .f32⟩ : BufTy).Contents (Elt F)),
    StableHlo.unary main_v16 main_v17 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S50000 ![] bcast_S_S50000),
    StableHlo.TRef.ternary (.of main_v14) (.of main_v17) main_call0.v1 main_call0.v2 select,
    StableHlo.nullary main_c (constantI S_ 32 0#32),
    StableHlo.unary main_c main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v25 main_v9 main_v26 (mulf : (⟨S850000, .f32⟩ : BufTy).Contents (Elt F) → (⟨S850000, .f32⟩ : BufTy).Contents (Elt F) → (⟨S850000, .f32⟩ : BufTy).Contents (Elt F)),
    StableHlo.nullary main_c_5 (constantI S_ 32 0#32),
    StableHlo.unary main_c_5 main_v27 (broadcastInDim S850000 ![] bcast_S_S850000 : (⟨S_, .i32⟩ : BufTy).Contents (Elt F) → (⟨S850000, .i32⟩ : BufTy).Contents (Elt F)),
    StableHlo.binary main_v7 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v29 (broadcastInDim S850000 ![] bcast_S_S850000 : (⟨S_, .i32⟩ : BufTy).Contents (Elt F) → (⟨S850000, .i32⟩ : BufTy).Contents (Elt F)),
    StableHlo.binary main_v7 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v7 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v18 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.nullary main_c_7 (constantI S_ 32 0#32),
    StableHlo.unary main_c_7 main_v35 (broadcastInDim S850000 ![] bcast_S_S850000 : (⟨S_, .i32⟩ : BufTy).Contents (Elt F) → (⟨S850000, .i32⟩ : BufTy).Contents (Elt F)),
    StableHlo.binary main_v6 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v37 (broadcastInDim S850000 ![] bcast_S_S850000 : (⟨S_, .i32⟩ : BufTy).Contents (Elt F) → (⟨S850000, .i32⟩ : BufTy).Contents (Elt F)),
    StableHlo.binary main_v6 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v6 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_v4 main_v40 main_v41 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v34 main_v42 (broadcastInDim S850000x1 ![0] bcast_S850000_S850000x1_0 : (⟨S850000, .f32⟩ : BufTy).Contents (Elt F) → (⟨S850000x1, .f32⟩ : BufTy).Contents (Elt F)),
    StableHlo.unary main_v42 main_v43 (broadcastInDim S850000x64 ![0, 1] bcast_S850000x1_S850000x64_0_1 : (⟨S850000x1, .f32⟩ : BufTy).Contents (Elt F) → (⟨S850000x64, .f32⟩ : BufTy).Contents (Elt F)),
    StableHlo.binary main_v41 main_v43 main_v44 (mulf : (⟨S850000x64, .f32⟩ : BufTy).Contents (Elt F) → (⟨S850000x64, .f32⟩ : BufTy).Contents (Elt F) → (⟨S850000x64, .f32⟩ : BufTy).Contents (Elt F)),
    StableHlo.nullary main_cst_9 (constant S_ .f32 0x00000000#32),
    StableHlo.unary main_cst_9 main_v45 (broadcastInDim S50000x64 ![] bcast_S_S50000x64 : (⟨S_, .f32⟩ : BufTy).Contents (Elt F) → (⟨S50000x64, .f32⟩ : BufTy).Contents (Elt F)),
    StableHlo.unary main_v7 main_v46 (broadcastInDim S850000x1 ![0] bcast_S850000_S850000x1_0 : (⟨S850000, .i32⟩ : BufTy).Contents (Elt F) → (⟨S850000x1, .i32⟩ : BufTy).Contents (Elt F)),
    StableHlo.ternary main_v45 main_v46 main_v44 main_v47 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

theorem ch1_sub : (ch1 : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem ch1_fresh : (ch1 : List (HloOp τ sig (Elt F))).Forall fun op => op.fresh = ∅ := by
  simp only [List.Forall]; repeat' constructor
/-- The buffers these operations write. -/
abbrev ch1_W : List (Ref sig .tc) := [main_v4, main_v5, main_v6, main_v7, main_cst, main_v8, main_v9, main_cst_0, main_v10, main_v11, main_v12, main_cst_1, main_v13, main_v14, main_cst_2, main_v15, main_v16, main_v17, main_cst_3, main_call0.v0.ref, main_call0.v1.ref, main_call0.v2.ref, main_c, main_v19, main_v20, main_c_4, main_v21, main_v22, main_v23, main_v24, main_v25, main_v26, main_c_5, main_v27, main_v28, main_c_6, main_v29, main_v30, main_v31, main_v32, main_v33, main_v34, main_c_7, main_v35, main_v36, main_c_8, main_v37, main_v38, main_v39, main_v40, main_v41, main_v42, main_v43, main_v44, main_cst_9, main_v45, main_v46, main_v47]
theorem ch1_writes : (ch1 : List (HloOp τ sig (Elt F))).Forall fun op => op.writes ⊆ (ch1_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch1_keep (V : Valuation τ sig (Elt F)) (r : Ref sig .tc) (h : r ∉ ch1_W) :
    after ch1 V (Proc.devRef .tc r) = V (Proc.devRef .tc r) :=
  after_of_writes_sub ch1 _ ch1_writes h

/-- @main's operations 63 … 65 (in window main_part1). -/
abbrev ch2 : List (HloOp τ sig (Elt F)) :=
  [ StableHlo.unary main_arg5 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v49 main_v50 (addf : (⟨S50000x64, .f32⟩ : BufTy).Contents (Elt F) → (⟨S50000x64, .f32⟩ : BufTy).Contents (Elt F) → (⟨S50000x64, .f32⟩ : BufTy).Contents (Elt F)) ]

theorem ch2_sub : (ch2 : List (HloOp τ sig (Elt F))).Forall fun op => op.bufs ⊆ tcRefs τ sig :=
  ⟨unary_bufs_sub .., unary_bufs_sub .., binary_bufs_sub ..⟩
theorem ch2_fresh : (ch2 : List (HloOp τ sig (Elt F))).Forall fun op => op.fresh = ∅ := by
  simp only [List.Forall]; repeat' constructor
/-- The buffers these operations write. -/
abbrev ch2_W : List (Ref sig .tc) := [main_v48, main_v49, main_v50]
theorem ch2_writes : (ch2 : List (HloOp τ sig (Elt F))).Forall fun op => op.writes ⊆ (ch2_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch2_keep (V : Valuation τ sig (Elt F)) (r : Ref sig .tc) (h : r ∉ ch2_W) :
    after ch2 V (Proc.devRef .tc r) = V (Proc.devRef .tc r) :=
  after_of_writes_sub ch2 _ ch2_writes h

/-- @main's operations 66 … 78 (in window main_part1). -/
abbrev ch3 : List (HloOp τ sig (Elt F)) :=
  [ StableHlo.binary main_v50 main_arg3 main_v51 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_v51 main_arg10 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S50000x64 ![0, 1] bcast_S1x64_S50000x64_0_1 : (⟨S1x64, .f32⟩ : BufTy).Contents (Elt F) → (⟨S50000x64, .f32⟩ : BufTy).Contents (Elt F)),
    StableHlo.binary main_v52 main_v54 main_v55 (addf : (⟨S50000x64, .f32⟩ : BufTy).Contents (Elt F) → (⟨S50000x64, .f32⟩ : BufTy).Contents (Elt F) → (⟨S50000x64, .f32⟩ : BufTy).Contents (Elt F)),
    StableHlo.unary main_v55 main_v56 (Host.negf : (⟨S50000x64, .f32⟩ : BufTy).Contents (Elt F) → (⟨S50000x64, .f32⟩ : BufTy).Contents (Elt F)),
    StableHlo.unary main_v56 main_v57 (Host.exp : (⟨S50000x64, .f32⟩ : BufTy).Contents (Elt F) → (⟨S50000x64, .f32⟩ : BufTy).Contents (Elt F)),
    StableHlo.nullary main_cst_10 (constant S_ .f32 0x3F800000#32),
    StableHlo.unary main_cst_10 main_v58 (broadcastInDim S50000x64 ![] bcast_S_S50000x64 : (⟨S_, .f32⟩ : BufTy).Contents (Elt F) → (⟨S50000x64, .f32⟩ : BufTy).Contents (Elt F)),
    StableHlo.binary main_v58 main_v57 main_v59 (addf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3F800000#32),
    StableHlo.unary main_cst_11 main_v60 (broadcastInDim S50000x64 ![] bcast_S_S50000x64 : (⟨S_, .f32⟩ : BufTy).Contents (Elt F) → (⟨S50000x64, .f32⟩ : BufTy).Contents (Elt F)),
    StableHlo.binary main_v60 main_v59 main_v61 (Host.divf : (⟨S50000x64, .f32⟩ : BufTy).Contents (Elt F) → (⟨S50000x64, .f32⟩ : BufTy).Contents (Elt F) → (⟨S50000x64, .f32⟩ : BufTy).Contents (Elt F)) ]

theorem ch3_sub : (ch3 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ch3_fresh : (ch3 : List (HloOp τ sig (Elt F))).Forall fun op => op.fresh = ∅ := by
  simp only [List.Forall]; repeat' constructor
/-- The buffers these operations write. -/
abbrev ch3_W : List (Ref sig .tc) := [main_v51, main_v52, main_v53, main_v54, main_v55, main_v56, main_v57, main_cst_10, main_v58, main_v59, main_cst_11, main_v60, main_v61]
theorem ch3_writes : (ch3 : List (HloOp τ sig (Elt F))).Forall fun op => op.writes ⊆ (ch3_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch3_keep (V : Valuation τ sig (Elt F)) (r : Ref sig .tc) (h : r ∉ ch3_W) :
    after ch3 V (Proc.devRef .tc r) = V (Proc.devRef .tc r) :=
  after_of_writes_sub ch3 _ ch3_writes h

/-- @main's operations 79 … 124 (in window main_part1). -/
abbrev ch4 : List (HloOp τ sig (Elt F)) :=
  [ StableHlo.binary main_arg0 main_arg6 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v63 (iotaInDim S50000 32 0),
    StableHlo.binary main_v1 main_v63 main_v64 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v63 main_v65 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_12 (constant S_ .f32 0x3F800000#32),
    StableHlo.unary main_cst_12 main_v66 (broadcastInDim S50000 ![] bcast_S_S50000 : (⟨S_, .f32⟩ : BufTy).Contents (Elt F) → (⟨S50000, .f32⟩ : BufTy).Contents (Elt F)),
    StableHlo.binary main_arg2 main_v66 main_v67 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_13 (constant S_ .f32 0x00000000#32),
    StableHlo.unary main_cst_13 main_v68 (broadcastInDim S50000 ![] bcast_S_S50000 : (⟨S_, .f32⟩ : BufTy).Contents (Elt F) → (⟨S50000, .f32⟩ : BufTy).Contents (Elt F)),
    StableHlo.unary main_v65 main_v69 (broadcastInDim S850000x1 ![0] bcast_S850000_S850000x1_0 : (⟨S850000, .i32⟩ : BufTy).Contents (Elt F) → (⟨S850000x1, .i32⟩ : BufTy).Contents (Elt F)),
    StableHlo.ternary main_v68 main_v69 main_v67 main_v70 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_14 (constant S_ .f32 0x00000000#32),
    StableHlo.unary main_cst_14 main_v71 (broadcastInDim S50000 ![] bcast_S_S50000 : (⟨S_, .f32⟩ : BufTy).Contents (Elt F) → (⟨S50000, .f32⟩ : BufTy).Contents (Elt F)),
    StableHlo.binary main_v70 main_v71 main_v72 (cmpf .ogt : (⟨S50000, .f32⟩ : BufTy).Contents (Elt F) → (⟨S50000, .f32⟩ : BufTy).Contents (Elt F) → (⟨S50000, .i1⟩ : BufTy).Contents (Elt F)),
    StableHlo.nullary main_cst_15 (constant S_ .f32 0x2B8CBCCC#32),
    StableHlo.unary main_cst_15 main_v73 (broadcastInDim S50000 ![] bcast_S_S50000 : (⟨S_, .f32⟩ : BufTy).Contents (Elt F) → (⟨S50000, .f32⟩ : BufTy).Contents (Elt F)),
    StableHlo.binary main_v70 main_v73 main_v74 (maximumf : (⟨S50000, .f32⟩ : BufTy).Contents (Elt F) → (⟨S50000, .f32⟩ : BufTy).Contents (Elt F) → (⟨S50000, .f32⟩ : BufTy).Contents (Elt F)),
    StableHlo.unary main_v74 main_v75 (Host.rsqrt : (⟨S50000, .f32⟩ : BufTy).Contents (Elt F) → (⟨S50000, .f32⟩ : BufTy).Contents (Elt F)),
    StableHlo.nullary main_cst_16 (constant S_ .f32 0x00000000#32),
    StableHlo.TRef.unary (.of main_cst_16) main_call1.v0 id,
    StableHlo.TRef.unary main_call1.v0 main_call1.v1 (broadcastInDim S50000 ![] bcast_S_S50000),
    StableHlo.TRef.ternary (.of main_v72) (.of main_v75) main_call1.v1 main_call1.v2 select,
    StableHlo.nullary main_c_17 (constantI S_ 32 0#32),
    StableHlo.unary main_c_17 main_v77 (broadcastInDim S850000 ![] bcast_S_S850000 : (⟨S_, .i32⟩ : BufTy).Contents (Elt F) → (⟨S850000, .i32⟩ : BufTy).Contents (Elt F)),
    StableHlo.binary main_v64 main_v77 main_v78 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v79 (broadcastInDim S850000 ![] bcast_S_S850000 : (⟨S_, .i32⟩ : BufTy).Contents (Elt F) → (⟨S850000, .i32⟩ : BufTy).Contents (Elt F)),
    StableHlo.binary main_v64 main_v79 main_v80 (addi : (⟨S850000, .i32⟩ : BufTy).Contents (Elt F) → (⟨S850000, .i32⟩ : BufTy).Contents (Elt F) → (⟨S850000, .i32⟩ : BufTy).Contents (Elt F)),
    StableHlo.ternary main_v78 main_v80 main_v64 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v81 main_v82 (broadcastInDim S850000x1 ![0] bcast_S850000_S850000x1_0 : (⟨S850000, .i32⟩ : BufTy).Contents (Elt F) → (⟨S850000x1, .i32⟩ : BufTy).Contents (Elt F)),
    StableHlo.binary main_v76 main_v82 main_v83 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v83 main_v67 main_v84 (mulf : (⟨S850000, .f32⟩ : BufTy).Contents (Elt F) → (⟨S850000, .f32⟩ : BufTy).Contents (Elt F) → (⟨S850000, .f32⟩ : BufTy).Contents (Elt F)),
    StableHlo.nullary main_c_19 (constantI S_ 32 0#32),
    StableHlo.unary main_c_19 main_v85 (broadcastInDim S850000 ![] bcast_S_S850000 : (⟨S_, .i32⟩ : BufTy).Contents (Elt F) → (⟨S850000, .i32⟩ : BufTy).Contents (Elt F)),
    StableHlo.binary main_v65 main_v85 main_v86 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v87 (broadcastInDim S850000 ![] bcast_S_S850000 : (⟨S_, .i32⟩ : BufTy).Contents (Elt F) → (⟨S850000, .i32⟩ : BufTy).Contents (Elt F)),
    StableHlo.binary main_v65 main_v87 main_v88 (addi : (⟨S850000, .i32⟩ : BufTy).Contents (Elt F) → (⟨S850000, .i32⟩ : BufTy).Contents (Elt F) → (⟨S850000, .i32⟩ : BufTy).Contents (Elt F)),
    StableHlo.ternary main_v86 main_v88 main_v65 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v89 main_v90 (broadcastInDim S850000x1 ![0] bcast_S850000_S850000x1_0 : (⟨S850000, .i32⟩ : BufTy).Contents (Elt F) → (⟨S850000x1, .i32⟩ : BufTy).Contents (Elt F)),
    StableHlo.binary main_v76 main_v90 main_v91 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v84 main_v91 main_v92 (mulf : (⟨S850000, .f32⟩ : BufTy).Contents (Elt F) → (⟨S850000, .f32⟩ : BufTy).Contents (Elt F) → (⟨S850000, .f32⟩ : BufTy).Contents (Elt F)),
    StableHlo.nullary main_c_21 (constantI S_ 32 0#32),
    StableHlo.unary main_c_21 main_v93 (broadcastInDim S850000 ![] bcast_S_S850000 : (⟨S_, .i32⟩ : BufTy).Contents (Elt F) → (⟨S850000, .i32⟩ : BufTy).Contents (Elt F)),
    StableHlo.binary main_v64 main_v93 main_v94 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32) ]

theorem ch4_sub : (ch4 : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩
theorem ch4_fresh : (ch4 : List (HloOp τ sig (Elt F))).Forall fun op => op.fresh = ∅ := by
  simp only [List.Forall]; repeat' constructor
/-- The buffers these operations write. -/
abbrev ch4_W : List (Ref sig .tc) := [main_v62, main_v63, main_v64, main_v65, main_cst_12, main_v66, main_v67, main_cst_13, main_v68, main_v69, main_v70, main_cst_14, main_v71, main_v72, main_cst_15, main_v73, main_v74, main_v75, main_cst_16, main_call1.v0.ref, main_call1.v1.ref, main_call1.v2.ref, main_c_17, main_v77, main_v78, main_c_18, main_v79, main_v80, main_v81, main_v82, main_v83, main_v84, main_c_19, main_v85, main_v86, main_c_20, main_v87, main_v88, main_v89, main_v90, main_v91, main_v92, main_c_21, main_v93, main_v94, main_c_22]
theorem ch4_writes : (ch4 : List (HloOp τ sig (Elt F))).Forall fun op => op.writes ⊆ (ch4_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch4_keep (V : Valuation τ sig (Elt F)) (r : Ref sig .tc) (h : r ∉ ch4_W) :
    after ch4 V (Proc.devRef .tc r) = V (Proc.devRef .tc r) :=
  after_of_writes_sub ch4 _ ch4_writes h

/-- @main's operations 125 … 139 (in window main_part2). -/
abbrev ch5 : List (HloOp τ sig (Elt F)) :=
  [ StableHlo.unary main_c_22 main_v95 (broadcastInDim S850000 ![] bcast_S_S850000 : (⟨S_, .i32⟩ : BufTy).Contents (Elt F) → (⟨S850000, .i32⟩ : BufTy).Contents (Elt F)),
    StableHlo.binary main_v64 main_v95 main_v96 (addi : (⟨S850000, .i32⟩ : BufTy).Contents (Elt F) → (⟨S850000, .i32⟩ : BufTy).Contents (Elt F) → (⟨S850000, .i32⟩ : BufTy).Contents (Elt F)),
    StableHlo.ternary main_v94 main_v96 main_v64 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v97 main_v98 (broadcastInDim S850000x1 ![0] bcast_S850000_S850000x1_0 : (⟨S850000, .i32⟩ : BufTy).Contents (Elt F) → (⟨S850000x1, .i32⟩ : BufTy).Contents (Elt F)),
    StableHlo.binary main_v62 main_v98 main_v99 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v92 main_v100 (broadcastInDim S850000x1 ![0] bcast_S850000_S850000x1_0 : (⟨S850000, .f32⟩ : BufTy).Contents (Elt F) → (⟨S850000x1, .f32⟩ : BufTy).Contents (Elt F)),
    StableHlo.unary main_v100 main_v101 (broadcastInDim S850000x64 ![0, 1] bcast_S850000x1_S850000x64_0_1 : (⟨S850000x1, .f32⟩ : BufTy).Contents (Elt F) → (⟨S850000x64, .f32⟩ : BufTy).Contents (Elt F)),
    StableHlo.binary main_v99 main_v101 main_v102 (mulf : (⟨S850000x64, .f32⟩ : BufTy).Contents (Elt F) → (⟨S850000x64, .f32⟩ : BufTy).Contents (Elt F) → (⟨S850000x64, .f32⟩ : BufTy).Contents (Elt F)),
    StableHlo.nullary main_cst_23 (constant S_ .f32 0x00000000#32),
    StableHlo.unary main_cst_23 main_v103 (broadcastInDim S50000x64 ![] bcast_S_S50000x64 : (⟨S_, .f32⟩ : BufTy).Contents (Elt F) → (⟨S50000x64, .f32⟩ : BufTy).Contents (Elt F)),
    StableHlo.unary main_v65 main_v104 (broadcastInDim S850000x1 ![0] bcast_S850000_S850000x1_0 : (⟨S850000, .i32⟩ : BufTy).Contents (Elt F) → (⟨S850000x1, .i32⟩ : BufTy).Contents (Elt F)),
    StableHlo.ternary main_v103 main_v104 main_v102 main_v105 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg7 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v107 main_v108 (addf : (⟨S50000x64, .f32⟩ : BufTy).Contents (Elt F) → (⟨S50000x64, .f32⟩ : BufTy).Contents (Elt F) → (⟨S50000x64, .f32⟩ : BufTy).Contents (Elt F)) ]

theorem ch5_sub : (ch5 : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem ch5_fresh : (ch5 : List (HloOp τ sig (Elt F))).Forall fun op => op.fresh = ∅ := by
  simp only [List.Forall]; repeat' constructor
/-- The buffers these operations write. -/
abbrev ch5_W : List (Ref sig .tc) := [main_v95, main_v96, main_v97, main_v98, main_v99, main_v100, main_v101, main_v102, main_cst_23, main_v103, main_v104, main_v105, main_v106, main_v107, main_v108]
theorem ch5_writes : (ch5 : List (HloOp τ sig (Elt F))).Forall fun op => op.writes ⊆ (ch5_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch5_keep (V : Valuation τ sig (Elt F)) (r : Ref sig .tc) (h : r ∉ ch5_W) :
    after ch5 V (Proc.devRef .tc r) = V (Proc.devRef .tc r) :=
  after_of_writes_sub ch5 _ ch5_writes h

/-- @main's operations 140 … 152 (in window main_part2). -/
abbrev ch6 : List (HloOp τ sig (Elt F)) :=
  [ StableHlo.binary main_v108 main_arg3 main_v109 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_v109 main_arg12 main_v110 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg13 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)),
    StableHlo.unary main_v113 main_v114 (Host.negf : (⟨S50000x64, .f32⟩ : BufTy).Contents (Elt F) → (⟨S50000x64, .f32⟩ : BufTy).Contents (Elt F)),
    StableHlo.unary main_v114 main_v115 (Host.exp : (⟨S50000x64, .f32⟩ : BufTy).Contents (Elt F) → (⟨S50000x64, .f32⟩ : BufTy).Contents (Elt F)),
    StableHlo.nullary main_cst_24 (constant S_ .f32 0x3F800000#32),
    StableHlo.unary main_cst_24 main_v116 (broadcastInDim S50000x64 ![] bcast_S_S50000x64 : (⟨S_, .f32⟩ : BufTy).Contents (Elt F) → (⟨S50000x64, .f32⟩ : BufTy).Contents (Elt F)),
    StableHlo.binary main_v116 main_v115 main_v117 (addf : (⟨S50000x64, .f32⟩ : BufTy).Contents (Elt F) → (⟨S50000x64, .f32⟩ : BufTy).Contents (Elt F) → (⟨S50000x64, .f32⟩ : BufTy).Contents (Elt F)),
    StableHlo.nullary main_cst_25 (constant S_ .f32 0x3F800000#32),
    StableHlo.unary main_cst_25 main_v118 (broadcastInDim S50000x64 ![] bcast_S_S50000x64 : (⟨S_, .f32⟩ : BufTy).Contents (Elt F) → (⟨S50000x64, .f32⟩ : BufTy).Contents (Elt F)),
    StableHlo.binary main_v118 main_v117 main_v119 (Host.divf : (⟨S50000x64, .f32⟩ : BufTy).Contents (Elt F) → (⟨S50000x64, .f32⟩ : BufTy).Contents (Elt F) → (⟨S50000x64, .f32⟩ : BufTy).Contents (Elt F)) ]

theorem ch6_sub : (ch6 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ch6_fresh : (ch6 : List (HloOp τ sig (Elt F))).Forall fun op => op.fresh = ∅ := by
  simp only [List.Forall]; repeat' constructor
/-- The buffers these operations write. -/
abbrev ch6_W : List (Ref sig .tc) := [main_v109, main_v110, main_v111, main_v112, main_v113, main_v114, main_v115, main_cst_24, main_v116, main_v117, main_cst_25, main_v118, main_v119]
theorem ch6_writes : (ch6 : List (HloOp τ sig (Elt F))).Forall fun op => op.writes ⊆ (ch6_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch6_keep (V : Valuation τ sig (Elt F)) (r : Ref sig .tc) (h : r ∉ ch6_W) :
    after ch6 V (Proc.devRef .tc r) = V (Proc.devRef .tc r) :=
  after_of_writes_sub ch6 _ ch6_writes h

/-- @main's operations 153 … 186 (in window main_part2). -/
abbrev ch7 : List (HloOp τ sig (Elt F)) :=
  [ StableHlo.binary main_arg0 main_arg8 main_v120 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v121 (iotaInDim S50000 32 0),
    StableHlo.binary main_v1 main_v121 main_v122 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v121 main_v123 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_26 (constant S_ .f32 0x3F800000#32),
    StableHlo.unary main_cst_26 main_v124 (broadcastInDim S50000 ![] bcast_S_S50000 : (⟨S_, .f32⟩ : BufTy).Contents (Elt F) → (⟨S50000, .f32⟩ : BufTy).Contents (Elt F)),
    StableHlo.binary main_arg2 main_v124 main_v125 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_27 (constant S_ .f32 0x00000000#32),
    StableHlo.unary main_cst_27 main_v126 (broadcastInDim S50000 ![] bcast_S_S50000 : (⟨S_, .f32⟩ : BufTy).Contents (Elt F) → (⟨S50000, .f32⟩ : BufTy).Contents (Elt F)),
    StableHlo.unary main_v123 main_v127 (broadcastInDim S850000x1 ![0] bcast_S850000_S850000x1_0 : (⟨S850000, .i32⟩ : BufTy).Contents (Elt F) → (⟨S850000x1, .i32⟩ : BufTy).Contents (Elt F)),
    StableHlo.ternary main_v126 main_v127 main_v125 main_v128 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_28 (constant S_ .f32 0x00000000#32),
    StableHlo.unary main_cst_28 main_v129 (broadcastInDim S50000 ![] bcast_S_S50000 : (⟨S_, .f32⟩ : BufTy).Contents (Elt F) → (⟨S50000, .f32⟩ : BufTy).Contents (Elt F)),
    StableHlo.binary main_v128 main_v129 main_v130 (cmpf .ogt : (⟨S50000, .f32⟩ : BufTy).Contents (Elt F) → (⟨S50000, .f32⟩ : BufTy).Contents (Elt F) → (⟨S50000, .i1⟩ : BufTy).Contents (Elt F)),
    StableHlo.nullary main_cst_29 (constant S_ .f32 0x2B8CBCCC#32),
    StableHlo.unary main_cst_29 main_v131 (broadcastInDim S50000 ![] bcast_S_S50000 : (⟨S_, .f32⟩ : BufTy).Contents (Elt F) → (⟨S50000, .f32⟩ : BufTy).Contents (Elt F)),
    StableHlo.binary main_v128 main_v131 main_v132 (maximumf : (⟨S50000, .f32⟩ : BufTy).Contents (Elt F) → (⟨S50000, .f32⟩ : BufTy).Contents (Elt F) → (⟨S50000, .f32⟩ : BufTy).Contents (Elt F)),
    StableHlo.unary main_v132 main_v133 (Host.rsqrt : (⟨S50000, .f32⟩ : BufTy).Contents (Elt F) → (⟨S50000, .f32⟩ : BufTy).Contents (Elt F)),
    StableHlo.nullary main_cst_30 (constant S_ .f32 0x00000000#32),
    StableHlo.TRef.unary (.of main_cst_30) main_call2.v0 id,
    StableHlo.TRef.unary main_call2.v0 main_call2.v1 (broadcastInDim S50000 ![] bcast_S_S50000),
    StableHlo.TRef.ternary (.of main_v130) (.of main_v133) main_call2.v1 main_call2.v2 select,
    StableHlo.nullary main_c_31 (constantI S_ 32 0#32),
    StableHlo.unary main_c_31 main_v135 (broadcastInDim S850000 ![] bcast_S_S850000 : (⟨S_, .i32⟩ : BufTy).Contents (Elt F) → (⟨S850000, .i32⟩ : BufTy).Contents (Elt F)),
    StableHlo.binary main_v122 main_v135 main_v136 (cmpi .slt : (⟨S850000, .i32⟩ : BufTy).Contents (Elt F) → (⟨S850000, .i32⟩ : BufTy).Contents (Elt F) → (⟨S850000, .i1⟩ : BufTy).Contents (Elt F)),
    StableHlo.nullary main_c_32 (constantI S_ 32 50000#32),
    StableHlo.unary main_c_32 main_v137 (broadcastInDim S850000 ![] bcast_S_S850000 : (⟨S_, .i32⟩ : BufTy).Contents (Elt F) → (⟨S850000, .i32⟩ : BufTy).Contents (Elt F)),
    StableHlo.binary main_v122 main_v137 main_v138 (addi : (⟨S850000, .i32⟩ : BufTy).Contents (Elt F) → (⟨S850000, .i32⟩ : BufTy).Contents (Elt F) → (⟨S850000, .i32⟩ : BufTy).Contents (Elt F)),
    StableHlo.ternary main_v136 main_v138 main_v122 main_v139 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v139 main_v140 (broadcastInDim S850000x1 ![0] bcast_S850000_S850000x1_0 : (⟨S850000, .i32⟩ : BufTy).Contents (Elt F) → (⟨S850000x1, .i32⟩ : BufTy).Contents (Elt F)),
    StableHlo.binary main_v134 main_v140 main_v141 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v141 main_v125 main_v142 (mulf : (⟨S850000, .f32⟩ : BufTy).Contents (Elt F) → (⟨S850000, .f32⟩ : BufTy).Contents (Elt F) → (⟨S850000, .f32⟩ : BufTy).Contents (Elt F)),
    StableHlo.nullary main_c_33 (constantI S_ 32 0#32),
    StableHlo.unary main_c_33 main_v143 (broadcastInDim S850000 ![] bcast_S_S850000 : (⟨S_, .i32⟩ : BufTy).Contents (Elt F) → (⟨S850000, .i32⟩ : BufTy).Contents (Elt F)) ]

theorem ch7_sub : (ch7 : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩
theorem ch7_fresh : (ch7 : List (HloOp τ sig (Elt F))).Forall fun op => op.fresh = ∅ := by
  simp only [List.Forall]; repeat' constructor
/-- The buffers these operations write. -/
abbrev ch7_W : List (Ref sig .tc) := [main_v120, main_v121, main_v122, main_v123, main_cst_26, main_v124, main_v125, main_cst_27, main_v126, main_v127, main_v128, main_cst_28, main_v129, main_v130, main_cst_29, main_v131, main_v132, main_v133, main_cst_30, main_call2.v0.ref, main_call2.v1.ref, main_call2.v2.ref, main_c_31, main_v135, main_v136, main_c_32, main_v137, main_v138, main_v139, main_v140, main_v141, main_v142, main_c_33, main_v143]
theorem ch7_writes : (ch7 : List (HloOp τ sig (Elt F))).Forall fun op => op.writes ⊆ (ch7_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch7_keep (V : Valuation τ sig (Elt F)) (r : Ref sig .tc) (h : r ∉ ch7_W) :
    after ch7 V (Proc.devRef .tc r) = V (Proc.devRef .tc r) :=
  after_of_writes_sub ch7 _ ch7_writes h

/-- @main's operations 187 … 213 (in window main_part3). -/
abbrev ch8 : List (HloOp τ sig (Elt F)) :=
  [ StableHlo.binary main_v123 main_v143 main_v144 (cmpi .slt : (⟨S850000, .i32⟩ : BufTy).Contents (Elt F) → (⟨S850000, .i32⟩ : BufTy).Contents (Elt F) → (⟨S850000, .i1⟩ : BufTy).Contents (Elt F)),
    StableHlo.nullary main_c_34 (constantI S_ 32 50000#32),
    StableHlo.unary main_c_34 main_v145 (broadcastInDim S850000 ![] bcast_S_S850000 : (⟨S_, .i32⟩ : BufTy).Contents (Elt F) → (⟨S850000, .i32⟩ : BufTy).Contents (Elt F)),
    StableHlo.binary main_v123 main_v145 main_v146 (addi : (⟨S850000, .i32⟩ : BufTy).Contents (Elt F) → (⟨S850000, .i32⟩ : BufTy).Contents (Elt F) → (⟨S850000, .i32⟩ : BufTy).Contents (Elt F)),
    StableHlo.ternary main_v144 main_v146 main_v123 main_v147 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v147 main_v148 (broadcastInDim S850000x1 ![0] bcast_S850000_S850000x1_0 : (⟨S850000, .i32⟩ : BufTy).Contents (Elt F) → (⟨S850000x1, .i32⟩ : BufTy).Contents (Elt F)),
    StableHlo.binary main_v134 main_v148 main_v149 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v142 main_v149 main_v150 (mulf : (⟨S850000, .f32⟩ : BufTy).Contents (Elt F) → (⟨S850000, .f32⟩ : BufTy).Contents (Elt F) → (⟨S850000, .f32⟩ : BufTy).Contents (Elt F)),
    StableHlo.nullary main_c_35 (constantI S_ 32 0#32),
    StableHlo.unary main_c_35 main_v151 (broadcastInDim S850000 ![] bcast_S_S850000 : (⟨S_, .i32⟩ : BufTy).Contents (Elt F) → (⟨S850000, .i32⟩ : BufTy).Contents (Elt F)),
    StableHlo.binary main_v122 main_v151 main_v152 (cmpi .slt : (⟨S850000, .i32⟩ : BufTy).Contents (Elt F) → (⟨S850000, .i32⟩ : BufTy).Contents (Elt F) → (⟨S850000, .i1⟩ : BufTy).Contents (Elt F)),
    StableHlo.nullary main_c_36 (constantI S_ 32 50000#32),
    StableHlo.unary main_c_36 main_v153 (broadcastInDim S850000 ![] bcast_S_S850000 : (⟨S_, .i32⟩ : BufTy).Contents (Elt F) → (⟨S850000, .i32⟩ : BufTy).Contents (Elt F)),
    StableHlo.binary main_v122 main_v153 main_v154 (addi : (⟨S850000, .i32⟩ : BufTy).Contents (Elt F) → (⟨S850000, .i32⟩ : BufTy).Contents (Elt F) → (⟨S850000, .i32⟩ : BufTy).Contents (Elt F)),
    StableHlo.ternary main_v152 main_v154 main_v122 main_v155 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v155 main_v156 (broadcastInDim S850000x1 ![0] bcast_S850000_S850000x1_0 : (⟨S850000, .i32⟩ : BufTy).Contents (Elt F) → (⟨S850000x1, .i32⟩ : BufTy).Contents (Elt F)),
    StableHlo.binary main_v120 main_v156 main_v157 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v150 main_v158 (broadcastInDim S850000x1 ![0] bcast_S850000_S850000x1_0 : (⟨S850000, .f32⟩ : BufTy).Contents (Elt F) → (⟨S850000x1, .f32⟩ : BufTy).Contents (Elt F)),
    StableHlo.unary main_v158 main_v159 (broadcastInDim S850000x64 ![0, 1] bcast_S850000x1_S850000x64_0_1 : (⟨S850000x1, .f32⟩ : BufTy).Contents (Elt F) → (⟨S850000x64, .f32⟩ : BufTy).Contents (Elt F)),
    StableHlo.binary main_v157 main_v159 main_v160 (mulf : (⟨S850000x64, .f32⟩ : BufTy).Contents (Elt F) → (⟨S850000x64, .f32⟩ : BufTy).Contents (Elt F) → (⟨S850000x64, .f32⟩ : BufTy).Contents (Elt F)),
    StableHlo.nullary main_cst_37 (constant S_ .f32 0x00000000#32),
    StableHlo.unary main_cst_37 main_v161 (broadcastInDim S50000x64 ![] bcast_S_S50000x64 : (⟨S_, .f32⟩ : BufTy).Contents (Elt F) → (⟨S50000x64, .f32⟩ : BufTy).Contents (Elt F)),
    StableHlo.unary main_v123 main_v162 (broadcastInDim S850000x1 ![0] bcast_S850000_S850000x1_0 : (⟨S850000, .i32⟩ : BufTy).Contents (Elt F) → (⟨S850000x1, .i32⟩ : BufTy).Contents (Elt F)),
    StableHlo.ternary main_v161 main_v162 main_v160 main_v163 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg9 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S50000x64 ![0, 1] bcast_S1x64_S50000x64_0_1 : (⟨S1x64, .f32⟩ : BufTy).Contents (Elt F) → (⟨S50000x64, .f32⟩ : BufTy).Contents (Elt F)),
    StableHlo.binary main_v163 main_v165 main_v166 (addf : (⟨S50000x64, .f32⟩ : BufTy).Contents (Elt F) → (⟨S50000x64, .f32⟩ : BufTy).Contents (Elt F) → (⟨S50000x64, .f32⟩ : BufTy).Contents (Elt F)) ]

theorem ch8_sub : (ch8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem ch8_fresh : (ch8 : List (HloOp τ sig (Elt F))).Forall fun op => op.fresh = ∅ := by
  simp only [List.Forall]; repeat' constructor
/-- The buffers these operations write. -/
abbrev ch8_W : List (Ref sig .tc) := [main_v144, main_c_34, main_v145, main_v146, main_v147, main_v148, main_v149, main_v150, main_c_35, main_v151, main_v152, main_c_36, main_v153, main_v154, main_v155, main_v156, main_v157, main_v158, main_v159, main_v160, main_cst_37, main_v161, main_v162, main_v163, main_v164, main_v165, main_v166]
theorem ch8_writes : (ch8 : List (HloOp τ sig (Elt F))).Forall fun op => op.writes ⊆ (ch8_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch8_keep (V : Valuation τ sig (Elt F)) (r : Ref sig .tc) (h : r ∉ ch8_W) :
    after ch8 V (Proc.devRef .tc r) = V (Proc.devRef .tc r) :=
  after_of_writes_sub ch8 _ ch8_writes h

/-- @main's operations 214 … 226 (in window main_part3). -/
abbrev ch9 : List (HloOp τ sig (Elt F)) :=
  [ StableHlo.binary main_arg3 main_v119 main_v167 (mulf : (⟨S50000x64, .f32⟩ : BufTy).Contents (Elt F) → (⟨S50000x64, .f32⟩ : BufTy).Contents (Elt F) → (⟨S50000x64, .f32⟩ : BufTy).Contents (Elt F)),
    StableHlo.binary main_v166 main_v167 main_v168 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_v168 main_arg14 main_v169 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg15 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S50000x64 ![0, 1] bcast_S1x64_S50000x64_0_1 : (⟨S1x64, .f32⟩ : BufTy).Contents (Elt F) → (⟨S50000x64, .f32⟩ : BufTy).Contents (Elt F)),
    StableHlo.binary main_v169 main_v171 main_v172 (addf : (⟨S50000x64, .f32⟩ : BufTy).Contents (Elt F) → (⟨S50000x64, .f32⟩ : BufTy).Contents (Elt F) → (⟨S50000x64, .f32⟩ : BufTy).Contents (Elt F)),
    StableHlo.unary main_v172 main_v173 (Host.tanh : (⟨S50000x64, .f32⟩ : BufTy).Contents (Elt F) → (⟨S50000x64, .f32⟩ : BufTy).Contents (Elt F)),
    StableHlo.binary main_v61 main_arg3 main_v174 (mulf : (⟨S50000x64, .f32⟩ : BufTy).Contents (Elt F) → (⟨S50000x64, .f32⟩ : BufTy).Contents (Elt F) → (⟨S50000x64, .f32⟩ : BufTy).Contents (Elt F)),
    StableHlo.nullary main_cst_38 (constant S_ .f32 0x3F800000#32),
    StableHlo.unary main_cst_38 main_v175 (broadcastInDim S50000x64 ![] bcast_S_S50000x64 : (⟨S_, .f32⟩ : BufTy).Contents (Elt F) → (⟨S50000x64, .f32⟩ : BufTy).Contents (Elt F)),
    StableHlo.binary main_v175 main_v61 main_v176 (subf : (⟨S50000x64, .f32⟩ : BufTy).Contents (Elt F) → (⟨S50000x64, .f32⟩ : BufTy).Contents (Elt F) → (⟨S50000x64, .f32⟩ : BufTy).Contents (Elt F)),
    StableHlo.binary main_v176 main_v173 main_v177 (mulf : (⟨S50000x64, .f32⟩ : BufTy).Contents (Elt F) → (⟨S50000x64, .f32⟩ : BufTy).Contents (Elt F) → (⟨S50000x64, .f32⟩ : BufTy).Contents (Elt F)),
    StableHlo.binary main_v174 main_v177 main_v178 (addf : (⟨S50000x64, .f32⟩ : BufTy).Contents (Elt F) → (⟨S50000x64, .f32⟩ : BufTy).Contents (Elt F) → (⟨S50000x64, .f32⟩ : BufTy).Contents (Elt F)) ]

theorem ch9_sub : (ch9 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub ..⟩
theorem ch9_fresh : (ch9 : List (HloOp τ sig (Elt F))).Forall fun op => op.fresh = ∅ := by
  simp only [List.Forall]; repeat' constructor
/-- The buffers these operations write. -/
abbrev ch9_W : List (Ref sig .tc) := [main_v167, main_v168, main_v169, main_v170, main_v171, main_v172, main_v173, main_v174, main_cst_38, main_v175, main_v176, main_v177, main_v178]
theorem ch9_writes : (ch9 : List (HloOp τ sig (Elt F))).Forall fun op => op.writes ⊆ (ch9_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch9_keep (V : Valuation τ sig (Elt F)) (r : Ref sig .tc) (h : r ∉ ch9_W) :
    after ch9 V (Proc.devRef .tc r) = V (Proc.devRef .tc r) :=
  after_of_writes_sub ch9 _ ch9_writes h

/-- @main's operations 227 … 241 (in window main_part3). -/
abbrev ch10 : List (HloOp τ sig (Elt F)) :=
  [ StableHlo.TRef.nullary main_call3.cst (constant S_ .f32 0x00000000#32),
    StableHlo.TRef.unary main_call3.cst main_call3.v0 (broadcastInDim S50000x64 ![] bcast_S_S50000x64),
    StableHlo.TRef.binary (.of main_v178) main_call3.v0 main_call3.v1 (cmpf .ogt),
    StableHlo.TRef.nullary main_call3.cst_0 (constant S_ .f32 0x00000000#32),
    StableHlo.TRef.unary main_call3.cst_0 main_call3.v2 (broadcastInDim S50000x64 ![] bcast_S_S50000x64),
    StableHlo.TRef.binary (.of main_v178) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x64 ![] bcast_S_S50000x64),
    StableHlo.TRef.ternary main_call3.v3 main_call3.call0.v1 (.of main_v178) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x64 ![] bcast_S_S50000x64),
    StableHlo.TRef.binary main_call3.v6 main_call3.v5 main_call3.v7 mulf,
    StableHlo.TRef.ternary main_call3.v1 (.of main_v178) main_call3.v7 main_call3.call1.v0 select ]

theorem ch10_sub : (ch10 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem ch10_fresh : (ch10 : List (HloOp τ sig (Elt F))).Forall fun op => op.fresh = ∅ := by
  simp only [List.Forall]; repeat' constructor
/-- The buffers these operations write. -/
abbrev ch10_W : List (Ref sig .tc) := [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
theorem ch10_writes : (ch10 : List (HloOp τ sig (Elt F))).Forall fun op => op.writes ⊆ (ch10_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch10_keep (V : Valuation τ sig (Elt F)) (r : Ref sig .tc) (h : r ∉ ch10_W) :
    after ch10 V (Proc.devRef .tc r) = V (Proc.devRef .tc r) :=
  after_of_writes_sub ch10 _ ch10_writes h

/-- @main's operations 242 … 245 (in window main_part3). -/
abbrev ch11 : List (HloOp τ sig (Elt F)) :=
  [ StableHlo.binary main_v179 main_arg16 main_v180 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    StableHlo.unary main_arg17 main_v181 (broadcastInDim S1x16 ![1] bcast_S16_S1x16_1 : (⟨S16, .f32⟩ : BufTy).Contents (Elt F) → (⟨S1x16, .f32⟩ : BufTy).Contents (Elt F)),
    StableHlo.unary main_v181 main_v182 (broadcastInDim S50000x16 ![0, 1] bcast_S1x16_S50000x16_0_1 : (⟨S1x16, .f32⟩ : BufTy).Contents (Elt F) → (⟨S50000x16, .f32⟩ : BufTy).Contents (Elt F)),
    StableHlo.binary main_v180 main_v182 main_v183 (addf : (⟨S50000x16, .f32⟩ : BufTy).Contents (Elt F) → (⟨S50000x16, .f32⟩ : BufTy).Contents (Elt F) → (⟨S50000x16, .f32⟩ : BufTy).Contents (Elt F)) ]

theorem ch11_sub : (ch11 : List (HloOp τ sig (Elt F))).Forall fun op => op.bufs ⊆ tcRefs τ sig :=
  ⟨binary_bufs_sub .., unary_bufs_sub .., unary_bufs_sub .., binary_bufs_sub ..⟩
theorem ch11_fresh : (ch11 : List (HloOp τ sig (Elt F))).Forall fun op => op.fresh = ∅ := by
  simp only [List.Forall]; repeat' constructor
/-- The buffers these operations write. -/
abbrev ch11_W : List (Ref sig .tc) := [main_v180, main_v181, main_v182, main_v183]
theorem ch11_writes : (ch11 : List (HloOp τ sig (Elt F))).Forall fun op => op.writes ⊆ (ch11_W.map (Proc.devRef (τ := τ) .tc)).toFinset := by
  simp only [List.Forall]; exact ⟨by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide), by simp only [TRef.nullary, TRef.unary, TRef.binary, TRef.ternary, nullary_writes, unary_writes, binary_writes, ternary_writes, reshape_writes, Finset.singleton_subset_iff, List.mem_toFinset]; exact List.mem_map_of_mem (by decide)⟩
/-- A buffer these operations do not write keeps its contents through them. -/
theorem ch11_keep (V : Valuation τ sig (Elt F)) (r : Ref sig .tc) (h : r ∉ ch11_W) :
    after ch11 V (Proc.devRef .tc r) = V (Proc.devRef .tc r) :=
  after_of_writes_sub ch11 _ ch11_writes h

/-- Window main_part0 of @main is the line of its chunks' operations. -/
abbrev main_part0_ops : List (HloOp τ sig (Elt F)) := ch0 ++ ch1
set_option maxRecDepth 8192 in
set_option maxHeartbeats 4000000 in
theorem main_part0_eq (c : Dev nD) : main_part0 (F := F) c = seq main_part0_ops := by
  simp only [main_part0, fn_where.body, fn_where_0.body, fn_where_1.body, fn_elu.body, seq, bind_assoc, pure_bind]
  rfl

/-- Window main_part1 of @main is the line of its chunks' operations. -/
abbrev main_part1_ops : List (HloOp τ sig (Elt F)) := ch2 ++ ch3 ++ ch4
set_option maxRecDepth 8192 in
set_option maxHeartbeats 4000000 in
theorem main_part1_eq (c : Dev nD) : main_part1 (F := F) c = seq main_part1_ops := by
  simp only [main_part1, fn_where.body, fn_where_0.body, fn_where_1.body, fn_elu.body, seq, bind_assoc, pure_bind]
  rfl

/-- Window main_part2 of @main is the line of its chunks' operations. -/
abbrev main_part2_ops : List (HloOp τ sig (Elt F)) := ch5 ++ ch6 ++ ch7
set_option maxRecDepth 8192 in
set_option maxHeartbeats 4000000 in
theorem main_part2_eq (c : Dev nD) : main_part2 (F := F) c = seq main_part2_ops := by
  simp only [main_part2, fn_where.body, fn_where_0.body, fn_where_1.body, fn_elu.body, seq, bind_assoc, pure_bind]
  rfl

/-- Window main_part3 of @main is the line of its chunks' operations. -/
abbrev main_part3_ops : List (HloOp τ sig (Elt F)) := ch8 ++ ch9 ++ ch10 ++ ch11
set_option maxRecDepth 8192 in
set_option maxHeartbeats 4000000 in
theorem main_part3_eq (c : Dev nD) : main_part3 (F := F) c = seq main_part3_ops := by
  simp only [main_part3, fn_where.body, fn_where_0.body, fn_where_1.body, fn_elu.body, seq, bind_assoc, pure_bind]
  rfl

/-- @main's 245 operations, in order. -/
abbrev ops : List (HloOp τ sig (Elt F)) := ch0 ++ ch1 ++ ch2 ++ ch3 ++ ch4 ++ ch5 ++ ch6 ++ ch7 ++ ch8 ++ ch9 ++ ch10 ++ ch11

theorem main_eq (c : Dev nD) : main (F := F) c = seq ops := by
  have e : (ops : List (HloOp τ sig (Elt F))) = (main_part0_ops) ++ (main_part1_ops) ++ (main_part2_ops) ++ (main_part3_ops) := by
    simp only [ops, main_part0_ops, main_part1_ops, main_part2_ops, main_part3_ops, List.append_assoc]
  rw [e]
  simp only [seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  show List.Forall _ (ch0 ++ ch1 ++ ch2 ++ ch3 ++ ch4 ++ ch5 ++ ch6 ++ ch7 ++ ch8 ++ ch9 ++ ch10 ++ ch11)
  exact (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨ch0_sub, ch1_sub⟩), ch2_sub⟩), ch3_sub⟩), ch4_sub⟩), ch5_sub⟩), ch6_sub⟩), ch7_sub⟩), ch8_sub⟩), ch9_sub⟩), ch10_sub⟩), ch11_sub⟩)

theorem ops_fresh : ∀ op ∈ (ops : List (HloOp τ sig (Elt F))), op.fresh = ∅ := by
  refine List.forall_iff_forall_mem.mp ?_
  show List.Forall _ (ch0 ++ ch1 ++ ch2 ++ ch3 ++ ch4 ++ ch5 ++ ch6 ++ ch7 ++ ch8 ++ ch9 ++ ch10 ++ ch11)
  exact (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨ch0_fresh, ch1_fresh⟩), ch2_fresh⟩), ch3_fresh⟩), ch4_fresh⟩), ch5_fresh⟩), ch6_fresh⟩), ch7_fresh⟩), ch8_fresh⟩), ch9_fresh⟩), ch10_fresh⟩), ch11_fresh⟩)

/-- Every weakly fair execution of @main terminates, and every final state has each buffer at the fold of the
    operations over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.RefValue.lean ====
/-
  The reference's results as the whole-array network of its arguments.

  The line of operations is read stage by stage: the endpoint vectors, then for each of the three gates a graph
  convolution and (for the update and reset gates) the gate itself, then the new state, then the output layer. A stage
  reads only what earlier stages left and the arguments, which no operation writes.
-/
import proofs.«131946_j40037685133528_1_alg».proof.Proof.RefOps
import proofs.«131946_j40037685133528_1_alg».proof.Proof.Agg

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Reads, wherever one is left, of an operation's own result and of a buffer through an operation that does not write it. -/
macro "reads_left" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The stages -/

/-- The edges' sources: row 0 of the edge index. -/
theorem ends_src (W : Valuation τ sig (Elt F)) :
    after ch0 W (Proc.devRef .tc main_v1) = Spec.src (W (Proc.devRef .tc main_arg1)) := by
  after_results_simp
  reads_left
  unfold Spec.src
  first | with_reducible rfl | rfl

/-- The edges' targets: row 1 of the edge index. -/
theorem ends_dst (W : Valuation τ sig (Elt F)) :
    after ch0 W (Proc.devRef .tc main_v3) = Spec.dst (W (Proc.devRef .tc main_arg1)) := by
  after_results_simp
  reads_left
  unfold Spec.dst
  first | with_reducible rfl | rfl

set_option maxHeartbeats 4000000 in
set_option maxRecDepth 8192 in
/-- One graph convolution, read off its stretch of the line. -/
theorem convZ (W : Valuation τ sig (Elt F)) :
    after (ch1 ++ ch2) W (Proc.devRef .tc main_v50)
      = Spec.conv (W (Proc.devRef .tc main_arg0)) (W (Proc.devRef .tc main_v1)) (W (Proc.devRef .tc main_v3)) (W (Proc.devRef .tc main_arg2)) (W (Proc.devRef .tc main_arg4)) (W (Proc.devRef .tc main_arg5)) := by
  simp only [ch1, ch2, List.cons_append, List.nil_append]
  after_results_simp
  reads_left
  try simp only [TRef.ofBuf, TRef.toBuf, cast_eq, id_eq]
  unfold Spec.conv Spec.coef Spec.invSqrt Spec.degree Spec.asIndex Spec.withLoops Spec.weights Spec.biasRows
  first | with_reducible rfl | rfl

set_option maxHeartbeats 4000000 in
/-- One gate, read off its stretch of the line. -/
theorem gateZ (W : Valuation τ sig (Elt F)) :
    after ch3 W (Proc.devRef .tc main_v61) = Spec.gate (W (Proc.devRef .tc main_v50)) (W (Proc.devRef .tc main_arg3)) (W (Proc.devRef .tc main_arg10)) (W (Proc.devRef .tc main_arg11)) := by
  after_results_simp
  reads_left
  unfold Spec.gate Spec.sigmoid Spec.affine2 Spec.ones Spec.biasRows
  first | with_reducible rfl | rfl

set_option maxHeartbeats 4000000 in
set_option maxRecDepth 8192 in
/-- One graph convolution, read off its stretch of the line. -/
theorem convR (W : Valuation τ sig (Elt F)) :
    after (ch4 ++ ch5) W (Proc.devRef .tc main_v108)
      = Spec.conv (W (Proc.devRef .tc main_arg0)) (W (Proc.devRef .tc main_v1)) (W (Proc.devRef .tc main_v3)) (W (Proc.devRef .tc main_arg2)) (W (Proc.devRef .tc main_arg6)) (W (Proc.devRef .tc main_arg7)) := by
  simp only [ch4, ch5, List.cons_append, List.nil_append]
  after_results_simp
  reads_left
  try simp only [TRef.ofBuf, TRef.toBuf, cast_eq, id_eq]
  unfold Spec.conv Spec.coef Spec.invSqrt Spec.degree Spec.asIndex Spec.withLoops Spec.weights Spec.biasRows
  first | with_reducible rfl | rfl

set_option maxHeartbeats 4000000 in
/-- One gate, read off its stretch of the line. -/
theorem gateR (W : Valuation τ sig (Elt F)) :
    after ch6 W (Proc.devRef .tc main_v119) = Spec.gate (W (Proc.devRef .tc main_v108)) (W (Proc.devRef .tc main_arg3)) (W (Proc.devRef .tc main_arg12)) (W (Proc.devRef .tc main_arg13)) := by
  after_results_simp
  reads_left
  unfold Spec.gate Spec.sigmoid Spec.affine2 Spec.ones Spec.biasRows
  first | with_reducible rfl | rfl

set_option maxHeartbeats 4000000 in
set_option maxRecDepth 8192 in
/-- One graph convolution, read off its stretch of the line. -/
theorem convH (W : Valuation τ sig (Elt F)) :
    after (ch7 ++ ch8) W (Proc.devRef .tc main_v166)
      = Spec.conv (W (Proc.devRef .tc main_arg0)) (W (Proc.devRef .tc main_v1)) (W (Proc.devRef .tc main_v3)) (W (Proc.devRef .tc main_arg2)) (W (Proc.devRef .tc main_arg8)) (W (Proc.devRef .tc main_arg9)) := by
  simp only [ch7, ch8, List.cons_append, List.nil_append]
  after_results_simp
  reads_left
  try simp only [TRef.ofBuf, TRef.toBuf, cast_eq, id_eq]
  unfold Spec.conv Spec.coef Spec.invSqrt Spec.degree Spec.asIndex Spec.withLoops Spec.weights Spec.biasRows
  first | with_reducible rfl | rfl

set_option maxHeartbeats 4000000 in
/-- The new state from the two gates, the candidate's convolution and the previous state. -/
theorem newState (W : Valuation τ sig (Elt F)) :
    after ch9 W (Proc.devRef .tc main_v178)
      = Spec.hnew (W (Proc.devRef .tc main_v61)) (W (Proc.devRef .tc main_v119)) (W (Proc.devRef .tc main_v166)) (W (Proc.devRef .tc main_arg3)) (W (Proc.devRef .tc main_arg14)) (W (Proc.devRef .tc main_arg15)) := by
  after_results_simp
  reads_left
  unfold Spec.hnew Spec.affine2 Spec.ones Spec.biasRows
  first | with_reducible rfl | rfl

set_option maxHeartbeats 4000000 in
set_option maxRecDepth 8192 in
/-- The output layer on the new state. -/
theorem output (W : Valuation τ sig (Elt F)) :
    after (ch10 ++ ch11) W (Proc.devRef .tc main_v183)
      = Spec.out (W (Proc.devRef .tc main_v178)) (W (Proc.devRef .tc main_arg16)) (W (Proc.devRef .tc main_arg17)) := by
  simp only [ch10, ch11, List.cons_append, List.nil_append]
  after_results_simp
  reads_left
  try simp only [TRef.ofBuf, TRef.toBuf, cast_eq, id_eq]
  unfold Spec.out Spec.elu Spec.ones Spec.zeros
  first | with_reducible rfl | rfl

/-! ## The whole line -/

/-- The new state as the whole-array network of the arguments' contents. -/
def hRef (V : Valuation τ sig (Elt F)) : FVec F S50000x64 .f32 :=
  Spec.hAll
    (Spec.agg (V (Proc.devRef .tc main_arg0)) (V (Proc.devRef .tc main_arg1)) (V (Proc.devRef .tc main_arg2)) (V (Proc.devRef .tc main_arg4)) (V (Proc.devRef .tc main_arg5)))
    (Spec.agg (V (Proc.devRef .tc main_arg0)) (V (Proc.devRef .tc main_arg1)) (V (Proc.devRef .tc main_arg2)) (V (Proc.devRef .tc main_arg6)) (V (Proc.devRef .tc main_arg7)))
    (Spec.agg (V (Proc.devRef .tc main_arg0)) (V (Proc.devRef .tc main_arg1)) (V (Proc.devRef .tc main_arg2)) (V (Proc.devRef .tc main_arg8)) (V (Proc.devRef .tc main_arg9)))
    (V (Proc.devRef .tc main_arg3)) (V (Proc.devRef .tc main_arg10)) (V (Proc.devRef .tc main_arg11)) (V (Proc.devRef .tc main_arg12)) (V (Proc.devRef .tc main_arg13))
    (V (Proc.devRef .tc main_arg14)) (V (Proc.devRef .tc main_arg15))

/-- Every buffer some operation of the line writes. -/
abbrev allW : List (Ref sig .tc) :=
  ch0_W ++ ch1_W ++ ch2_W ++ ch3_W ++ ch4_W ++ ch5_W ++ ch6_W ++ ch7_W ++ ch8_W ++ ch9_W ++ ch10_W ++ ch11_W

/-- A buffer no operation writes keeps its contents through the whole line. -/
theorem ops_keep (V : Valuation τ sig (Elt F)) (r : Ref sig .tc) (h : r ∉ allW) :
    after ops V (Proc.devRef .tc r) = V (Proc.devRef .tc r) := by
  simp only [allW, List.mem_append, not_or] at h
  obtain ⟨⟨⟨⟨⟨⟨⟨⟨⟨⟨⟨g0, g1⟩, g2⟩, g3⟩, g4⟩, g5⟩, g6⟩, g7⟩, g8⟩, g9⟩, g10⟩, g11⟩ := h
  simp only [ops, after_append]
  rw [ch11_keep _ r g11, ch10_keep _ r g10, ch9_keep _ r g9, ch8_keep _ r g8, ch7_keep _ r g7, ch6_keep _ r g6,
    ch5_keep _ r g5, ch4_keep _ r g4, ch3_keep _ r g3, ch2_keep _ r g2, ch1_keep _ r g1, ch0_keep _ r g0]

set_option maxHeartbeats 4000000 in
/-- The two results of the line: the new state and the output, as the whole-array network of the arguments. -/
theorem ops_values (V : Valuation τ sig (Elt F)) :
    after ops V (Proc.devRef .tc main_v178) = hRef V
    ∧ after ops V (Proc.devRef .tc main_v183) = Spec.out (hRef V) (V (Proc.devRef .tc main_arg16)) (V (Proc.devRef .tc main_arg17)) := by
  simp only [ops, after_append]
  generalize h0 : after ch0 V = V0
  generalize h1 : after ch1 V0 = V1
  generalize h2 : after ch2 V1 = V2
  generalize h3 : after ch3 V2 = V3
  generalize h4 : after ch4 V3 = V4
  generalize h5 : after ch5 V4 = V5
  generalize h6 : after ch6 V5 = V6
  generalize h7 : after ch7 V6 = V7
  generalize h8 : after ch8 V7 = V8
  generalize h9 : after ch9 V8 = V9
  generalize h10 : after ch10 V9 = V10
  generalize h11 : after ch11 V10 = V11
  have k0 (r : Ref sig .tc) (hr : r ∉ ch0_W) : V0 (Proc.devRef .tc r) = V (Proc.devRef .tc r) := by
    rw [← h0]; exact ch0_keep _ r hr
  have k1 (r : Ref sig .tc) (hr : r ∉ ch1_W) : V1 (Proc.devRef .tc r) = V0 (Proc.devRef .tc r) := by
    rw [← h1]; exact ch1_keep _ r hr
  have k2 (r : Ref sig .tc) (hr : r ∉ ch2_W) : V2 (Proc.devRef .tc r) = V1 (Proc.devRef .tc r) := by
    rw [← h2]; exact ch2_keep _ r hr
  have k3 (r : Ref sig .tc) (hr : r ∉ ch3_W) : V3 (Proc.devRef .tc r) = V2 (Proc.devRef .tc r) := by
    rw [← h3]; exact ch3_keep _ r hr
  have k4 (r : Ref sig .tc) (hr : r ∉ ch4_W) : V4 (Proc.devRef .tc r) = V3 (Proc.devRef .tc r) := by
    rw [← h4]; exact ch4_keep _ r hr
  have k5 (r : Ref sig .tc) (hr : r ∉ ch5_W) : V5 (Proc.devRef .tc r) = V4 (Proc.devRef .tc r) := by
    rw [← h5]; exact ch5_keep _ r hr
  have k6 (r : Ref sig .tc) (hr : r ∉ ch6_W) : V6 (Proc.devRef .tc r) = V5 (Proc.devRef .tc r) := by
    rw [← h6]; exact ch6_keep _ r hr
  have k7 (r : Ref sig .tc) (hr : r ∉ ch7_W) : V7 (Proc.devRef .tc r) = V6 (Proc.devRef .tc r) := by
    rw [← h7]; exact ch7_keep _ r hr
  have k8 (r : Ref sig .tc) (hr : r ∉ ch8_W) : V8 (Proc.devRef .tc r) = V7 (Proc.devRef .tc r) := by
    rw [← h8]; exact ch8_keep _ r hr
  have k9 (r : Ref sig .tc) (hr : r ∉ ch9_W) : V9 (Proc.devRef .tc r) = V8 (Proc.devRef .tc r) := by
    rw [← h9]; exact ch9_keep _ r hr
  have k10 (r : Ref sig .tc) (hr : r ∉ ch10_W) : V10 (Proc.devRef .tc r) = V9 (Proc.devRef .tc r) := by
    rw [← h10]; exact ch10_keep _ r hr
  have k11 (r : Ref sig .tc) (hr : r ∉ ch11_W) : V11 (Proc.devRef .tc r) = V10 (Proc.devRef .tc r) := by
    rw [← h11]; exact ch11_keep _ r hr
  have a0_arg0 : V0 (Proc.devRef .tc main_arg0) = V (Proc.devRef .tc main_arg0) := by rw [k0 main_arg0 (by decide)]
  have a0_arg2 : V0 (Proc.devRef .tc main_arg2) = V (Proc.devRef .tc main_arg2) := by rw [k0 main_arg2 (by decide)]
  have a0_arg4 : V0 (Proc.devRef .tc main_arg4) = V (Proc.devRef .tc main_arg4) := by rw [k0 main_arg4 (by decide)]
  have a0_arg5 : V0 (Proc.devRef .tc main_arg5) = V (Proc.devRef .tc main_arg5) := by rw [k0 main_arg5 (by decide)]
  have a2_arg3 : V2 (Proc.devRef .tc main_arg3) = V (Proc.devRef .tc main_arg3) := by rw [k2 main_arg3 (by decide), k1 main_arg3 (by decide), k0 main_arg3 (by decide)]
  have a2_arg10 : V2 (Proc.devRef .tc main_arg10) = V (Proc.devRef .tc main_arg10) := by rw [k2 main_arg10 (by decide), k1 main_arg10 (by decide), k0 main_arg10 (by decide)]
  have a2_arg11 : V2 (Proc.devRef .tc main_arg11) = V (Proc.devRef .tc main_arg11) := by rw [k2 main_arg11 (by decide), k1 main_arg11 (by decide), k0 main_arg11 (by decide)]
  have a3_arg0 : V3 (Proc.devRef .tc main_arg0) = V (Proc.devRef .tc main_arg0) := by rw [k3 main_arg0 (by decide), k2 main_arg0 (by decide), k1 main_arg0 (by decide), k0 main_arg0 (by decide)]
  have a3_arg2 : V3 (Proc.devRef .tc main_arg2) = V (Proc.devRef .tc main_arg2) := by rw [k3 main_arg2 (by decide), k2 main_arg2 (by decide), k1 main_arg2 (by decide), k0 main_arg2 (by decide)]
  have a3_arg6 : V3 (Proc.devRef .tc main_arg6) = V (Proc.devRef .tc main_arg6) := by rw [k3 main_arg6 (by decide), k2 main_arg6 (by decide), k1 main_arg6 (by decide), k0 main_arg6 (by decide)]
  have a3_arg7 : V3 (Proc.devRef .tc main_arg7) = V (Proc.devRef .tc main_arg7) := by rw [k3 main_arg7 (by decide), k2 main_arg7 (by decide), k1 main_arg7 (by decide), k0 main_arg7 (by decide)]
  have a5_arg3 : V5 (Proc.devRef .tc main_arg3) = V (Proc.devRef .tc main_arg3) := by rw [k5 main_arg3 (by decide), k4 main_arg3 (by decide), k3 main_arg3 (by decide), k2 main_arg3 (by decide), k1 main_arg3 (by decide), k0 main_arg3 (by decide)]
  have a5_arg12 : V5 (Proc.devRef .tc main_arg12) = V (Proc.devRef .tc main_arg12) := by rw [k5 main_arg12 (by decide), k4 main_arg12 (by decide), k3 main_arg12 (by decide), k2 main_arg12 (by decide), k1 main_arg12 (by decide), k0 main_arg12 (by decide)]
  have a5_arg13 : V5 (Proc.devRef .tc main_arg13) = V (Proc.devRef .tc main_arg13) := by rw [k5 main_arg13 (by decide), k4 main_arg13 (by decide), k3 main_arg13 (by decide), k2 main_arg13 (by decide), k1 main_arg13 (by decide), k0 main_arg13 (by decide)]
  have a6_arg0 : V6 (Proc.devRef .tc main_arg0) = V (Proc.devRef .tc main_arg0) := by rw [k6 main_arg0 (by decide), k5 main_arg0 (by decide), k4 main_arg0 (by decide), k3 main_arg0 (by decide), k2 main_arg0 (by decide), k1 main_arg0 (by decide), k0 main_arg0 (by decide)]
  have a6_arg2 : V6 (Proc.devRef .tc main_arg2) = V (Proc.devRef .tc main_arg2) := by rw [k6 main_arg2 (by decide), k5 main_arg2 (by decide), k4 main_arg2 (by decide), k3 main_arg2 (by decide), k2 main_arg2 (by decide), k1 main_arg2 (by decide), k0 main_arg2 (by decide)]
  have a6_arg8 : V6 (Proc.devRef .tc main_arg8) = V (Proc.devRef .tc main_arg8) := by rw [k6 main_arg8 (by decide), k5 main_arg8 (by decide), k4 main_arg8 (by decide), k3 main_arg8 (by decide), k2 main_arg8 (by decide), k1 main_arg8 (by decide), k0 main_arg8 (by decide)]
  have a6_arg9 : V6 (Proc.devRef .tc main_arg9) = V (Proc.devRef .tc main_arg9) := by rw [k6 main_arg9 (by decide), k5 main_arg9 (by decide), k4 main_arg9 (by decide), k3 main_arg9 (by decide), k2 main_arg9 (by decide), k1 main_arg9 (by decide), k0 main_arg9 (by decide)]
  have a8_arg3 : V8 (Proc.devRef .tc main_arg3) = V (Proc.devRef .tc main_arg3) := by rw [k8 main_arg3 (by decide), k7 main_arg3 (by decide), k6 main_arg3 (by decide), k5 main_arg3 (by decide), k4 main_arg3 (by decide), k3 main_arg3 (by decide), k2 main_arg3 (by decide), k1 main_arg3 (by decide), k0 main_arg3 (by decide)]
  have a8_arg14 : V8 (Proc.devRef .tc main_arg14) = V (Proc.devRef .tc main_arg14) := by rw [k8 main_arg14 (by decide), k7 main_arg14 (by decide), k6 main_arg14 (by decide), k5 main_arg14 (by decide), k4 main_arg14 (by decide), k3 main_arg14 (by decide), k2 main_arg14 (by decide), k1 main_arg14 (by decide), k0 main_arg14 (by decide)]
  have a8_arg15 : V8 (Proc.devRef .tc main_arg15) = V (Proc.devRef .tc main_arg15) := by rw [k8 main_arg15 (by decide), k7 main_arg15 (by decide), k6 main_arg15 (by decide), k5 main_arg15 (by decide), k4 main_arg15 (by decide), k3 main_arg15 (by decide), k2 main_arg15 (by decide), k1 main_arg15 (by decide), k0 main_arg15 (by decide)]
  have a9_arg16 : V9 (Proc.devRef .tc main_arg16) = V (Proc.devRef .tc main_arg16) := by rw [k9 main_arg16 (by decide), k8 main_arg16 (by decide), k7 main_arg16 (by decide), k6 main_arg16 (by decide), k5 main_arg16 (by decide), k4 main_arg16 (by decide), k3 main_arg16 (by decide), k2 main_arg16 (by decide), k1 main_arg16 (by decide), k0 main_arg16 (by decide)]
  have a9_arg17 : V9 (Proc.devRef .tc main_arg17) = V (Proc.devRef .tc main_arg17) := by rw [k9 main_arg17 (by decide), k8 main_arg17 (by decide), k7 main_arg17 (by decide), k6 main_arg17 (by decide), k5 main_arg17 (by decide), k4 main_arg17 (by decide), k3 main_arg17 (by decide), k2 main_arg17 (by decide), k1 main_arg17 (by decide), k0 main_arg17 (by decide)]
  -- the endpoint vectors, and that they stay
  have cS0 : V0 (Proc.devRef .tc main_v1) = Spec.src (V (Proc.devRef .tc main_arg1)) := by rw [← h0]; exact ends_src V
  have cD0 : V0 (Proc.devRef .tc main_v3) = Spec.dst (V (Proc.devRef .tc main_arg1)) := by rw [← h0]; exact ends_dst V
  have cS3 : V3 (Proc.devRef .tc main_v1) = Spec.src (V (Proc.devRef .tc main_arg1)) := by rw [k3 main_v1 (by decide), k2 main_v1 (by decide), k1 main_v1 (by decide), cS0]
  have cD3 : V3 (Proc.devRef .tc main_v3) = Spec.dst (V (Proc.devRef .tc main_arg1)) := by rw [k3 main_v3 (by decide), k2 main_v3 (by decide), k1 main_v3 (by decide), cD0]
  have cS6 : V6 (Proc.devRef .tc main_v1) = Spec.src (V (Proc.devRef .tc main_arg1)) := by rw [k6 main_v1 (by decide), k5 main_v1 (by decide), k4 main_v1 (by decide), k3 main_v1 (by decide), k2 main_v1 (by decide), k1 main_v1 (by decide), cS0]
  have cD6 : V6 (Proc.devRef .tc main_v3) = Spec.dst (V (Proc.devRef .tc main_arg1)) := by rw [k6 main_v3 (by decide), k5 main_v3 (by decide), k4 main_v3 (by decide), k3 main_v3 (by decide), k2 main_v3 (by decide), k1 main_v3 (by decide), cD0]
  -- the update gate
  have cAZ : V2 (Proc.devRef .tc main_v50) = Spec.agg (V (Proc.devRef .tc main_arg0)) (V (Proc.devRef .tc main_arg1)) (V (Proc.devRef .tc main_arg2)) (V (Proc.devRef .tc main_arg4)) (V (Proc.devRef .tc main_arg5)) := by
    rw [← h2, ← h1, ← after_append, convZ V0, a0_arg0, cS0, cD0, a0_arg2, a0_arg4, a0_arg5]; rfl
  have cZ : V3 (Proc.devRef .tc main_v61) = Spec.gate (Spec.agg (V (Proc.devRef .tc main_arg0)) (V (Proc.devRef .tc main_arg1)) (V (Proc.devRef .tc main_arg2)) (V (Proc.devRef .tc main_arg4)) (V (Proc.devRef .tc main_arg5))) (V (Proc.devRef .tc main_arg3)) (V (Proc.devRef .tc main_arg10)) (V (Proc.devRef .tc main_arg11)) := by
    rw [← h3, gateZ V2, cAZ, a2_arg3, a2_arg10, a2_arg11]
  -- the reset gate
  have cAR : V5 (Proc.devRef .tc main_v108) = Spec.agg (V (Proc.devRef .tc main_arg0)) (V (Proc.devRef .tc main_arg1)) (V (Proc.devRef .tc main_arg2)) (V (Proc.devRef .tc main_arg6)) (V (Proc.devRef .tc main_arg7)) := by
    rw [← h5, ← h4, ← after_append, convR V3, a3_arg0, cS3, cD3, a3_arg2, a3_arg6, a3_arg7]; rfl
  have cR : V6 (Proc.devRef .tc main_v119) = Spec.gate (Spec.agg (V (Proc.devRef .tc main_arg0)) (V (Proc.devRef .tc main_arg1)) (V (Proc.devRef .tc main_arg2)) (V (Proc.devRef .tc main_arg6)) (V (Proc.devRef .tc main_arg7))) (V (Proc.devRef .tc main_arg3)) (V (Proc.devRef .tc main_arg12)) (V (Proc.devRef .tc main_arg13)) := by
    rw [← h6, gateR V5, cAR, a5_arg3, a5_arg12, a5_arg13]
  -- the candidate state's convolution
  have cAH : V8 (Proc.devRef .tc main_v166) = Spec.agg (V (Proc.devRef .tc main_arg0)) (V (Proc.devRef .tc main_arg1)) (V (Proc.devRef .tc main_arg2)) (V (Proc.devRef .tc main_arg8)) (V (Proc.devRef .tc main_arg9)) := by
    rw [← h8, ← h7, ← after_append, convH V6, a6_arg0, cS6, cD6, a6_arg2, a6_arg8, a6_arg9]; rfl
  have cZ8 : V8 (Proc.devRef .tc main_v61) = V3 (Proc.devRef .tc main_v61) := by rw [k8 main_v61 (by decide), k7 main_v61 (by decide), k6 main_v61 (by decide), k5 main_v61 (by decide), k4 main_v61 (by decide)]
  have cR8 : V8 (Proc.devRef .tc main_v119) = V6 (Proc.devRef .tc main_v119) := by rw [k8 main_v119 (by decide), k7 main_v119 (by decide)]
  -- the new state and the output
  have cH : V9 (Proc.devRef .tc main_v178) = hRef V := by
    rw [← h9, newState V8, cZ8, cZ, cR8, cR, cAH, a8_arg3, a8_arg14, a8_arg15]; rfl
  have cY : V11 (Proc.devRef .tc main_v183) = Spec.out (hRef V) (V (Proc.devRef .tc main_arg16)) (V (Proc.devRef .tc main_arg17)) := by
    rw [← h11, ← h10, ← after_append, output V9, cH, a9_arg16, a9_arg17]
  exact ⟨by rw [k11 main_v178 (by decide), k10 main_v178 (by decide), cH], cY⟩

end Cert.ReferenceIdeal.Line

end
-- ==== Proof.lean ====
/-
  The certificate: a recurrent graph cell (three graph convolutions feeding a gated recurrent unit and an output layer)
  computed by one tiled kernel after host-side convolutions, against the whole-array reference.

  Both programs compute the three convolutions on the host with the same operations (the kernel's program computes the
  edge coefficients once, the reference three times: the same function of the arguments). The dense part — two gates
  σ([agg | H] · W + b), the candidate tanh([agg | H ∘ R] · W + b), the new state Z ∘ H + (1 - Z) ∘ candidate, and the
  output elu(h) · W + b — is row-wise: the kernel computes it on 25 blocks of 2000 node rows, the reference on the whole
  arrays. At the exact instance a narrowing of the float format is the identity, the matrix unit's product into a zero
  accumulator and the host's product are the same sum, the one-operation logistic function is 1 / (1 + exp (-x)), and
  exp x - 1 is expm1 x; so block by block the kernel's rows are the reference's rows, and the blocks cover the arrays.
  No law here needs the inputs finite: the two sides are the same expression entry by entry.
-/
import proofs.«131946_j40037685133528_1_alg».proof.Defs
import proofs.«131946_j40037685133528_1_alg».proof.Proof.Gen.Kernel
import proofs.«131946_j40037685133528_1_alg».proof.Proof.Gen.Kernel.Frame
import proofs.«131946_j40037685133528_1_alg».proof.Proof.Gen.KernelIdeal
import proofs.«131946_j40037685133528_1_alg».proof.Proof.Gen.KernelIdeal.Frame
import proofs.«131946_j40037685133528_1_alg».proof.Proof.Gen.KernelIdeal.Value
import proofs.«131946_j40037685133528_1_alg».proof.Proof.Gen.ReferenceIdeal
import proofs.«131946_j40037685133528_1_alg».proof.Proof.Gen.Pre_finite_inputs
import proofs.«131946_j40037685133528_1_alg».proof.Proof.KernelBlocks
import proofs.«131946_j40037685133528_1_alg».proof.Proof.KernelHost
import proofs.«131946_j40037685133528_1_alg».proof.Proof.KernelBias
import proofs.«131946_j40037685133528_1_alg».proof.Proof.RefValue
import Idealize.ShloMosaic.Adequacy
import Idealize.ShloMosaic.Init

noncomputable section

namespace Cert.Proof

open Idealize.ShloMosaic Idealize.ShloMosaic.TcCoe Idealize.SL.Sem
open Cert.ReferenceIdeal (Line.hRef Line.ops_values Line.ops_keep Line.run_main)

/-- The reference's run: both results as the whole-array network of the arguments, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
      r.2.mem ((c.tc : Thread Cert.ReferenceIdeal.nD Cert.ReferenceIdeal.τ).loc Cert.ReferenceIdeal.main_v183)
          = Cert.ReferenceIdeal.Spec.out (Cert.ReferenceIdeal.Line.hRef (StableHlo.launchContents m c))
              (StableHlo.launchContents m c (Proc.devRef .tc Cert.ReferenceIdeal.main_arg16))
              (StableHlo.launchContents m c (Proc.devRef .tc Cert.ReferenceIdeal.main_arg17))
      ∧ r.2.mem ((c.tc : Thread Cert.ReferenceIdeal.nD Cert.ReferenceIdeal.τ).loc Cert.ReferenceIdeal.main_v178) = Cert.ReferenceIdeal.Line.hRef (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17) :=
  (θ_run (Cert.ReferenceIdeal.defs (F := Ideal)) _ _).mono (fun r h c =>
    ⟨(h c Cert.ReferenceIdeal.main_v183).trans (Cert.ReferenceIdeal.Line.ops_values _).2,
      (h c Cert.ReferenceIdeal.main_v178).trans (Cert.ReferenceIdeal.Line.ops_values _).1,
      (h c Cert.ReferenceIdeal.main_arg0).trans (Cert.ReferenceIdeal.Line.ops_keep _ Cert.ReferenceIdeal.main_arg0 (by decide)),
      (h c Cert.ReferenceIdeal.main_arg1).trans (Cert.ReferenceIdeal.Line.ops_keep _ Cert.ReferenceIdeal.main_arg1 (by decide)),
      (h c Cert.ReferenceIdeal.main_arg2).trans (Cert.ReferenceIdeal.Line.ops_keep _ Cert.ReferenceIdeal.main_arg2 (by decide)),
      (h c Cert.ReferenceIdeal.main_arg3).trans (Cert.ReferenceIdeal.Line.ops_keep _ Cert.ReferenceIdeal.main_arg3 (by decide)),
      (h c Cert.ReferenceIdeal.main_arg4).trans (Cert.ReferenceIdeal.Line.ops_keep _ Cert.ReferenceIdeal.main_arg4 (by decide)),
      (h c Cert.ReferenceIdeal.main_arg5).trans (Cert.ReferenceIdeal.Line.ops_keep _ Cert.ReferenceIdeal.main_arg5 (by decide)),
      (h c Cert.ReferenceIdeal.main_arg6).trans (Cert.ReferenceIdeal.Line.ops_keep _ Cert.ReferenceIdeal.main_arg6 (by decide)),
      (h c Cert.ReferenceIdeal.main_arg7).trans (Cert.ReferenceIdeal.Line.ops_keep _ Cert.ReferenceIdeal.main_arg7 (by decide)),
      (h c Cert.ReferenceIdeal.main_arg8).trans (Cert.ReferenceIdeal.Line.ops_keep _ Cert.ReferenceIdeal.main_arg8 (by decide)),
      (h c Cert.ReferenceIdeal.main_arg9).trans (Cert.ReferenceIdeal.Line.ops_keep _ Cert.ReferenceIdeal.main_arg9 (by decide)),
      (h c Cert.ReferenceIdeal.main_arg10).trans (Cert.ReferenceIdeal.Line.ops_keep _ Cert.ReferenceIdeal.main_arg10 (by decide)),
      (h c Cert.ReferenceIdeal.main_arg11).trans (Cert.ReferenceIdeal.Line.ops_keep _ Cert.ReferenceIdeal.main_arg11 (by decide)),
      (h c Cert.ReferenceIdeal.main_arg12).trans (Cert.ReferenceIdeal.Line.ops_keep _ Cert.ReferenceIdeal.main_arg12 (by decide)),
      (h c Cert.ReferenceIdeal.main_arg13).trans (Cert.ReferenceIdeal.Line.ops_keep _ Cert.ReferenceIdeal.main_arg13 (by decide)),
      (h c Cert.ReferenceIdeal.main_arg14).trans (Cert.ReferenceIdeal.Line.ops_keep _ Cert.ReferenceIdeal.main_arg14 (by decide)),
      (h c Cert.ReferenceIdeal.main_arg15).trans (Cert.ReferenceIdeal.Line.ops_keep _ Cert.ReferenceIdeal.main_arg15 (by decide)),
      (h c Cert.ReferenceIdeal.main_arg16).trans (Cert.ReferenceIdeal.Line.ops_keep _ Cert.ReferenceIdeal.main_arg16 (by decide)),
      (h c Cert.ReferenceIdeal.main_arg17).trans (Cert.ReferenceIdeal.Line.ops_keep _ Cert.ReferenceIdeal.main_arg17 (by decide))⟩)
    (Cert.ReferenceIdeal.Line.run_main (F := Ideal) m ρ)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2.2) (ref_run m ρ)

/-- The reference's new state, of arguments that agree with the kernel's, is the whole-array new state the kernel's
    blocks were shown to tile: the kernel's staged arrays are the reference's convolutions, its bias rows the vectors. -/
theorem state_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (c : Dev Cert.KernelIdeal.nD) :
    Cert.ReferenceIdeal.Line.hRef (StableHlo.launchContents m' c) = Cert.KernelIdeal.Blocks.hArr m c
    ∧ Cert.ReferenceIdeal.Spec.out (Cert.ReferenceIdeal.Line.hRef (StableHlo.launchContents m' c))
          (StableHlo.launchContents m' c (Proc.devRef .tc Cert.ReferenceIdeal.main_arg16))
          (StableHlo.launchContents m' c (Proc.devRef .tc Cert.ReferenceIdeal.main_arg17))
        = Cert.KernelIdeal.Blocks.yArr m c := by
  have e0 : StableHlo.launchContents m' c (Proc.devRef .tc Cert.ReferenceIdeal.main_arg0) = m ((c.tc : Thread Cert.KernelIdeal.nD Cert.KernelIdeal.τ).loc Cert.KernelIdeal.main_arg0) := (hagree c).1
  have e1 : StableHlo.launchContents m' c (Proc.devRef .tc Cert.ReferenceIdeal.main_arg1) = m ((c.tc : Thread Cert.KernelIdeal.nD Cert.KernelIdeal.τ).loc Cert.KernelIdeal.main_arg1) := (hagree c).2.1
  have e2 : StableHlo.launchContents m' c (Proc.devRef .tc Cert.ReferenceIdeal.main_arg2) = m ((c.tc : Thread Cert.KernelIdeal.nD Cert.KernelIdeal.τ).loc Cert.KernelIdeal.main_arg2) := (hagree c).2.2.1
  have e3 : StableHlo.launchContents m' c (Proc.devRef .tc Cert.ReferenceIdeal.main_arg3) = m ((c.tc : Thread Cert.KernelIdeal.nD Cert.KernelIdeal.τ).loc Cert.KernelIdeal.main_arg3) := (hagree c).2.2.2.1
  have e4 : StableHlo.launchContents m' c (Proc.devRef .tc Cert.ReferenceIdeal.main_arg4) = m ((c.tc : Thread Cert.KernelIdeal.nD Cert.KernelIdeal.τ).loc Cert.KernelIdeal.main_arg4) := (hagree c).2.2.2.2.1
  have e5 : StableHlo.launchContents m' c (Proc.devRef .tc Cert.ReferenceIdeal.main_arg5) = m ((c.tc : Thread Cert.KernelIdeal.nD Cert.KernelIdeal.τ).loc Cert.KernelIdeal.main_arg5) := (hagree c).2.2.2.2.2.1
  have e6 : StableHlo.launchContents m' c (Proc.devRef .tc Cert.ReferenceIdeal.main_arg6) = m ((c.tc : Thread Cert.KernelIdeal.nD Cert.KernelIdeal.τ).loc Cert.KernelIdeal.main_arg6) := (hagree c).2.2.2.2.2.2.1
  have e7 : StableHlo.launchContents m' c (Proc.devRef .tc Cert.ReferenceIdeal.main_arg7) = m ((c.tc : Thread Cert.KernelIdeal.nD Cert.KernelIdeal.τ).loc Cert.KernelIdeal.main_arg7) := (hagree c).2.2.2.2.2.2.2.1
  have e8 : StableHlo.launchContents m' c (Proc.devRef .tc Cert.ReferenceIdeal.main_arg8) = m ((c.tc : Thread Cert.KernelIdeal.nD Cert.KernelIdeal.τ).loc Cert.KernelIdeal.main_arg8) := (hagree c).2.2.2.2.2.2.2.2.1
  have e9 : StableHlo.launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
  have e10 : StableHlo.launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
  have e11 : StableHlo.launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
  have e12 : StableHlo.launchContents m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
  have e13 : StableHlo.launchContents m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
  have e14 : StableHlo.launchContents m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
  have e15 : StableHlo.launchContents m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2.1
  have e16 : StableHlo.launchContents m' c (Proc.devRef .tc Cert.ReferenceIdeal.main_arg16) = m ((c.tc : Thread Cert.KernelIdeal.nD Cert.KernelIdeal.τ).loc Cert.KernelIdeal.main_arg16) := (hagree c).2.2.2.2.2.2.2.2.2.2.2.2.2.2.2.2.1
  have e17 : StableHlo.launchContents m' c (Proc.devRef .tc Cert.ReferenceIdeal.main_arg17) = m ((c.tc : Thread Cert.KernelIdeal.nD Cert.KernelIdeal.τ).loc Cert.KernelIdeal.main_arg17) := (hagree c).2.2.2.2.2.2.2.2.2.2.2.2.2.2.2.2.2
  have hh : Cert.ReferenceIdeal.Line.hRef (StableHlo.launchContents m' c) = Cert.KernelIdeal.Blocks.hArr m c := by
    unfold Cert.KernelIdeal.Blocks.hArr Cert.ReferenceIdeal.Line.hRef
    rw [Cert.KernelIdeal.HostSide.conv_update m c, Cert.KernelIdeal.HostSide.conv_reset m c,
      Cert.KernelIdeal.HostSide.conv_cand m c, Cert.KernelIdeal.HostSide.bias_update m c,
      Cert.KernelIdeal.HostSide.bias_reset m c, Cert.KernelIdeal.HostSide.bias_cand m c,
      Cert.KernelIdeal.Gen.V_main_arg3 m c, Cert.KernelIdeal.Gen.V_main_arg10 m c, Cert.KernelIdeal.Gen.V_main_arg12 m c,
      Cert.KernelIdeal.Gen.V_main_arg14 m c,
      e0, e1, e2, e3, e4, e5, e6, e7, e8, e9, e10, e11, e12, e13, e14, e15]
  refine ⟨hh, ?_⟩
  rw [hh, e16, e17]
  unfold Cert.KernelIdeal.Blocks.yArr
  rw [Cert.KernelIdeal.HostSide.bias_out m c, Cert.KernelIdeal.Gen.V_main_arg16 m c]

theorem preserves : Cert.preserves_Kernel_KernelIdeal := trivial

/-- From memories agreeing on the arguments both programs end with the whole-array output and new state. -/
theorem algebraic : Cert.algebraic_KernelIdeal_ReferenceIdeal := by
  intro m ρ m' ρ' _ hagree
  refine ⟨fun c => Cert.KernelIdeal.Blocks.yArr m c, fun c => Cert.KernelIdeal.Blocks.hArr m c, ?_, ?_⟩
  · exact (θ_run (Cert.KernelIdeal.defs (F := Ideal)) _ _).mono
      (fun r h c => ⟨(h c).1.trans (Cert.KernelIdeal.Blocks.final12 m c),
        (h c).2.1.trans (Cert.KernelIdeal.Blocks.final13 m c), (h c).2.2⟩)
      (Cert.KernelIdeal.Value.run_blocks m ρ)
  · exact (θ_run (Cert.ReferenceIdeal.defs (F := Ideal)) _ _).mono
      (fun r h c => ⟨(h c).1.trans (state_eq m m' hagree c).2, (h c).2.1.trans (state_eq m m' hagree c).1, (h c).2.2⟩)
      (ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
